-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S8192x256_S8192_d1 : S8192x256.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := mulf main_arg0 main_arg0
  let main_cst_0 : FVec F S_ .f32 := constant S_ .f32 0x00000000#32
  let main_v5 : FVec F S8192 .f32 := (fun x v => Host.reduceAdd x v reducesTo_S8192x256_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S512 : Shape := ⟨1, ![512]⟩
abbrev S256x512 : Shape := ⟨2, ![256, 512]⟩
abbrev S512x512 : Shape := ⟨2, ![512, 512]⟩
abbrev S8192 : Shape := ⟨1, ![8192]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x1, .f32⟩
  | .hbm, ⟨2, _⟩ => ⟨S8192x1, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_27 : BitVec 32 := 0#32
  let v68 : BitVec 1 := Scalar.cmpi .ne v67 c0_i32_27
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  transposes_S512x256_p1_0_S256x512 : S512x256.Transposes [1, 0] S256x512
  reduces_S512x512_S512 : S512x512.Reduces [1] S512
  iota_S512x512_d0_w32 : S512x512.Iotas .tc 32 [0]
  iota_S512x512_d1_w32 : S512x512.Iotas .tc 32 [1]
  shapeCasts_S8192x1_S8192 : S8192x1.ShapeCasts S8192
  reducesTo_S8192_S_d0 : S8192.ReducesTo [0] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S256x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S_, .i1⟩
  | .hbm, ⟨34, _⟩ => ⟨S8192, .i1⟩
  | .hbm, ⟨35, _⟩ => ⟨S8192, .i1⟩
  | .hbm, ⟨36, _⟩ => ⟨S8192, .i1⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S8192x1, .i32⟩
  | .hbm, ⟨55, _⟩ => ⟨S8192x1, .i32⟩
  | .hbm, ⟨56, _⟩ => ⟨S8192x2, .i32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1, .i32⟩
  | .hbm, ⟨74, _⟩ => ⟨S8192x2, .i32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_1 : Ref sig .tc := ⟨.hbm, 26, rfl⟩
abbrev main_call1_v5 : Ref sig .tc := ⟨.hbm, 27, rfl⟩
abbrev main_call1_v6 : Ref sig .tc := ⟨.hbm, 28, rfl⟩
abbrev main_call1_c_2 : Ref sig .tc := ⟨.hbm, 29, rfl⟩
abbrev main_call1_v7 : Ref sig .tc := ⟨.hbm, 30, rfl⟩
abbrev main_call1_v8 : Ref sig .tc := ⟨.hbm, 31, rfl⟩
abbrev main_call1_c_3 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_c_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_cst_11 : Ref sig .tc := ⟨.hbm, 84, rfl⟩
abbrev main_v46 : Ref sig .tc := ⟨.hbm, 85, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.K.Kit.lean ====
/-
  What every module about the kernel's run shares, at any float instance: the buffers' contents when the region is
  entered (the launch contents: no host operation precedes the region), each window's block of its array at a grid
  point, the staging and scratch memrefs the body is called with, the body's two branch conditions in closed form
  over the 256 grid points (point `t` is row block `t / 16`, column block `t % 16`: the first branch, which zeroes the
  three accumulators, is taken where `t % 16 = 0`; the second, which stores the two results, where `t % 16 = 15`),
  where the two result windows are idle and where they are written back, and the region's class invariant spelt over
  the three scratch buffers.
-/
import proofs.«134130_j44985487459095_1_alg».proof.Proof.Gen.Kernel.Launch
import proofs.«134130_j44985487459095_1_alg».proof.Proof.Gen.Kernel.Skeleton
import proofs.«134130_j44985487459095_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s TensorCore buffer contents at launch, as a valuation; -/
abbrev V0 (c : Dev nD) : Valuation τ sig (Elt F) := fun b => m (c, b)
/-- the same read at a TensorCore reference. The region is @main's first line, so this is what it finds. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- The nine host operations after the region allocate nothing. -/
theorem hostOps1_fresh : (hostOps1 : List (HloOp τ sig (Elt F))).Forall fun op => op.fresh = ∅ := by
  simp only [List.Forall]; repeat' constructor

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block (window 0) and the column block (window 1) of the input at point `t`, at their literal type. -/
abbrev xrow (c : Dev nD) (t : Fin cfg0.N) : Vec F S512x256 .f32 := iblk m c 0 t
abbrev xcol (c : Dev nD) (t : Fin cfg0.N) : Vec F S512x256 .f32 := iblk m c 1 t

/-! ## The body's branch conditions -/

/-- The condition of the body's first `scf.if` (the column block is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (the column block is the last), from the grid coordinates. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle, and where the results are written back -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last column block the body stores nothing into either result window, and neither is written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
/-- At the last column block it stores both. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- Each window's current staging memref at point `t`, spelled as the pipeline passes it (`bodyAt0`), and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The three scratch operands (row sum, self term, positive-pair term): whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- One staging buffer of each result window and each scratch, as views through which contents are stated. -/
abbrev VO0_2 : View sig .tc .vmem S512x1 .f32 := (Memref.whole cc0_stg2_0 : Memref sig .tc .vmem S512x1 .f32).view
abbrev VO0_3 : View sig .tc .vmem S512x1 .f32 := (Memref.whole cc0_stg3_0 : Memref sig .tc .vmem S512x1 .f32).view
abbrev VS0_0 : View sig .tc .vmem S512x1 .f32 := scM0_0.view
abbrev VS0_1 : View sig .tc .vmem S512x1 .f32 := scM0_1.view
abbrev VS0_2 : View sig .tc .vmem S512x1 .f32 := scM0_2.view

/-- The region's class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
/-
  The kernel body's run at a row block's FIRST column block (the accumulators are zeroed, then updated; no result is stored): on whole staging and scratch memrefs at given contents, the body runs to any
  continuation that is given the memrefs back — the two input blocks as they were, each buffer the body stored into with
  its stores written as pieces (the run's witness: what each buffer ends holding is read off them).
-/
import proofs.«134130_j44985487459095_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A: the first branch taken, the second not. The three scratch buffers may hold anything on entry; the result
    windows' buffers (`xi2`, `xi3`) are handed back untouched. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 x1 : Vec F S512x256 .f32) :
    Σ' (LS0 : List (View.Piece (Elt F) S512x1 .f32)) (LS1 : List (View.Piece (Elt F) S512x1 .f32)), { LS2 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__simclr_kernel i arg2 harg2 arg3 harg3 arg4 harg4 arg5 harg5 arg6 harg6 arg7 harg7 arg8 harg8) K } := by
  refine ⟨?_, ?_, ?_, fun xi2 xi3 E K => ?run⟩
  case run =>
    simp only [cc0__simclr_kernel_eq_skeleton]; unfold cc0__simclr_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.RunB.lean ====
/-
  The kernel body's run at a column block that is neither the first nor the last (the accumulators are updated; no result is stored): on whole staging and scratch memrefs at given contents, the body runs to any
  continuation that is given the memrefs back — the two input blocks as they were, each buffer the body stored into with
  its stores written as pieces (the run's witness: what each buffer ends holding is read off them).
-/
import proofs.«134130_j44985487459095_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B: neither branch taken. The scratch buffers hold what the point before left (`xs0`, `xs1`, `xs2`); the result
    windows' buffers are handed back untouched. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 x1 : Vec F S512x256 .f32) (xs0 xs1 xs2 : Vec F S512x1 .f32) :
    Σ' (LS0 : List (View.Piece (Elt F) S512x1 .f32)) (LS1 : List (View.Piece (Elt F) S512x1 .f32)), { LS2 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__simclr_kernel i arg2 harg2 arg3 harg3 arg4 harg4 arg5 harg5 arg6 harg6 arg7 harg7 arg8 harg8) K } := by
  refine ⟨?_, ?_, ?_, fun xi2 xi3 E K => ?run⟩
  case run =>
    simp only [cc0__simclr_kernel_eq_skeleton]; unfold cc0__simclr_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.RunC.lean ====
/-
  The kernel body's run at a row block's LAST column block (the accumulators are updated, then both results are stored): on whole staging and scratch memrefs at given contents, the body runs to any
  continuation that is given the memrefs back — the two input blocks as they were, each buffer the body stored into with
  its stores written as pieces (the run's witness: what each buffer ends holding is read off them).
-/
import proofs.«134130_j44985487459095_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C: the first branch not taken, the second taken. The scratch buffers hold what the point before left; the
    result windows' buffers may hold anything on entry and end with the body's stores written (`L2`, `L3`). -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    Σ' (L2 : List (View.Piece (Elt F) S512x1 .f32)) (L3 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__simclr_kernel i arg2 harg2 arg3 harg3 arg4 harg4 arg5 harg5 arg6 harg6 arg7 harg7 arg8 harg8) K } := by
  refine ⟨?_, ?_, ?_, ?_, ?_, fun E K => ?run⟩
  case run =>
    simp only [cc0__simclr_kernel_eq_skeleton]; unfold cc0__simclr_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.Kernel.Hand

end
-- ==== Proof.K.Body.lean ====
/-
  The pipeline's proof data for the kernel's one region, and the body obligation, at any float instance.

  The grid's 256 points run row block by row block; within a row block the column blocks 0 … 15 follow one another. The
  body's two branches are decided by the column block alone, so a point is in one of three cases: the first column
  block (the accumulators are zeroed and updated), a middle one (updated), the last (updated, and the two results
  stored). What the three scratch buffers hold after each point is defined by recursion on the point (`scrAt`): each
  case's stores, read back, over what the point before left; a row block's first point reads nothing of what came
  before it. The two result windows are idle except at a row block's last point, where their buffers take the body's
  stores (`outAt`) and are written back. The invariant between points holds the three scratch buffers at `scrAt`; the one
  array both input windows read is lent to them in two halves.
-/
import proofs.«134130_j44985487459095_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Three buffers' contents: the row sum, the self term, the positive-pair term. -/
abbrev S3 (F : FTy → Type) [FloatOps F] : Type := Vec F S512x1 .f32 × Vec F S512x1 .f32 × Vec F S512x1 .f32

/-- A list of stores read back through a view, over junk. -/
def readBack (v : View sig .tc .vmem S512x1 .f32) (L : List (View.Piece (Elt F) S512x1 .f32)) : Vec F S512x1 .f32 :=
  v.read (Elt F) (v.writes (Elt F) v.junk L)

/-- The three cases' runs at a grid point, on the memrefs the pipeline passes there and the point's input blocks. -/
abbrev runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xrow m c t) (xcol m c t)
abbrev runB (c : Dev nD) (t : Fin cfg0.N) (h0 : ¬t.val % 16 = 0) (h1 : ¬t.val % 16 = 15) (s : S3 F) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xrow m c t) (xcol m c t) s.1 s.2.1 s.2.2
abbrev runC (c : Dev nD) (t : Fin cfg0.N) (h0 : ¬t.val % 16 = 0) (h1 : t.val % 16 = 15) (s : S3 F) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xrow m c t) (xcol m c t) s.1 s.2.1 s.2.2

/-- What each case leaves in the three scratch buffers: its stores read back. -/
def scrA (c : Dev nD) (t : Fin cfg0.N) (h0 : t.val % 16 = 0) (h1 : ¬t.val % 16 = 15) : S3 F :=
  (readBack VS0_0 (runA m c t h0 h1).1, readBack VS0_1 (runA m c t h0 h1).2.1, readBack VS0_2 (runA m c t h0 h1).2.2.1)
def scrB (c : Dev nD) (t : Fin cfg0.N) (h0 : ¬t.val % 16 = 0) (h1 : ¬t.val % 16 = 15) (s : S3 F) : S3 F :=
  (readBack VS0_0 (runB m c t h0 h1 s).1, readBack VS0_1 (runB m c t h0 h1 s).2.1, readBack VS0_2 (runB m c t h0 h1 s).2.2.1)
def scrC (c : Dev nD) (t : Fin cfg0.N) (h0 : ¬t.val % 16 = 0) (h1 : t.val % 16 = 15) (s : S3 F) : S3 F :=
  (readBack VS0_0 (runC m c t h0 h1 s).2.2.1, readBack VS0_1 (runC m c t h0 h1 s).2.2.2.1, readBack VS0_2 (runC m c t h0 h1 s).2.2.2.2.1)

/-- THE ACCUMULATION: what the three scratch buffers hold after the body at position `n`. -/
def scrAt (c : Dev nD) : (n : ℕ) → n < cfg0.N → S3 F
  | 0, hn => scrA m c ⟨0, hn⟩ (Nat.zero_mod _) (show ¬(0 % 16 = 15) by decide)
  | n + 1, hn =>
    if h0 : (n + 1) % 16 = 0 then
      if h1 : (n + 1) % 16 = 15 then False.elim (by omega)
      else scrA m c ⟨n + 1, hn⟩ h0 h1
    else
      if h1 : (n + 1) % 16 = 15 then scrC m c ⟨n + 1, hn⟩ h0 h1 (scrAt c n (Nat.lt_of_succ_lt hn))
      else scrB m c ⟨n + 1, hn⟩ h0 h1 (scrAt c n (Nat.lt_of_succ_lt hn))

/-- What the scratch buffers hold BEFORE point `t` when `t` is not a row block's first point: what the point before left. -/
abbrev scrBefore (c : Dev nD) (t : Fin cfg0.N) : S3 F := scrAt m c (t.val - 1) (Nat.lt_of_le_of_lt (Nat.sub_le _ _) t.isLt)

theorem scrAt_A (c : Dev nD) (t : Fin cfg0.N) (h0 : t.val % 16 = 0) (h1 : ¬t.val % 16 = 15) :
    scrAt m c t.val t.isLt = scrA m c t h0 h1 := by
  obtain ⟨n, hn⟩ := t
  cases n with
  | zero => exact rfl
  | succ n => exact (dif_pos h0).trans ((dif_neg h1).trans rfl)
theorem scrAt_B (c : Dev nD) (t : Fin cfg0.N) (h0 : ¬t.val % 16 = 0) (h1 : ¬t.val % 16 = 15) :
    scrAt m c t.val t.isLt = scrB m c t h0 h1 (scrBefore m c t) := by
  obtain ⟨n, hn⟩ := t
  cases n with
  | zero => exact absurd (Nat.zero_mod _) h0
  | succ n => exact (dif_neg h0).trans ((dif_neg h1).trans rfl)
theorem scrAt_C (c : Dev nD) (t : Fin cfg0.N) (h0 : ¬t.val % 16 = 0) (h1 : t.val % 16 = 15) :
    scrAt m c t.val t.isLt = scrC m c t h0 h1 (scrBefore m c t) := by
  obtain ⟨n, hn⟩ := t
  cases n with
  | zero => exact absurd (Nat.zero_mod _) h0
  | succ n => exact (dif_neg h0).trans ((dif_pos h1).trans rfl)

/-- What the two result windows' buffers hold after the body at point `t`: at a row block's last column block the
    body's stores read back; elsewhere nothing is stored (a placeholder nothing consults: the window is idle there and
    not written back). -/
def outAt (c : Dev nD) (t : Fin cfg0.N) : Vec F S512x1 .f32 × Vec F S512x1 .f32 :=
  if h1 : t.val % 16 = 15 then
    (readBack VO0_2 (runC m c t (by omega) h1 (scrBefore m c t)).1, readBack VO0_3 (runC m c t (by omega) h1 (scrBefore m c t)).2.1)
  else (readBack VO0_2 [], readBack VO0_3 [])

/-- The region invariant before position `n`: before the first point the class's (every scratch at anything);
    afterwards the three scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r))

/-- The proof data of the one pipeline on core `c`: the arrays as the region finds them; after the body each input's
    buffer at its block and each result's at `outAt`; the invariant `PhiS`; nothing owed; the input array lent to its two
    windows in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outAt m c t).1
    | ⟨3, _⟩ => (outAt m c t).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outAt m c t).1 := by dsimp only [dats]
theorem after0_3 (c : Dev nD) (t : Fin cfg0.N) : (dats m 0 c).after 3 t = (outAt m c t).2 := by dsimp only [dats]

/-! ## Every case's stores into a buffer cover it -/

theorem coverA_S0 (c : Dev nD) (t : Fin cfg0.N) (h0 : t.val % 16 = 0) (h1 : ¬t.val % 16 = 15) (y : S512x1.Idx) :
    ∃ pc ∈ (runA m c t h0 h1).1, y ∈ pc.1.set :=
  View.cover_of_tiledL (runA m c t h0 h1).1 S512x1.size (by sl_kernel_rfl) y
theorem coverA_S1 (c : Dev nD) (t : Fin cfg0.N) (h0 : t.val % 16 = 0) (h1 : ¬t.val % 16 = 15) (y : S512x1.Idx) :
    ∃ pc ∈ (runA m c t h0 h1).2.1, y ∈ pc.1.set :=
  View.cover_of_tiledL (runA m c t h0 h1).2.1 S512x1.size (by sl_kernel_rfl) y
theorem coverA_S2 (c : Dev nD) (t : Fin cfg0.N) (h0 : t.val % 16 = 0) (h1 : ¬t.val % 16 = 15) (y : S512x1.Idx) :
    ∃ pc ∈ (runA m c t h0 h1).2.2.1, y ∈ pc.1.set :=
  View.cover_of_tiledL (runA m c t h0 h1).2.2.1 S512x1.size (by sl_kernel_rfl) y

theorem coverB_S0 (c : Dev nD) (t : Fin cfg0.N) (h0 : ¬t.val % 16 = 0) (h1 : ¬t.val % 16 = 15) (s : S3 F) (y : S512x1.Idx) :
    ∃ pc ∈ (runB m c t h0 h1 s).1, y ∈ pc.1.set :=
  View.cover_of_tiledL (runB m c t h0 h1 s).1 S512x1.size (by sl_kernel_rfl) y
theorem coverB_S1 (c : Dev nD) (t : Fin cfg0.N) (h0 : ¬t.val % 16 = 0) (h1 : ¬t.val % 16 = 15) (s : S3 F) (y : S512x1.Idx) :
    ∃ pc ∈ (runB m c t h0 h1 s).2.1, y ∈ pc.1.set :=
  View.cover_of_tiledL (runB m c t h0 h1 s).2.1 S512x1.size (by sl_kernel_rfl) y
theorem coverB_S2 (c : Dev nD) (t : Fin cfg0.N) (h0 : ¬t.val % 16 = 0) (h1 : ¬t.val % 16 = 15) (s : S3 F) (y : S512x1.Idx) :
    ∃ pc ∈ (runB m c t h0 h1 s).2.2.1, y ∈ pc.1.set :=
  View.cover_of_tiledL (runB m c t h0 h1 s).2.2.1 S512x1.size (by sl_kernel_rfl) y

theorem coverC_O2 (c : Dev nD) (t : Fin cfg0.N) (h0 : ¬t.val % 16 = 0) (h1 : t.val % 16 = 15) (s : S3 F) (y : S512x1.Idx) :
    ∃ pc ∈ (runC m c t h0 h1 s).1, y ∈ pc.1.set :=
  View.cover_of_tiledL (runC m c t h0 h1 s).1 S512x1.size (by sl_kernel_rfl) y
theorem coverC_O3 (c : Dev nD) (t : Fin cfg0.N) (h0 : ¬t.val % 16 = 0) (h1 : t.val % 16 = 15) (s : S3 F) (y : S512x1.Idx) :
    ∃ pc ∈ (runC m c t h0 h1 s).2.1, y ∈ pc.1.set :=
  View.cover_of_tiledL (runC m c t h0 h1 s).2.1 S512x1.size (by sl_kernel_rfl) y
theorem coverC_S0 (c : Dev nD) (t : Fin cfg0.N) (h0 : ¬t.val % 16 = 0) (h1 : t.val % 16 = 15) (s : S3 F) (y : S512x1.Idx) :
    ∃ pc ∈ (runC m c t h0 h1 s).2.2.1, y ∈ pc.1.set :=
  View.cover_of_tiledL (runC m c t h0 h1 s).2.2.1 S512x1.size (by sl_kernel_rfl) y
theorem coverC_S1 (c : Dev nD) (t : Fin cfg0.N) (h0 : ¬t.val % 16 = 0) (h1 : t.val % 16 = 15) (s : S3 F) (y : S512x1.Idx) :
    ∃ pc ∈ (runC m c t h0 h1 s).2.2.2.1, y ∈ pc.1.set :=
  View.cover_of_tiledL (runC m c t h0 h1 s).2.2.2.1 S512x1.size (by sl_kernel_rfl) y
theorem coverC_S2 (c : Dev nD) (t : Fin cfg0.N) (h0 : ¬t.val % 16 = 0) (h1 : t.val % 16 = 15) (s : S3 F) (y : S512x1.Idx) :
    ∃ pc ∈ (runC m c t h0 h1 s).2.2.2.2.1, y ∈ pc.1.set :=
  View.cover_of_tiledL (runC m c t h0 h1 s).2.2.2.2.1 S512x1.size (by sl_kernel_rfl) y

/-! ## The invariant, position by position -/

theorem PhiS_zero (c : Dev nD) (n : ℕ) (h : n ≤ cfg0.N) (hz : n = 0) : PhiS m c n h = Pipeline.ΦA spec0 c := by
  subst hz; rfl

/-- After point `n` (before point `n + 1`): the three scratch buffers at that point's contents. -/
theorem PhiS_succ (c : Dev nD) (n : ℕ) (hn : n < cfg0.N) :
    PhiS m c (n + 1) hn = iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r)) := rfl

/-- Before a point that is not the first: the three scratch buffers at what the point before left. -/
theorem PhiS_pos (c : Dev nD) (n : ℕ) (h : n ≤ cfg0.N) (hz : n ≠ 0) :
    PhiS m c n h = iprop(iprop(owns (c : Thread nD τ) scM0_0 fullShare (scrAt m c (n - 1) (by omega)).1 ∗ owns (c : Thread nD τ) scM0_1 fullShare (scrAt m c (n - 1) (by omega)).2.1 ∗ owns (c : Thread nD τ) scM0_2 fullShare (scrAt m c (n - 1) (by omega)).2.2) ∗ (∃ r, prngReg c r)) := by
  cases n with
  | zero => exact absurd rfl hz
  | succ n => rfl

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## The input windows' buffers hold their blocks at every point -/

/-- Window 0 (the row block) is fetched only at a row block's first point; between fetches its block index does not move. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Window 1 (the column block) is fetched at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- A buffer whose stores cover it is owned at the stores read back (through any view of the shape, over anything). -/
theorem owns_readBack (c : Dev nD) (M : Memref sig .tc .vmem S512x1 .f32) (v : View sig .tc .vmem S512x1 .f32)
    (L : List (View.Piece (Elt F) S512x1 .f32)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (readBack v L) := by
  unfold owns readBack
  iintro ⟨%f, H⟩
  iexists _; isplitr
  swap; · iexact H
  ipureintro; exact View.read_writes_of_cover _ _ _ _ _ hL

/-- The results' buffers at a row block's last column block: the body's stores read back. -/
theorem outAt_C (c : Dev nD) (t : Fin cfg0.N) (h0 : ¬t.val % 16 = 0) (h1 : t.val % 16 = 15) :
    outAt m c t = (readBack VO0_2 (runC m c t h0 h1 (scrBefore m c t)).1, readBack VO0_3 (runC m c t h0 h1 (scrBefore m c t)).2.1) := by
  unfold outAt; exact dif_pos h1

/-! ## The body obligation, at a generic point -/

/-- What the body is called with at point `t`: the invariant, nothing owed, each window's current buffer at what it held, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The input windows' buffers hold their blocks; the column block says which of the three cases
    the point is in, and that case's run applies: the invariant hands it the three scratch buffers (at anything at the very
    first point, at what the point before left afterwards) and takes them back at this point's contents, every store
    covering its buffer; a result window's buffer goes through untouched where the window is idle and comes back at the
    body's stores at a row block's last column block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scrAt_A m c t h0 h1]
      unfold scrA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((runA m c t h0 h1).2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iapply (owns_readBack c _ _ _ (coverA_S0 m c t h0 h1)); iexact HS0
            isplitl [HS1]; · iapply (owns_readBack c _ _ _ (coverA_S1 m c t h0 h1)); iexact HS1
            iapply (owns_readBack c _ _ _ (coverA_S2 m c t h0 h1)); iexact HS2
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((runA m c t h0 h1).2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HS0 HS1 HS2 Hg]
        · isplitl [HS0 HS1 HS2]
          · isplitl [HS0]; · iapply (owns_readBack c _ _ _ (coverA_S0 m c t h0 h1)); iexact HS0
            isplitl [HS1]; · iapply (owns_readBack c _ _ _ (coverA_S1 m c t h0 h1)); iexact HS1
            iapply (owns_readBack c _ _ _ (coverA_S2 m c t h0 h1)); iexact HS2
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [scrAt_C m c t h0 h1, outAt_C m c t h0 h1]
      unfold scrC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runC m c t h0 h1 (scrBefore m c t)).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iapply (owns_readBack c _ _ _ (coverC_S0 m c t h0 h1 (scrBefore m c t))); iexact HS0
          isplitl [HS1]; · iapply (owns_readBack c _ _ _ (coverC_S1 m c t h0 h1 (scrBefore m c t))); iexact HS1
          iapply (owns_readBack c _ _ _ (coverC_S2 m c t h0 h1 (scrBefore m c t))); iexact HS2
        iexact Hg
      isplitl [Ho]; · iexact Ho
      isplitl [H0]; · iexact H0
      isplitl [H1]; · iexact H1
      isplitl [H2]; · iapply (owns_readBack c _ _ _ (coverC_O2 m c t h0 h1 (scrBefore m c t))); iexact H2
      iapply (owns_readBack c _ _ _ (coverC_O3 m c t h0 h1 (scrBefore m c t))); iexact H3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scrAt_B m c t h0 h1]
      unfold scrB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runB m c t h0 h1 (scrBefore m c t)).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iapply (owns_readBack c _ _ _ (coverB_S0 m c t h0 h1 (scrBefore m c t))); iexact HS0
          isplitl [HS1]; · iapply (owns_readBack c _ _ _ (coverB_S1 m c t h0 h1 (scrBefore m c t))); iexact HS1
          iapply (owns_readBack c _ _ _ (coverB_S2 m c t h0 h1 (scrBefore m c t))); iexact HS2
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the class invariant) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

/-- After the last point the invariant gives the class invariant back: the scratch contents are forgotten. -/
theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.K.After.lean ====
/-
  The buffers after the region and after the host operations that follow it.

  When the region is left, the two result arrays hold what the library computes from the proof data's write-backs
  (`posArr`: the numerators' column, result 0; `denArr`: the denominators' column, result 1) and every other buffer is as
  launched. The nine host operations that follow (two reshapes to vectors, their quotient, its logarithm, its negation,
  the sum over the rows onto zero, the division by the row count) then run from those contents.
-/
import proofs.«134130_j44985487459095_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The numerators' array (window 2's: result 0) and the denominators' (window 3's: result 1) after the last write-back. -/
abbrev posArr (c : Dev nD) : Buf (Elt F) ((c : Thread nD τ).loc main_v0_0) := (dats m 0 c).arrAt 2 cfg0.N
abbrev denArr (c : Dev nD) : Buf (Elt F) ((c : Thread nD τ).loc main_v0_1) := (dats m 0 c).arrAt 3 cfg0.N

/-- Core `c`'s buffers when the region is left: the launch contents with the two results at their final contents. -/
def V1 (c : Dev nD) : Valuation τ sig (Elt F) :=
  Function.update (Function.update (V0 m c) (Proc.devRef .tc main_v0_0) (posArr m c)) (Proc.devRef .tc main_v0_1) (denArr m c)

/-- and after the nine host operations. -/
def VT (c : Dev nD) : Valuation τ sig (Elt F) := StableHlo.after hostOps1 (V1 m c)

theorem V1_pos (c : Dev nD) : V1 m c (Proc.devRef .tc main_v0_0) = posArr m c := by
  unfold V1
  rw [Function.update_of_ne (StableHlo.devRef_ne_of_ne (by decide))]
  exact Function.update_self ..
theorem V1_den (c : Dev nD) : V1 m c (Proc.devRef .tc main_v0_1) = denArr m c := by
  unfold V1
  exact Function.update_self ..
/-- Every other buffer is as launched. -/
theorem V1_of_ne (c : Dev nD) (b : Ref sig .tc) (h0 : b ≠ main_v0_0) (h1 : b ≠ main_v0_1) :
    V1 m c (Proc.devRef .tc b) = V0 m c (Proc.devRef .tc b) := by
  unfold V1
  rw [Function.update_of_ne (StableHlo.devRef_ne_of_ne h1), Function.update_of_ne (StableHlo.devRef_ne_of_ne h0)]

end Cert.Kernel.Hand

end
-- ==== Proof.K.Launch.lean ====
/-
  The kernel program's run, at any float instance: from any memory with every semaphore at zero, every weakly fair
  execution of @main on the TensorCore terminates without a fault, leaves the argument array as it was, and leaves in the
  result buffer what the nine host operations compute from the two arrays the region wrote.

  @main is the kernel region followed by a line of host operations. The region is entered with the input array lent to its
  two input windows in halves, the two result arrays handed over whole, the three scratch buffers and the generator
  register to the invariant, and every other buffer passing by; it is left with the result arrays at their final contents
  and the input array's halves joined again. The host line then runs over the buffers it touches.
-/
import proofs.«134130_j44985487459095_1_alg».proof.Proof.K.After
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

/-- No table is prefetched: the admissible contents are the empty family's. -/
abbrev admK : (p : Fin 1) → (pcfgs (F := F) p).Adm := fun p => (cfgs p).toPCfg_adm
/-- No core owes another anything: no level is assigned. -/
abbrev noL : GSem nD τ sig → Finset Unit := fun _ => ∅
abbrev noLv : GSem nD τ sig → Unit → ℕ := fun _ _ => 0
/-- The kernel's body has no loop of its own to bound. -/
abbrev noVar : Variants := Variants.none
/-- The ghost algebra is the staging cells' rounds algebra alone, embedded whole. -/
abbrev embK : Emb (UR sig nD τ) (MT nD τ sig Unit (Elt F) ℕ (UR sig nD τ) ℕ) := emb₁

/-- The TensorCore's unscoped buffers: the set the thread states hold at a valuation. -/
abbrev ucs : Finset (DevRef τ sig) := Pipeline.ucRefs τ sig

/-- What rides beside the buffers: the generator register at some state, and that the core owes nothing. -/
abbrev Rgen (c : Dev nD) : sProp 𝕄 := iprop(∃ r, prngReg c r)
abbrev Rowe (c : Dev nD) : sProp 𝕄 := iprop(∃ W, owes (c : Thread nD τ) (0 : CellTallies nD τ sig Unit) W)
abbrev Rside (c : Dev nD) : sProp 𝕄 := iprop(Rgen (F := F) c ∗ Rowe (F := F) c)

/-! ## The windows' arrays and the buffers behind them, one by one -/

/-- The three buffers behind the four windows' arrays (both input windows read the argument), each whole. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0_0) ↦{fullShare} W main_v0_0)
          ∗ (((c : Thread nD τ).loc main_v0_1) ↦{fullShare} W main_v0_1)) := by
  unfold Pipeline.arrBufs
  exact bigSep_eq_bigSepL_of_eq [main_arg0, main_v0_0, main_v0_1] (by decide) (by decide) _

/-- Each window's array is a whole buffer: the pipeline holds all of its elements, at the window's share. -/
theorem arrays0_big (c : Dev nD) (Fa : (w : Fin cfg0.W) → Buf (Elt F) ((cfg0.win w).arr.view.loc (c : Thread nD τ))) :
    ((dats m 0 c).arrays Fa : sProp 𝕄)
      = bigSep Finset.univ fun w : Fin 4 => (((c : Thread nD τ).loc (Pipeline.arrRef spec0 w)) ↦{(dats m 0 c).share w} Fa w : sProp 𝕄) := by
  unfold Dat.arrays
  exact bigSep_congr fun w _ => by rw [(arr_whole0 w).set_eq_univ]

/-- The shares: the two input windows hold the argument in halves, a result window holds its array whole. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl

/-- The pipeline's four arrays, one by one. -/
theorem arrays0_eq (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0_0) ↦{fullShare} Fa 2) ∗ (((c : Thread nD τ).loc main_v0_1) ↦{fullShare} Fa 3)) := by
  rw [arrays0_big, bigSep_W0, share0_0, share0_1, share0_2, share0_3]

/-- No table is prefetched: the tables held are nothing. -/
theorem prefHeld0_emp (c : Dev nD) (q) (pf) :
    (Pipeline.prefHeld (Ix := Unit) (Name := ℕ) (U := UR sig nD τ) (Lvl := ℕ) (Val := Elt F) (pcfgs (F := F) 0).pre c q pf : sProp 𝕄) = BI.emp := by
  unfold Pipeline.prefHeld
  rw [show (Finset.univ : Finset (Fin 0)) = ∅ from rfl, BI.bigSep_empty]

/-- The core owing nothing is the pipeline's account of its debts at any point: the data owe nothing and bound no pair. -/
theorem owes_in (c : Dev nD) (t : Fin (cfg0.N + 1)) : Rowe (F := F) c ⊢ ((dats m 0 c).owesAt () t : sProp 𝕄) := by
  iintro ⟨%W, HO⟩
  iexists W
  isplitr
  · ipureintro; exact fun _ _ => Or.inl (Set.mem_univ _)
  · iexact HO
theorem owes_out (c : Dev nD) (t : Fin (cfg0.N + 1)) : ((dats m 0 c).owesAt () t : sProp 𝕄) ⊢ Rowe (F := F) c := by
  iintro ⟨%W, -, HO⟩
  iexists W
  iexact HO

/-- The contents the windows' arrays have at entry and at exit: an input window's array is never written. -/
theorem arrAt0_0 (c : Dev nD) (n : Nat) : (dats m 0 c).arrAt 0 n = V m c main_arg0 := ((dats m 0 c).arrAt_in 0 rfl n).trans (A_eq m c 0)
theorem arrAt0_1 (c : Dev nD) (n : Nat) : (dats m 0 c).arrAt 1 n = V m c main_arg0 := ((dats m 0 c).arrAt_in 1 rfl n).trans (A_eq m c 1)
theorem arrAt0_2 (c : Dev nD) : (dats m 0 c).arrAt 2 0 = V m c main_v0_0 := A_eq m c 2
theorem arrAt0_3 (c : Dev nD) : (dats m 0 c).arrAt 3 0 = V m c main_v0_1 := A_eq m c 3

/-- Off the two results the buffers after the region are the launch's, so the buffers no window reads are untouched. -/
theorem unscopedRest_V1 (c : Dev nD) :
    (Pipeline.unscopedRest (Ix := Unit) (Name := ℕ) (U := UR sig nD τ) (Lvl := ℕ) spec0 c (fun b => V1 m c (Proc.devRef .tc b)) : sProp 𝕄)
      = Pipeline.unscopedRest spec0 c (V m c) := by
  unfold Pipeline.unscopedRest
  exact bigSep_congr fun b hb => by
    have hb' := (Finset.mem_sdiff.mp hb).2
    beta_reduce
    rw [V1_of_ne m c b (fun e => hb' (e ▸ Finset.mem_image.mpr ⟨2, Finset.mem_univ _, rfl⟩))
      (fun e => hb' (e ▸ Finset.mem_image.mpr ⟨3, Finset.mem_univ _, rfl⟩))]

/-! ## The two segments -/

set_option backward.isDefEq.respectTransparency.types false in
/-- THE REGION, entered from the launch contents: the argument's buffer is split into halves for the two input
    windows, the two result buffers go to their windows whole, the generator register to the invariant, the nine other
    buffers pass by. It is left with the halves joined again and the results at what the write-backs made of them. -/
def reg0 : Pipeline.RegionSeg (pcfgs (F := F)) admK (dats m) () defs₀ noVar noL noLv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ noL noLv 0 fun _ _ => rfl
  pre c := iprop(StableHlo.held (c : Thread nD τ) ucs (V0 m c) ∗ Rside (F := F) c)
  post c := iprop(StableHlo.held (c : Thread nD τ) ucs (V1 m c) ∗ Rside (F := F) c)
  X c := Rgen (F := F) c
  Y c := Rgen (F := F) c
  Z c := Pipeline.unscopedRest spec0 c (V m c)
  hentry c := by
    rw [show StableHlo.held (c : Thread nD τ) ucs (V0 m c) = unscopedBufs c (V m c) from (Pipeline.unscopedBufs_held c _).symm,
      Pipeline.unscopedBufs_split₀ (Pipeline.pin (pcfgs (F := F)) admK) 0 winFacts₀0.arr_unscoped c (V m c),
      arrBufs0_eq, arrays0_eq, prefHeld0_emp, arrAt0_0, arrAt0_1, arrAt0_2, arrAt0_3]
    iintro ⟨⟨⟨⟨Hx, Hp, Hd⟩, HZ⟩, Hg, HO⟩, -, -⟩
    ihave Hx := (pointsTo_share (PosShare.mem_left_op_right fullShare)).1 $$ Hx
    icases Hx with ⟨Hx₁, Hx₂⟩
    imodintro
    isplitl [Hx₁ Hx₂ Hp Hd]
    · isplitl [Hx₁]; · iexact Hx₁
      isplitl [Hx₂]; · iexact Hx₂
      isplitl [Hp] <;> iassumption
    isplitr; · iempintro
    isplitl [HO]; · iapply (owes_in m c 0); iexact HO
    isplitl [Hg] <;> iassumption
  hin c := by
    refine (show _ ⊢ (Pipeline.ΦA spec0 c : sProp 𝕄) from ?_).trans (hin m c)
    unfold Pipeline.ΦA
    iintro ⟨Hg, -, Hs⟩
    isplitl [Hs] <;> iassumption
  hout c := by
    refine (hout m c).trans ?_
    rw [Pipeline.ownSems0_none]
    unfold Pipeline.ΦA
    iintro ⟨Hs, Hg⟩
    isplitl [Hg]; · iexact Hg
    isplitr; · iempintro
    iexact Hs
  hexit c := by
    rw [show StableHlo.held (c : Thread nD τ) ucs (V1 m c) = unscopedBufs c (fun b => V1 m c (Proc.devRef .tc b)) from (Pipeline.unscopedBufs_held c _).symm,
      Pipeline.unscopedBufs_split₀ (Pipeline.pin (pcfgs (F := F)) admK) 0 winFacts₀0.arr_unscoped c (fun b => V1 m c (Proc.devRef .tc b)),
      arrBufs0_eq, unscopedRest_V1, arrays0_eq, arrAt0_0, arrAt0_1, V1_pos, V1_den, V1_of_ne m c main_arg0 (by decide) (by decide)]
    iintro ⟨⟨Hx₁, Hx₂, Hp, Hd⟩, HO, Hg, HZ⟩
    ihave Hx := (pointsTo_share (PosShare.mem_left_op_right fullShare)).2 $$ [Hx₁ Hx₂]
    · isplitl [Hx₁] <;> iassumption
    imodintro
    isplitr [Hg HO]
    · isplitr [HZ]
      · isplitl [Hx]; · iexact Hx
        isplitl [Hp] <;> iassumption
      · iexact HZ
    · isplitl [Hg]; · iexact Hg
      iapply (owes_out m c _); iexact HO

/-- THE HOST LINE: the nine operations over the unscoped buffers, from what the region left. -/
def seg1 : Pipeline.HostSeg (Name := ℕ) (U := UR sig nD τ) (pcfgs (F := F)) defs₀ noVar noL noLv :=
  Pipeline.HostSeg.ofOps _ _ _ _ _ ucs hostOps1
    (fun op h => Pipeline.sub_ucRefs op ((List.forall_iff_forall_mem.mp hostOps1_sub) op h))
    (List.forall_iff_forall_mem.mp hostOps1_fresh) (V1 m) (Rside (F := F))

/-! ## The launch -/

/-- The launch element: the staging cells' rounds at their start, every transfer's token unspent. -/
def u0 : UR sig nD τ :=
  initOf (Pipeline.cells (Pipeline.pin (pcfgs (F := F)) admK) cellOf_inj) (Pipeline.launchToks (Pipeline.pin (pcfgs (F := F)) admK) cellOf_inj)

/-- No host operation writes the argument: each writes its own result, and the argument is none of the nine. -/
theorem arg0_not_written : (hostOps1 (F := F)).Forall fun op => Proc.devRef .tc main_arg0 ∉ op.writes :=
  have nw : ∀ {y : Ref sig .tc}, main_arg0 ≠ y → Proc.devRef (τ := τ) .tc main_arg0 ∉ ({Proc.devRef .tc y} : Finset (DevRef τ sig)) :=
    fun hy h => StableHlo.devRef_ne_of_ne hy (Finset.mem_singleton.mp h)
  ⟨nw (by decide), nw (by decide), nw (by decide), nw (by decide), nw (by decide), nw (by decide), nw (by decide), nw (by decide), nw (by decide)⟩

/-- So the argument's buffer after the host line is as launched: the region left it so too. -/
theorem VT_arg0 (c : Dev nD) : VT m c (Proc.devRef .tc main_arg0) = m ((c : Thread nD τ).loc main_arg0) := by
  unfold VT
  rw [StableHlo.after_of_forall_not_mem hostOps1 (V1 m c) (List.forall_iff_forall_mem.mp arg0_not_written),
    V1_of_ne m c main_arg0 (by decide) (by decide)]

set_option backward.isDefEq.respectTransparency.types false in
/-- THE RUN, with the result named. -/
theorem run_main : θ_run defs (onTc (τ := τ) (main (F := F))) ⟨m, fun _ => 0, ρ⟩ (fun r => ∀ c : Dev nD,
      r.2.mem ((c.tc : Thread nD τ).loc main_v7) = VT m c (Proc.devRef .tc main_v7)
      ∧ r.2.mem ((c.tc : Thread nD τ).loc main_arg0) = m ((c.tc : Thread nD τ).loc main_arg0)) :=
  Pipeline.θ_run_regions_kit (pcfgs (F := F)) admK (dats m) () cellOf_inj embK defs₀ noVar noL noLv m ρ main
    [.region (reg0 m), .host (seg1 m)]
    (fun c Q => by rw [main_segs admK (dats m) () noVar noL noLv (seg1 m) (reg0 m) rfl c])
    (by simp only [Pipeline.Seg.pipes_host, Pipeline.Seg.pipes_region, Pipeline.Seg.pipes_nil]; decide)
    (O₀ := 0) (hL := fun _ _ => rfl) (G := fun _ => iprop(emp)) (u₀ := u0 (F := F))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucs (V0 m c) ∗ Rside (F := F) c))
    (Tₙ := fun c => iprop(StableHlo.held (c : Thread nD τ) ucs (VT m c) ∗ Rgen (F := F) c))
    (hch := ⟨fun _ => .rfl, fun _ => .rfl, fun c => by
      show iprop(StableHlo.held (c : Thread nD τ) ucs (VT m c) ∗ Rgen (F := F) c ∗ Rowe (F := F) c)
        ⊢ iprop(iprop(StableHlo.held (c : Thread nD τ) ucs (VT m c) ∗ Rgen (F := F) c) ∗ Rowe (F := F) c)
      iintro ⟨Hh, Hg, HO⟩
      isplitr [HO]
      · isplitl [Hh] <;> iassumption
      · iexact HO⟩)
    (hinit := by
      refine Pipeline.initEach noL noLv fun c => ?_
      rw [show unscopedBufs c (fun b => m ((c : Thread nD τ).loc b)) = StableHlo.held (c : Thread nD τ) ucs (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v7) = VT m c (Proc.devRef .tc main_v7)
      ∧ s.mem ((c : Thread nD τ).loc main_arg0) = m ((c : Thread nD τ).loc main_arg0))
    (hfin := fun c s' => by
      rw [show StableHlo.held (c : Thread nD τ) ucs (VT m c) = unscopedBufs c (fun b => VT m c (Proc.devRef .tc b))
        from (Pipeline.unscopedBufs_held c _).symm]
      unfold unscopedBufs
      iintro ⟨⟨Hh, -⟩, HSI⟩
      ihave Hr := (pointsTo_read_all _ (fun b : Ref sig .tc => (c : Thread nD τ).loc b) (fun b => VT m c (Proc.devRef .tc b)) s') $$ [Hh HSI]
      · isplitl [Hh] <;> iassumption
      icases Hr with ⟨%hr, HSI⟩
      imodintro
      isplitr
      · ipureintro
        exact ⟨hr main_v7 (Finset.mem_filter.mpr ⟨Finset.mem_univ _, by decide⟩),
          (hr main_arg0 (Finset.mem_filter.mpr ⟨Finset.mem_univ _, by decide⟩)).trans (VT_arg0 m c)⟩
      iexact HSI)
    (hQ := fun _ h => h)

/-- THE FRAME: the program runs and its argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KI.Kit.lean ====
/-
  What every module about the kernel's run shares, at any float instance: the buffers' contents when the region is
  entered (the launch contents: no host operation precedes the region), each window's block of its array at a grid
  point, the staging and scratch memrefs the body is called with, the body's two branch conditions in closed form
  over the 256 grid points (point `t` is row block `t / 16`, column block `t % 16`: the first branch, which zeroes the
  three accumulators, is taken where `t % 16 = 0`; the second, which stores the two results, where `t % 16 = 15`),
  where the two result windows are idle and where they are written back, and the region's class invariant spelt over
  the three scratch buffers.
-/
import proofs.«134130_j44985487459095_1_alg».proof.Proof.Gen.KernelIdeal.Launch
import proofs.«134130_j44985487459095_1_alg».proof.Proof.Gen.KernelIdeal.Skeleton
import proofs.«134130_j44985487459095_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s TensorCore buffer contents at launch, as a valuation; -/
abbrev V0 (c : Dev nD) : Valuation τ sig (Elt F) := fun b => m (c, b)
/-- the same read at a TensorCore reference. The region is @main's first line, so this is what it finds. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- The nine host operations after the region allocate nothing. -/
theorem hostOps1_fresh : (hostOps1 : List (HloOp τ sig (Elt F))).Forall fun op => op.fresh = ∅ := by
  simp only [List.Forall]; repeat' constructor

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block (window 0) and the column block (window 1) of the input at point `t`, at their literal type. -/
abbrev xrow (c : Dev nD) (t : Fin cfg0.N) : Vec F S512x256 .f32 := iblk m c 0 t
abbrev xcol (c : Dev nD) (t : Fin cfg0.N) : Vec F S512x256 .f32 := iblk m c 1 t

/-! ## The body's branch conditions -/

/-- The condition of the body's first `scf.if` (the column block is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (the column block is the last), from the grid coordinates. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle, and where the results are written back -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last column block the body stores nothing into either result window, and neither is written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
/-- At the last column block it stores both. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- Each window's current staging memref at point `t`, spelled as the pipeline passes it (`bodyAt0`), and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The three scratch operands (row sum, self term, positive-pair term): whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- One staging buffer of each result window and each scratch, as views through which contents are stated. -/
abbrev VO0_2 : View sig .tc .vmem S512x1 .f32 := (Memref.whole cc0_stg2_0 : Memref sig .tc .vmem S512x1 .f32).view
abbrev VO0_3 : View sig .tc .vmem S512x1 .f32 := (Memref.whole cc0_stg3_0 : Memref sig .tc .vmem S512x1 .f32).view
abbrev VS0_0 : View sig .tc .vmem S512x1 .f32 := scM0_0.view
abbrev VS0_1 : View sig .tc .vmem S512x1 .f32 := scM0_1.view
abbrev VS0_2 : View sig .tc .vmem S512x1 .f32 := scM0_2.view

/-- The region's class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/-
  The kernel body's run at a row block's FIRST column block (the accumulators are zeroed, then updated; no result is stored): on whole staging and scratch memrefs at given contents, the body runs to any
  continuation that is given the memrefs back — the two input blocks as they were, each buffer the body stored into with
  its stores written as pieces (the run's witness: what each buffer ends holding is read off them).
-/
import proofs.«134130_j44985487459095_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A: the first branch taken, the second not. The three scratch buffers may hold anything on entry; the result
    windows' buffers (`xi2`, `xi3`) are handed back untouched. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 x1 : Vec F S512x256 .f32) :
    Σ' (LS0 : List (View.Piece (Elt F) S512x1 .f32)) (LS1 : List (View.Piece (Elt F) S512x1 .f32)), { LS2 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__simclr_kernel i arg2 harg2 arg3 harg3 arg4 harg4 arg5 harg5 arg6 harg6 arg7 harg7 arg8 harg8) K } := by
  refine ⟨?_, ?_, ?_, fun xi2 xi3 E K => ?run⟩
  case run =>
    simp only [cc0__simclr_kernel_eq_skeleton]; unfold cc0__simclr_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.RunB.lean ====
/-
  The kernel body's run at a column block that is neither the first nor the last (the accumulators are updated; no result is stored): on whole staging and scratch memrefs at given contents, the body runs to any
  continuation that is given the memrefs back — the two input blocks as they were, each buffer the body stored into with
  its stores written as pieces (the run's witness: what each buffer ends holding is read off them).
-/
import proofs.«134130_j44985487459095_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B: neither branch taken. The scratch buffers hold what the point before left (`xs0`, `xs1`, `xs2`); the result
    windows' buffers are handed back untouched. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 x1 : Vec F S512x256 .f32) (xs0 xs1 xs2 : Vec F S512x1 .f32) :
    Σ' (LS0 : List (View.Piece (Elt F) S512x1 .f32)) (LS1 : List (View.Piece (Elt F) S512x1 .f32)), { LS2 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__simclr_kernel i arg2 harg2 arg3 harg3 arg4 harg4 arg5 harg5 arg6 harg6 arg7 harg7 arg8 harg8) K } := by
  refine ⟨?_, ?_, ?_, fun xi2 xi3 E K => ?run⟩
  case run =>
    simp only [cc0__simclr_kernel_eq_skeleton]; unfold cc0__simclr_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.RunC.lean ====
/-
  The kernel body's run at a row block's LAST column block (the accumulators are updated, then both results are stored): on whole staging and scratch memrefs at given contents, the body runs to any
  continuation that is given the memrefs back — the two input blocks as they were, each buffer the body stored into with
  its stores written as pieces (the run's witness: what each buffer ends holding is read off them).
-/
import proofs.«134130_j44985487459095_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C: the first branch not taken, the second taken. The scratch buffers hold what the point before left; the
    result windows' buffers may hold anything on entry and end with the body's stores written (`L2`, `L3`). -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    Σ' (L2 : List (View.Piece (Elt F) S512x1 .f32)) (L3 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__simclr_kernel i arg2 harg2 arg3 harg3 arg4 harg4 arg5 harg5 arg6 harg6 arg7 harg7 arg8 harg8) K } := by
  refine ⟨?_, ?_, ?_, ?_, ?_, fun E K => ?run⟩
  case run =>
    simp only [cc0__simclr_kernel_eq_skeleton]; unfold cc0__simclr_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Hand

end
-- ==== Proof.KI.Body.lean ====
/-
  The pipeline's proof data for the kernel's one region, and the body obligation, at any float instance.

  The grid's 256 points run row block by row block; within a row block the column blocks 0 … 15 follow one another. The
  body's two branches are decided by the column block alone, so a point is in one of three cases: the first column
  block (the accumulators are zeroed and updated), a middle one (updated), the last (updated, and the two results
  stored). What the three scratch buffers hold after each point is defined by recursion on the point (`scrAt`): each
  case's stores, read back, over what the point before left; a row block's first point reads nothing of what came
  before it. The two result windows are idle except at a row block's last point, where their buffers take the body's
  stores (`outAt`) and are written back. The invariant between points holds the three scratch buffers at `scrAt`; the one
  array both input windows read is lent to them in two halves.
-/
import proofs.«134130_j44985487459095_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Three buffers' contents: the row sum, the self term, the positive-pair term. -/
abbrev S3 (F : FTy → Type) [FloatOps F] : Type := Vec F S512x1 .f32 × Vec F S512x1 .f32 × Vec F S512x1 .f32

/-- A list of stores read back through a view, over junk. -/
def readBack (v : View sig .tc .vmem S512x1 .f32) (L : List (View.Piece (Elt F) S512x1 .f32)) : Vec F S512x1 .f32 :=
  v.read (Elt F) (v.writes (Elt F) v.junk L)

/-- The three cases' runs at a grid point, on the memrefs the pipeline passes there and the point's input blocks. -/
abbrev runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xrow m c t) (xcol m c t)
abbrev runB (c : Dev nD) (t : Fin cfg0.N) (h0 : ¬t.val % 16 = 0) (h1 : ¬t.val % 16 = 15) (s : S3 F) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xrow m c t) (xcol m c t) s.1 s.2.1 s.2.2
abbrev runC (c : Dev nD) (t : Fin cfg0.N) (h0 : ¬t.val % 16 = 0) (h1 : t.val % 16 = 15) (s : S3 F) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xrow m c t) (xcol m c t) s.1 s.2.1 s.2.2

/-- What each case leaves in the three scratch buffers: its stores read back. -/
def scrA (c : Dev nD) (t : Fin cfg0.N) (h0 : t.val % 16 = 0) (h1 : ¬t.val % 16 = 15) : S3 F :=
  (readBack VS0_0 (runA m c t h0 h1).1, readBack VS0_1 (runA m c t h0 h1).2.1, readBack VS0_2 (runA m c t h0 h1).2.2.1)
def scrB (c : Dev nD) (t : Fin cfg0.N) (h0 : ¬t.val % 16 = 0) (h1 : ¬t.val % 16 = 15) (s : S3 F) : S3 F :=
  (readBack VS0_0 (runB m c t h0 h1 s).1, readBack VS0_1 (runB m c t h0 h1 s).2.1, readBack VS0_2 (runB m c t h0 h1 s).2.2.1)
def scrC (c : Dev nD) (t : Fin cfg0.N) (h0 : ¬t.val % 16 = 0) (h1 : t.val % 16 = 15) (s : S3 F) : S3 F :=
  (readBack VS0_0 (runC m c t h0 h1 s).2.2.1, readBack VS0_1 (runC m c t h0 h1 s).2.2.2.1, readBack VS0_2 (runC m c t h0 h1 s).2.2.2.2.1)

/-- THE ACCUMULATION: what the three scratch buffers hold after the body at position `n`. -/
def scrAt (c : Dev nD) : (n : ℕ) → n < cfg0.N → S3 F
  | 0, hn => scrA m c ⟨0, hn⟩ (Nat.zero_mod _) (show ¬(0 % 16 = 15) by decide)
  | n + 1, hn =>
    if h0 : (n + 1) % 16 = 0 then
      if h1 : (n + 1) % 16 = 15 then False.elim (by omega)
      else scrA m c ⟨n + 1, hn⟩ h0 h1
    else
      if h1 : (n + 1) % 16 = 15 then scrC m c ⟨n + 1, hn⟩ h0 h1 (scrAt c n (Nat.lt_of_succ_lt hn))
      else scrB m c ⟨n + 1, hn⟩ h0 h1 (scrAt c n (Nat.lt_of_succ_lt hn))

/-- What the scratch buffers hold BEFORE point `t` when `t` is not a row block's first point: what the point before left. -/
abbrev scrBefore (c : Dev nD) (t : Fin cfg0.N) : S3 F := scrAt m c (t.val - 1) (Nat.lt_of_le_of_lt (Nat.sub_le _ _) t.isLt)

theorem scrAt_A (c : Dev nD) (t : Fin cfg0.N) (h0 : t.val % 16 = 0) (h1 : ¬t.val % 16 = 15) :
    scrAt m c t.val t.isLt = scrA m c t h0 h1 := by
  obtain ⟨n, hn⟩ := t
  cases n with
  | zero => exact rfl
  | succ n => exact (dif_pos h0).trans ((dif_neg h1).trans rfl)
theorem scrAt_B (c : Dev nD) (t : Fin cfg0.N) (h0 : ¬t.val % 16 = 0) (h1 : ¬t.val % 16 = 15) :
    scrAt m c t.val t.isLt = scrB m c t h0 h1 (scrBefore m c t) := by
  obtain ⟨n, hn⟩ := t
  cases n with
  | zero => exact absurd (Nat.zero_mod _) h0
  | succ n => exact (dif_neg h0).trans ((dif_neg h1).trans rfl)
theorem scrAt_C (c : Dev nD) (t : Fin cfg0.N) (h0 : ¬t.val % 16 = 0) (h1 : t.val % 16 = 15) :
    scrAt m c t.val t.isLt = scrC m c t h0 h1 (scrBefore m c t) := by
  obtain ⟨n, hn⟩ := t
  cases n with
  | zero => exact absurd (Nat.zero_mod _) h0
  | succ n => exact (dif_neg h0).trans ((dif_pos h1).trans rfl)

/-- What the two result windows' buffers hold after the body at point `t`: at a row block's last column block the
    body's stores read back; elsewhere nothing is stored (a placeholder nothing consults: the window is idle there and
    not written back). -/
def outAt (c : Dev nD) (t : Fin cfg0.N) : Vec F S512x1 .f32 × Vec F S512x1 .f32 :=
  if h1 : t.val % 16 = 15 then
    (readBack VO0_2 (runC m c t (by omega) h1 (scrBefore m c t)).1, readBack VO0_3 (runC m c t (by omega) h1 (scrBefore m c t)).2.1)
  else (readBack VO0_2 [], readBack VO0_3 [])

/-- The region invariant before position `n`: before the first point the class's (every scratch at anything);
    afterwards the three scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r))

/-- The proof data of the one pipeline on core `c`: the arrays as the region finds them; after the body each input's
    buffer at its block and each result's at `outAt`; the invariant `PhiS`; nothing owed; the input array lent to its two
    windows in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outAt m c t).1
    | ⟨3, _⟩ => (outAt m c t).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outAt m c t).1 := by dsimp only [dats]
theorem after0_3 (c : Dev nD) (t : Fin cfg0.N) : (dats m 0 c).after 3 t = (outAt m c t).2 := by dsimp only [dats]

/-! ## Every case's stores into a buffer cover it -/

theorem coverA_S0 (c : Dev nD) (t : Fin cfg0.N) (h0 : t.val % 16 = 0) (h1 : ¬t.val % 16 = 15) (y : S512x1.Idx) :
    ∃ pc ∈ (runA m c t h0 h1).1, y ∈ pc.1.set :=
  View.cover_of_tiledL (runA m c t h0 h1).1 S512x1.size (by sl_kernel_rfl) y
theorem coverA_S1 (c : Dev nD) (t : Fin cfg0.N) (h0 : t.val % 16 = 0) (h1 : ¬t.val % 16 = 15) (y : S512x1.Idx) :
    ∃ pc ∈ (runA m c t h0 h1).2.1, y ∈ pc.1.set :=
  View.cover_of_tiledL (runA m c t h0 h1).2.1 S512x1.size (by sl_kernel_rfl) y
theorem coverA_S2 (c : Dev nD) (t : Fin cfg0.N) (h0 : t.val % 16 = 0) (h1 : ¬t.val % 16 = 15) (y : S512x1.Idx) :
    ∃ pc ∈ (runA m c t h0 h1).2.2.1, y ∈ pc.1.set :=
  View.cover_of_tiledL (runA m c t h0 h1).2.2.1 S512x1.size (by sl_kernel_rfl) y

theorem coverB_S0 (c : Dev nD) (t : Fin cfg0.N) (h0 : ¬t.val % 16 = 0) (h1 : ¬t.val % 16 = 15) (s : S3 F) (y : S512x1.Idx) :
    ∃ pc ∈ (runB m c t h0 h1 s).1, y ∈ pc.1.set :=
  View.cover_of_tiledL (runB m c t h0 h1 s).1 S512x1.size (by sl_kernel_rfl) y
theorem coverB_S1 (c : Dev nD) (t : Fin cfg0.N) (h0 : ¬t.val % 16 = 0) (h1 : ¬t.val % 16 = 15) (s : S3 F) (y : S512x1.Idx) :
    ∃ pc ∈ (runB m c t h0 h1 s).2.1, y ∈ pc.1.set :=
  View.cover_of_tiledL (runB m c t h0 h1 s).2.1 S512x1.size (by sl_kernel_rfl) y
theorem coverB_S2 (c : Dev nD) (t : Fin cfg0.N) (h0 : ¬t.val % 16 = 0) (h1 : ¬t.val % 16 = 15) (s : S3 F) (y : S512x1.Idx) :
    ∃ pc ∈ (runB m c t h0 h1 s).2.2.1, y ∈ pc.1.set :=
  View.cover_of_tiledL (runB m c t h0 h1 s).2.2.1 S512x1.size (by sl_kernel_rfl) y

theorem coverC_O2 (c : Dev nD) (t : Fin cfg0.N) (h0 : ¬t.val % 16 = 0) (h1 : t.val % 16 = 15) (s : S3 F) (y : S512x1.Idx) :
    ∃ pc ∈ (runC m c t h0 h1 s).1, y ∈ pc.1.set :=
  View.cover_of_tiledL (runC m c t h0 h1 s).1 S512x1.size (by sl_kernel_rfl) y
theorem coverC_O3 (c : Dev nD) (t : Fin cfg0.N) (h0 : ¬t.val % 16 = 0) (h1 : t.val % 16 = 15) (s : S3 F) (y : S512x1.Idx) :
    ∃ pc ∈ (runC m c t h0 h1 s).2.1, y ∈ pc.1.set :=
  View.cover_of_tiledL (runC m c t h0 h1 s).2.1 S512x1.size (by sl_kernel_rfl) y
theorem coverC_S0 (c : Dev nD) (t : Fin cfg0.N) (h0 : ¬t.val % 16 = 0) (h1 : t.val % 16 = 15) (s : S3 F) (y : S512x1.Idx) :
    ∃ pc ∈ (runC m c t h0 h1 s).2.2.1, y ∈ pc.1.set :=
  View.cover_of_tiledL (runC m c t h0 h1 s).2.2.1 S512x1.size (by sl_kernel_rfl) y
theorem coverC_S1 (c : Dev nD) (t : Fin cfg0.N) (h0 : ¬t.val % 16 = 0) (h1 : t.val % 16 = 15) (s : S3 F) (y : S512x1.Idx) :
    ∃ pc ∈ (runC m c t h0 h1 s).2.2.2.1, y ∈ pc.1.set :=
  View.cover_of_tiledL (runC m c t h0 h1 s).2.2.2.1 S512x1.size (by sl_kernel_rfl) y
theorem coverC_S2 (c : Dev nD) (t : Fin cfg0.N) (h0 : ¬t.val % 16 = 0) (h1 : t.val % 16 = 15) (s : S3 F) (y : S512x1.Idx) :
    ∃ pc ∈ (runC m c t h0 h1 s).2.2.2.2.1, y ∈ pc.1.set :=
  View.cover_of_tiledL (runC m c t h0 h1 s).2.2.2.2.1 S512x1.size (by sl_kernel_rfl) y

/-! ## The invariant, position by position -/

theorem PhiS_zero (c : Dev nD) (n : ℕ) (h : n ≤ cfg0.N) (hz : n = 0) : PhiS m c n h = Pipeline.ΦA spec0 c := by
  subst hz; rfl

/-- After point `n` (before point `n + 1`): the three scratch buffers at that point's contents. -/
theorem PhiS_succ (c : Dev nD) (n : ℕ) (hn : n < cfg0.N) :
    PhiS m c (n + 1) hn = iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r)) := rfl

/-- Before a point that is not the first: the three scratch buffers at what the point before left. -/
theorem PhiS_pos (c : Dev nD) (n : ℕ) (h : n ≤ cfg0.N) (hz : n ≠ 0) :
    PhiS m c n h = iprop(iprop(owns (c : Thread nD τ) scM0_0 fullShare (scrAt m c (n - 1) (by omega)).1 ∗ owns (c : Thread nD τ) scM0_1 fullShare (scrAt m c (n - 1) (by omega)).2.1 ∗ owns (c : Thread nD τ) scM0_2 fullShare (scrAt m c (n - 1) (by omega)).2.2) ∗ (∃ r, prngReg c r)) := by
  cases n with
  | zero => exact absurd rfl hz
  | succ n => rfl

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## The input windows' buffers hold their blocks at every point -/

/-- Window 0 (the row block) is fetched only at a row block's first point; between fetches its block index does not move. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Window 1 (the column block) is fetched at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- A buffer whose stores cover it is owned at the stores read back (through any view of the shape, over anything). -/
theorem owns_readBack (c : Dev nD) (M : Memref sig .tc .vmem S512x1 .f32) (v : View sig .tc .vmem S512x1 .f32)
    (L : List (View.Piece (Elt F) S512x1 .f32)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (readBack v L) := by
  unfold owns readBack
  iintro ⟨%f, H⟩
  iexists _; isplitr
  swap; · iexact H
  ipureintro; exact View.read_writes_of_cover _ _ _ _ _ hL

/-- The results' buffers at a row block's last column block: the body's stores read back. -/
theorem outAt_C (c : Dev nD) (t : Fin cfg0.N) (h0 : ¬t.val % 16 = 0) (h1 : t.val % 16 = 15) :
    outAt m c t = (readBack VO0_2 (runC m c t h0 h1 (scrBefore m c t)).1, readBack VO0_3 (runC m c t h0 h1 (scrBefore m c t)).2.1) := by
  unfold outAt; exact dif_pos h1

/-! ## The body obligation, at a generic point -/

/-- What the body is called with at point `t`: the invariant, nothing owed, each window's current buffer at what it held, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The input windows' buffers hold their blocks; the column block says which of the three cases
    the point is in, and that case's run applies: the invariant hands it the three scratch buffers (at anything at the very
    first point, at what the point before left afterwards) and takes them back at this point's contents, every store
    covering its buffer; a result window's buffer goes through untouched where the window is idle and comes back at the
    body's stores at a row block's last column block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scrAt_A m c t h0 h1]
      unfold scrA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((runA m c t h0 h1).2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iapply (owns_readBack c _ _ _ (coverA_S0 m c t h0 h1)); iexact HS0
            isplitl [HS1]; · iapply (owns_readBack c _ _ _ (coverA_S1 m c t h0 h1)); iexact HS1
            iapply (owns_readBack c _ _ _ (coverA_S2 m c t h0 h1)); iexact HS2
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((runA m c t h0 h1).2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HS0 HS1 HS2 Hg]
        · isplitl [HS0 HS1 HS2]
          · isplitl [HS0]; · iapply (owns_readBack c _ _ _ (coverA_S0 m c t h0 h1)); iexact HS0
            isplitl [HS1]; · iapply (owns_readBack c _ _ _ (coverA_S1 m c t h0 h1)); iexact HS1
            iapply (owns_readBack c _ _ _ (coverA_S2 m c t h0 h1)); iexact HS2
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [scrAt_C m c t h0 h1, outAt_C m c t h0 h1]
      unfold scrC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runC m c t h0 h1 (scrBefore m c t)).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iapply (owns_readBack c _ _ _ (coverC_S0 m c t h0 h1 (scrBefore m c t))); iexact HS0
          isplitl [HS1]; · iapply (owns_readBack c _ _ _ (coverC_S1 m c t h0 h1 (scrBefore m c t))); iexact HS1
          iapply (owns_readBack c _ _ _ (coverC_S2 m c t h0 h1 (scrBefore m c t))); iexact HS2
        iexact Hg
      isplitl [Ho]; · iexact Ho
      isplitl [H0]; · iexact H0
      isplitl [H1]; · iexact H1
      isplitl [H2]; · iapply (owns_readBack c _ _ _ (coverC_O2 m c t h0 h1 (scrBefore m c t))); iexact H2
      iapply (owns_readBack c _ _ _ (coverC_O3 m c t h0 h1 (scrBefore m c t))); iexact H3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scrAt_B m c t h0 h1]
      unfold scrB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runB m c t h0 h1 (scrBefore m c t)).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iapply (owns_readBack c _ _ _ (coverB_S0 m c t h0 h1 (scrBefore m c t))); iexact HS0
          isplitl [HS1]; · iapply (owns_readBack c _ _ _ (coverB_S1 m c t h0 h1 (scrBefore m c t))); iexact HS1
          iapply (owns_readBack c _ _ _ (coverB_S2 m c t h0 h1 (scrBefore m c t))); iexact HS2
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the class invariant) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

/-- After the last point the invariant gives the class invariant back: the scratch contents are forgotten. -/
theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.After.lean ====
/-
  The buffers after the region and after the host operations that follow it.

  When the region is left, the two result arrays hold what the library computes from the proof data's write-backs
  (`posArr`: the numerators' column, result 0; `denArr`: the denominators' column, result 1) and every other buffer is as
  launched. The nine host operations that follow (two reshapes to vectors, their quotient, its logarithm, its negation,
  the sum over the rows onto zero, the division by the row count) then run from those contents.
-/
import proofs.«134130_j44985487459095_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The numerators' array (window 2's: result 0) and the denominators' (window 3's: result 1) after the last write-back. -/
abbrev posArr (c : Dev nD) : Buf (Elt F) ((c : Thread nD τ).loc main_v0_0) := (dats m 0 c).arrAt 2 cfg0.N
abbrev denArr (c : Dev nD) : Buf (Elt F) ((c : Thread nD τ).loc main_v0_1) := (dats m 0 c).arrAt 3 cfg0.N

/-- Core `c`'s buffers when the region is left: the launch contents with the two results at their final contents. -/
def V1 (c : Dev nD) : Valuation τ sig (Elt F) :=
  Function.update (Function.update (V0 m c) (Proc.devRef .tc main_v0_0) (posArr m c)) (Proc.devRef .tc main_v0_1) (denArr m c)

/-- and after the nine host operations. -/
def VT (c : Dev nD) : Valuation τ sig (Elt F) := StableHlo.after hostOps1 (V1 m c)

theorem V1_pos (c : Dev nD) : V1 m c (Proc.devRef .tc main_v0_0) = posArr m c := by
  unfold V1
  rw [Function.update_of_ne (StableHlo.devRef_ne_of_ne (by decide))]
  exact Function.update_self ..
theorem V1_den (c : Dev nD) : V1 m c (Proc.devRef .tc main_v0_1) = denArr m c := by
  unfold V1
  exact Function.update_self ..
/-- Every other buffer is as launched. -/
theorem V1_of_ne (c : Dev nD) (b : Ref sig .tc) (h0 : b ≠ main_v0_0) (h1 : b ≠ main_v0_1) :
    V1 m c (Proc.devRef .tc b) = V0 m c (Proc.devRef .tc b) := by
  unfold V1
  rw [Function.update_of_ne (StableHlo.devRef_ne_of_ne h1), Function.update_of_ne (StableHlo.devRef_ne_of_ne h0)]

end Cert.KernelIdeal.Hand

end
-- ==== Proof.KI.Launch.lean ====
/-
  The kernel program's run, at any float instance: from any memory with every semaphore at zero, every weakly fair
  execution of @main on the TensorCore terminates without a fault, leaves the argument array as it was, and leaves in the
  result buffer what the nine host operations compute from the two arrays the region wrote.

  @main is the kernel region followed by a line of host operations. The region is entered with the input array lent to its
  two input windows in halves, the two result arrays handed over whole, the three scratch buffers and the generator
  register to the invariant, and every other buffer passing by; it is left with the result arrays at their final contents
  and the input array's halves joined again. The host line then runs over the buffers it touches.
-/
import proofs.«134130_j44985487459095_1_alg».proof.Proof.KI.After
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

/-- No table is prefetched: the admissible contents are the empty family's. -/
abbrev admK : (p : Fin 1) → (pcfgs (F := F) p).Adm := fun p => (cfgs p).toPCfg_adm
/-- No core owes another anything: no level is assigned. -/
abbrev noL : GSem nD τ sig → Finset Unit := fun _ => ∅
abbrev noLv : GSem nD τ sig → Unit → ℕ := fun _ _ => 0
/-- The kernel's body has no loop of its own to bound. -/
abbrev noVar : Variants := Variants.none
/-- The ghost algebra is the staging cells' rounds algebra alone, embedded whole. -/
abbrev embK : Emb (UR sig nD τ) (MT nD τ sig Unit (Elt F) ℕ (UR sig nD τ) ℕ) := emb₁

/-- The TensorCore's unscoped buffers: the set the thread states hold at a valuation. -/
abbrev ucs : Finset (DevRef τ sig) := Pipeline.ucRefs τ sig

/-- What rides beside the buffers: the generator register at some state, and that the core owes nothing. -/
abbrev Rgen (c : Dev nD) : sProp 𝕄 := iprop(∃ r, prngReg c r)
abbrev Rowe (c : Dev nD) : sProp 𝕄 := iprop(∃ W, owes (c : Thread nD τ) (0 : CellTallies nD τ sig Unit) W)
abbrev Rside (c : Dev nD) : sProp 𝕄 := iprop(Rgen (F := F) c ∗ Rowe (F := F) c)

/-! ## The windows' arrays and the buffers behind them, one by one -/

/-- The three buffers behind the four windows' arrays (both input windows read the argument), each whole. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0_0) ↦{fullShare} W main_v0_0)
          ∗ (((c : Thread nD τ).loc main_v0_1) ↦{fullShare} W main_v0_1)) := by
  unfold Pipeline.arrBufs
  exact bigSep_eq_bigSepL_of_eq [main_arg0, main_v0_0, main_v0_1] (by decide) (by decide) _

/-- Each window's array is a whole buffer: the pipeline holds all of its elements, at the window's share. -/
theorem arrays0_big (c : Dev nD) (Fa : (w : Fin cfg0.W) → Buf (Elt F) ((cfg0.win w).arr.view.loc (c : Thread nD τ))) :
    ((dats m 0 c).arrays Fa : sProp 𝕄)
      = bigSep Finset.univ fun w : Fin 4 => (((c : Thread nD τ).loc (Pipeline.arrRef spec0 w)) ↦{(dats m 0 c).share w} Fa w : sProp 𝕄) := by
  unfold Dat.arrays
  exact bigSep_congr fun w _ => by rw [(arr_whole0 w).set_eq_univ]

/-- The shares: the two input windows hold the argument in halves, a result window holds its array whole. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl

/-- The pipeline's four arrays, one by one. -/
theorem arrays0_eq (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0_0) ↦{fullShare} Fa 2) ∗ (((c : Thread nD τ).loc main_v0_1) ↦{fullShare} Fa 3)) := by
  rw [arrays0_big, bigSep_W0, share0_0, share0_1, share0_2, share0_3]

/-- No table is prefetched: the tables held are nothing. -/
theorem prefHeld0_emp (c : Dev nD) (q) (pf) :
    (Pipeline.prefHeld (Ix := Unit) (Name := ℕ) (U := UR sig nD τ) (Lvl := ℕ) (Val := Elt F) (pcfgs (F := F) 0).pre c q pf : sProp 𝕄) = BI.emp := by
  unfold Pipeline.prefHeld
  rw [show (Finset.univ : Finset (Fin 0)) = ∅ from rfl, BI.bigSep_empty]

/-- The core owing nothing is the pipeline's account of its debts at any point: the data owe nothing and bound no pair. -/
theorem owes_in (c : Dev nD) (t : Fin (cfg0.N + 1)) : Rowe (F := F) c ⊢ ((dats m 0 c).owesAt () t : sProp 𝕄) := by
  iintro ⟨%W, HO⟩
  iexists W
  isplitr
  · ipureintro; exact fun _ _ => Or.inl (Set.mem_univ _)
  · iexact HO
theorem owes_out (c : Dev nD) (t : Fin (cfg0.N + 1)) : ((dats m 0 c).owesAt () t : sProp 𝕄) ⊢ Rowe (F := F) c := by
  iintro ⟨%W, -, HO⟩
  iexists W
  iexact HO

/-- The contents the windows' arrays have at entry and at exit: an input window's array is never written. -/
theorem arrAt0_0 (c : Dev nD) (n : Nat) : (dats m 0 c).arrAt 0 n = V m c main_arg0 := ((dats m 0 c).arrAt_in 0 rfl n).trans (A_eq m c 0)
theorem arrAt0_1 (c : Dev nD) (n : Nat) : (dats m 0 c).arrAt 1 n = V m c main_arg0 := ((dats m 0 c).arrAt_in 1 rfl n).trans (A_eq m c 1)
theorem arrAt0_2 (c : Dev nD) : (dats m 0 c).arrAt 2 0 = V m c main_v0_0 := A_eq m c 2
theorem arrAt0_3 (c : Dev nD) : (dats m 0 c).arrAt 3 0 = V m c main_v0_1 := A_eq m c 3

/-- Off the two results the buffers after the region are the launch's, so the buffers no window reads are untouched. -/
theorem unscopedRest_V1 (c : Dev nD) :
    (Pipeline.unscopedRest (Ix := Unit) (Name := ℕ) (U := UR sig nD τ) (Lvl := ℕ) spec0 c (fun b => V1 m c (Proc.devRef .tc b)) : sProp 𝕄)
      = Pipeline.unscopedRest spec0 c (V m c) := by
  unfold Pipeline.unscopedRest
  exact bigSep_congr fun b hb => by
    have hb' := (Finset.mem_sdiff.mp hb).2
    beta_reduce
    rw [V1_of_ne m c b (fun e => hb' (e ▸ Finset.mem_image.mpr ⟨2, Finset.mem_univ _, rfl⟩))
      (fun e => hb' (e ▸ Finset.mem_image.mpr ⟨3, Finset.mem_univ _, rfl⟩))]

/-! ## The two segments -/

set_option backward.isDefEq.respectTransparency.types false in
/-- THE REGION, entered from the launch contents: the argument's buffer is split into halves for the two input
    windows, the two result buffers go to their windows whole, the generator register to the invariant, the nine other
    buffers pass by. It is left with the halves joined again and the results at what the write-backs made of them. -/
def reg0 : Pipeline.RegionSeg (pcfgs (F := F)) admK (dats m) () defs₀ noVar noL noLv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ noL noLv 0 fun _ _ => rfl
  pre c := iprop(StableHlo.held (c : Thread nD τ) ucs (V0 m c) ∗ Rside (F := F) c)
  post c := iprop(StableHlo.held (c : Thread nD τ) ucs (V1 m c) ∗ Rside (F := F) c)
  X c := Rgen (F := F) c
  Y c := Rgen (F := F) c
  Z c := Pipeline.unscopedRest spec0 c (V m c)
  hentry c := by
    rw [show StableHlo.held (c : Thread nD τ) ucs (V0 m c) = unscopedBufs c (V m c) from (Pipeline.unscopedBufs_held c _).symm,
      Pipeline.unscopedBufs_split₀ (Pipeline.pin (pcfgs (F := F)) admK) 0 winFacts₀0.arr_unscoped c (V m c),
      arrBufs0_eq, arrays0_eq, prefHeld0_emp, arrAt0_0, arrAt0_1, arrAt0_2, arrAt0_3]
    iintro ⟨⟨⟨⟨Hx, Hp, Hd⟩, HZ⟩, Hg, HO⟩, -, -⟩
    ihave Hx := (pointsTo_share (PosShare.mem_left_op_right fullShare)).1 $$ Hx
    icases Hx with ⟨Hx₁, Hx₂⟩
    imodintro
    isplitl [Hx₁ Hx₂ Hp Hd]
    · isplitl [Hx₁]; · iexact Hx₁
      isplitl [Hx₂]; · iexact Hx₂
      isplitl [Hp] <;> iassumption
    isplitr; · iempintro
    isplitl [HO]; · iapply (owes_in m c 0); iexact HO
    isplitl [Hg] <;> iassumption
  hin c := by
    refine (show _ ⊢ (Pipeline.ΦA spec0 c : sProp 𝕄) from ?_).trans (hin m c)
    unfold Pipeline.ΦA
    iintro ⟨Hg, -, Hs⟩
    isplitl [Hs] <;> iassumption
  hout c := by
    refine (hout m c).trans ?_
    rw [Pipeline.ownSems0_none]
    unfold Pipeline.ΦA
    iintro ⟨Hs, Hg⟩
    isplitl [Hg]; · iexact Hg
    isplitr; · iempintro
    iexact Hs
  hexit c := by
    rw [show StableHlo.held (c : Thread nD τ) ucs (V1 m c) = unscopedBufs c (fun b => V1 m c (Proc.devRef .tc b)) from (Pipeline.unscopedBufs_held c _).symm,
      Pipeline.unscopedBufs_split₀ (Pipeline.pin (pcfgs (F := F)) admK) 0 winFacts₀0.arr_unscoped c (fun b => V1 m c (Proc.devRef .tc b)),
      arrBufs0_eq, unscopedRest_V1, arrays0_eq, arrAt0_0, arrAt0_1, V1_pos, V1_den, V1_of_ne m c main_arg0 (by decide) (by decide)]
    iintro ⟨⟨Hx₁, Hx₂, Hp, Hd⟩, HO, Hg, HZ⟩
    ihave Hx := (pointsTo_share (PosShare.mem_left_op_right fullShare)).2 $$ [Hx₁ Hx₂]
    · isplitl [Hx₁] <;> iassumption
    imodintro
    isplitr [Hg HO]
    · isplitr [HZ]
      · isplitl [Hx]; · iexact Hx
        isplitl [Hp] <;> iassumption
      · iexact HZ
    · isplitl [Hg]; · iexact Hg
      iapply (owes_out m c _); iexact HO

/-- THE HOST LINE: the nine operations over the unscoped buffers, from what the region left. -/
def seg1 : Pipeline.HostSeg (Name := ℕ) (U := UR sig nD τ) (pcfgs (F := F)) defs₀ noVar noL noLv :=
  Pipeline.HostSeg.ofOps _ _ _ _ _ ucs hostOps1
    (fun op h => Pipeline.sub_ucRefs op ((List.forall_iff_forall_mem.mp hostOps1_sub) op h))
    (List.forall_iff_forall_mem.mp hostOps1_fresh) (V1 m) (Rside (F := F))

/-! ## The launch -/

/-- The launch element: the staging cells' rounds at their start, every transfer's token unspent. -/
def u0 : UR sig nD τ :=
  initOf (Pipeline.cells (Pipeline.pin (pcfgs (F := F)) admK) cellOf_inj) (Pipeline.launchToks (Pipeline.pin (pcfgs (F := F)) admK) cellOf_inj)

/-- No host operation writes the argument: each writes its own result, and the argument is none of the nine. -/
theorem arg0_not_written : (hostOps1 (F := F)).Forall fun op => Proc.devRef .tc main_arg0 ∉ op.writes :=
  have nw : ∀ {y : Ref sig .tc}, main_arg0 ≠ y → Proc.devRef (τ := τ) .tc main_arg0 ∉ ({Proc.devRef .tc y} : Finset (DevRef τ sig)) :=
    fun hy h => StableHlo.devRef_ne_of_ne hy (Finset.mem_singleton.mp h)
  ⟨nw (by decide), nw (by decide), nw (by decide), nw (by decide), nw (by decide), nw (by decide), nw (by decide), nw (by decide), nw (by decide)⟩

/-- So the argument's buffer after the host line is as launched: the region left it so too. -/
theorem VT_arg0 (c : Dev nD) : VT m c (Proc.devRef .tc main_arg0) = m ((c : Thread nD τ).loc main_arg0) := by
  unfold VT
  rw [StableHlo.after_of_forall_not_mem hostOps1 (V1 m c) (List.forall_iff_forall_mem.mp arg0_not_written),
    V1_of_ne m c main_arg0 (by decide) (by decide)]

set_option backward.isDefEq.respectTransparency.types false in
/-- THE RUN, with the result named. -/
theorem run_main : θ_run defs (onTc (τ := τ) (main (F := F))) ⟨m, fun _ => 0, ρ⟩ (fun r => ∀ c : Dev nD,
      r.2.mem ((c.tc : Thread nD τ).loc main_v7) = VT m c (Proc.devRef .tc main_v7)
      ∧ r.2.mem ((c.tc : Thread nD τ).loc main_arg0) = m ((c.tc : Thread nD τ).loc main_arg0)) :=
  Pipeline.θ_run_regions_kit (pcfgs (F := F)) admK (dats m) () cellOf_inj embK defs₀ noVar noL noLv m ρ main
    [.region (reg0 m), .host (seg1 m)]
    (fun c Q => by rw [main_segs admK (dats m) () noVar noL noLv (seg1 m) (reg0 m) rfl c])
    (by simp only [Pipeline.Seg.pipes_host, Pipeline.Seg.pipes_region, Pipeline.Seg.pipes_nil]; decide)
    (O₀ := 0) (hL := fun _ _ => rfl) (G := fun _ => iprop(emp)) (u₀ := u0 (F := F))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucs (V0 m c) ∗ Rside (F := F) c))
    (Tₙ := fun c => iprop(StableHlo.held (c : Thread nD τ) ucs (VT m c) ∗ Rgen (F := F) c))
    (hch := ⟨fun _ => .rfl, fun _ => .rfl, fun c => by
      show iprop(StableHlo.held (c : Thread nD τ) ucs (VT m c) ∗ Rgen (F := F) c ∗ Rowe (F := F) c)
        ⊢ iprop(iprop(StableHlo.held (c : Thread nD τ) ucs (VT m c) ∗ Rgen (F := F) c) ∗ Rowe (F := F) c)
      iintro ⟨Hh, Hg, HO⟩
      isplitr [HO]
      · isplitl [Hh] <;> iassumption
      · iexact HO⟩)
    (hinit := by
      refine Pipeline.initEach noL noLv fun c => ?_
      rw [show unscopedBufs c (fun b => m ((c : Thread nD τ).loc b)) = StableHlo.held (c : Thread nD τ) ucs (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v7) = VT m c (Proc.devRef .tc main_v7)
      ∧ s.mem ((c : Thread nD τ).loc main_arg0) = m ((c : Thread nD τ).loc main_arg0))
    (hfin := fun c s' => by
      rw [show StableHlo.held (c : Thread nD τ) ucs (VT m c) = unscopedBufs c (fun b => VT m c (Proc.devRef .tc b))
        from (Pipeline.unscopedBufs_held c _).symm]
      unfold unscopedBufs
      iintro ⟨⟨Hh, -⟩, HSI⟩
      ihave Hr := (pointsTo_read_all _ (fun b : Ref sig .tc => (c : Thread nD τ).loc b) (fun b => VT m c (Proc.devRef .tc b)) s') $$ [Hh HSI]
      · isplitl [Hh] <;> iassumption
      icases Hr with ⟨%hr, HSI⟩
      imodintro
      isplitr
      · ipureintro
        exact ⟨hr main_v7 (Finset.mem_filter.mpr ⟨Finset.mem_univ _, by decide⟩),
          (hr main_arg0 (Finset.mem_filter.mpr ⟨Finset.mem_univ _, by decide⟩)).trans (VT_arg0 m c)⟩
      iexact HSI)
    (hQ := fun _ h => h)

/-- THE FRAME: the program runs and its argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.KI.AccDef.lean ====
/-
  The three accumulators the kernel carries in its scratch buffers, and the two result blocks it stores, as pure
  functions of the input's blocks — the body's own payloads composed point by point, at any float instance.

  At grid point `t` (row block `t / 16`, column block `t % 16`) the body forms the block of exponentiated scaled
  similarities of the row block's rows against the column block's rows (`eblk`), and adds to each accumulator a column
  of lane sums of it: all of it (the row sum), its entries on the global diagonal (the self term), its entries where the
  column is the row's positive partner (the positive-pair term). At a row block's first column block the accumulators
  start from zero. At its last, the body stores the row sum less the self term, and the positive-pair term.
-/
import proofs.«134130_j44985487459095_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of exponentiated scaled similarities at point `t`. -/
abbrev eblk (c : Dev nD) (t : Fin cfg0.N) : FVec F S512x512 .f32 := k0_pay7 (xrow m c t) (xcol m c t)

/-- One point's update of the three accumulators `(row sum, self term, positive-pair term)` from given contents. -/
def stepFrom (c : Dev nD) (t : Fin cfg0.N) (s : Vec F S512x1 .f32 × Vec F S512x1 .f32 × Vec F S512x1 .f32) :
    Vec F S512x1 .f32 × Vec F S512x1 .f32 × Vec F S512x1 .f32 :=
  (k0_pay8 (xrow m c t) (xcol m c t) s.1,
   k0_pay1 (eblk m c t) (k0_pay9 (grid0.coords t)) (k0_pay10 (grid0.coords t)) s.2.1,
   k0_pay2 (eblk m c t) (k0_pay9 (grid0.coords t)) (k0_pay10 (grid0.coords t)) s.2.2)

/-- The contents the first branch resets the accumulators to: zeros. -/
abbrev zeros3 : Vec F S512x1 .f32 × Vec F S512x1 .f32 × Vec F S512x1 .f32 := (k0_pay4 (F := F), k0_pay5 (F := F), k0_pay6 (F := F))

/-- THE ACCUMULATION: what the three scratch buffers hold after the body at position `n`. At a row block's first
    column block the update starts from zeros, elsewhere from what the point before left. -/
def accP (c : Dev nD) : (n : ℕ) → n < cfg0.N → Vec F S512x1 .f32 × Vec F S512x1 .f32 × Vec F S512x1 .f32
  | 0, hn => stepFrom m c ⟨0, hn⟩ zeros3
  | n + 1, hn =>
    if (n + 1) % 16 = 0 then stepFrom m c ⟨n + 1, hn⟩ zeros3
    else stepFrom m c ⟨n + 1, hn⟩ (accP c n (Nat.lt_of_succ_lt hn))

theorem accP_reset (c : Dev nD) (t : Fin cfg0.N) (h : t.val % 16 = 0) :
    accP m c t.val t.isLt = stepFrom m c t zeros3 := by
  obtain ⟨n, hn⟩ := t
  cases n with
  | zero => rfl
  | succ n => exact if_pos h

theorem accP_step (c : Dev nD) (t : Fin cfg0.N) (h : ¬t.val % 16 = 0) :
    accP m c t.val t.isLt = stepFrom m c t (accP m c (t.val - 1) (Nat.lt_of_le_of_lt (Nat.sub_le _ _) t.isLt)) := by
  obtain ⟨n, hn⟩ := t
  cases n with
  | zero => exact absurd (Nat.zero_mod _) h
  | succ n => exact if_neg h

/-- What the body stores at a row block's last column block: into result window 3 (the denominators' block) the row sum
    less the self term, into result window 2 (the numerators' block) the positive-pair term. -/
def denBlk (c : Dev nD) (t : Fin cfg0.N) : Vec F S512x1 .f32 := k0_pay3 (accP m c t.val t.isLt).1 (accP m c t.val t.isLt).2.1
def posBlk (c : Dev nD) (t : Fin cfg0.N) : Vec F S512x1 .f32 := (accP m c t.val t.isLt).2.2

end Cert.KernelIdeal.Hand

end
-- ==== Proof.KI.Pieces.lean ====
/-
  What each case of the body leaves in the scratch buffers and the result buffers is the payload-form accumulation: every
  store covers its whole buffer, so a buffer's stores read back are its last store's value, and a load that follows a
  store in the same run reads that store.
-/
import proofs.«134130_j44985487459095_1_alg».proof.Proof.KI.Body
import proofs.«134130_j44985487459095_1_alg».proof.Proof.KI.AccDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, however spelt. -/
private theorem hz00 : (![0, 0] : Fin 2 → Nat) = fun _ => 0 := funext fun a => by fin_cases a <;> rfl

/-- At a middle column block the row-sum buffer's one store, read back, is the row-sum update of the contents before; -/
theorem pieceB_0 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 x1 : Vec F S512x256 .f32) (xs0 xs1 xs2 : Vec F S512x1 .f32) :
    readBack v (kernelRun0_B c i arg2 harg2 arg3 harg3 arg4 harg4 arg5 harg5 arg6 harg6 arg7 harg7 arg8 harg8 hc0 hc1 x0 x1 xs0 xs1 xs2).1 = k0_pay8 x0 x1 xs0 := by
  unfold readBack
  rw [View.read_writes_eq_canon _ _ _ (View.cover_of_tiledL _ S512x1.size (by sl_kernel_rfl))]
  unfold kernelRun0_B
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the self-term buffer's is the self-term update; -/
theorem pieceB_1 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 x1 : Vec F S512x256 .f32) (xs0 xs1 xs2 : Vec F S512x1 .f32) :
    readBack v (kernelRun0_B c i arg2 harg2 arg3 harg3 arg4 harg4 arg5 harg5 arg6 harg6 arg7 harg7 arg8 harg8 hc0 hc1 x0 x1 xs0 xs1 xs2).2.1 = k0_pay1 (k0_pay7 x0 x1) (k0_pay9 i) (k0_pay10 i) xs1 := by
  unfold readBack
  rw [View.read_writes_eq_canon _ _ _ (View.cover_of_tiledL _ S512x1.size (by sl_kernel_rfl))]
  unfold kernelRun0_B
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the positive-pair buffer's is the positive-pair update. -/
theorem pieceB_2 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 x1 : Vec F S512x256 .f32) (xs0 xs1 xs2 : Vec F S512x1 .f32) :
    readBack v (kernelRun0_B c i arg2 harg2 arg3 harg3 arg4 harg4 arg5 harg5 arg6 harg6 arg7 harg7 arg8 harg8 hc0 hc1 x0 x1 xs0 xs1 xs2).2.2.1 = k0_pay2 (k0_pay7 x0 x1) (k0_pay9 i) (k0_pay10 i) xs2 := by
  unfold readBack
  rw [View.read_writes_eq_canon _ _ _ (View.cover_of_tiledL _ S512x1.size (by sl_kernel_rfl))]
  unfold kernelRun0_B
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- At a first column block each buffer is stored twice, zeros then the update, and the update's addend is the load of the zeros just stored: the row sum from zero, -/
theorem pieceA_0 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 x1 : Vec F S512x256 .f32) :
    readBack v (kernelRun0_A c i arg2 harg2 arg3 harg3 arg4 harg4 arg5 harg5 arg6 harg6 arg7 harg7 arg8 harg8 hc0 hc1 x0 x1).1 = k0_pay8 x0 x1 (k0_pay4 (F := F)) := by
  unfold readBack
  rw [View.read_writes_eq_canon _ _ _ (View.cover_of_tiledL _ S512x1.size (by sl_kernel_rfl))]
  unfold kernelRun0_A
  dsimp only
  sl_unfold_words
  rw [View.canon_cons_unit_zero (S := S512x1) hz00, View.readCov_unit_zero (S := S512x1) _ hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the self term from zero, -/
theorem pieceA_1 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 x1 : Vec F S512x256 .f32) :
    readBack v (kernelRun0_A c i arg2 harg2 arg3 harg3 arg4 harg4 arg5 harg5 arg6 harg6 arg7 harg7 arg8 harg8 hc0 hc1 x0 x1).2.1 = k0_pay1 (k0_pay7 x0 x1) (k0_pay9 i) (k0_pay10 i) (k0_pay5 (F := F)) := by
  unfold readBack
  rw [View.read_writes_eq_canon _ _ _ (View.cover_of_tiledL _ S512x1.size (by sl_kernel_rfl))]
  unfold kernelRun0_A
  dsimp only
  sl_unfold_words
  rw [View.canon_cons_unit_zero (S := S512x1) hz00, View.readCov_unit_zero (S := S512x1) _ hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the positive-pair term from zero. -/
theorem pieceA_2 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 x1 : Vec F S512x256 .f32) :
    readBack v (kernelRun0_A c i arg2 harg2 arg3 harg3 arg4 harg4 arg5 harg5 arg6 harg6 arg7 harg7 arg8 harg8 hc0 hc1 x0 x1).2.2.1 = k0_pay2 (k0_pay7 x0 x1) (k0_pay9 i) (k0_pay10 i) (k0_pay6 (F := F)) := by
  unfold readBack
  rw [View.read_writes_eq_canon _ _ _ (View.cover_of_tiledL _ S512x1.size (by sl_kernel_rfl))]
  unfold kernelRun0_A
  dsimp only
  sl_unfold_words
  rw [View.canon_cons_unit_zero (S := S512x1) hz00, View.readCov_unit_zero (S := S512x1) _ hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- At a last column block the three scratch buffers are updated as at a middle one: the row sum, -/
theorem pieceC_0 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    readBack v (kernelRun0_C c i arg2 harg2 arg3 harg3 arg4 harg4 arg5 harg5 arg6 harg6 arg7 harg7 arg8 harg8 hc0 hc1 x0 x1 xs0 xs1 xs2).2.2.1 = k0_pay8 x0 x1 xs0 := by
  unfold readBack
  rw [View.read_writes_eq_canon _ _ _ (View.cover_of_tiledL _ S512x1.size (by sl_kernel_rfl))]
  unfold kernelRun0_C
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the self term, -/
theorem pieceC_1 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    readBack v (kernelRun0_C c i arg2 harg2 arg3 harg3 arg4 harg4 arg5 harg5 arg6 harg6 arg7 harg7 arg8 harg8 hc0 hc1 x0 x1 xs0 xs1 xs2).2.2.2.1 = k0_pay1 (k0_pay7 x0 x1) (k0_pay9 i) (k0_pay10 i) xs1 := by
  unfold readBack
  rw [View.read_writes_eq_canon _ _ _ (View.cover_of_tiledL _ S512x1.size (by sl_kernel_rfl))]
  unfold kernelRun0_C
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the positive-pair term; -/
theorem pieceC_2 (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    readBack v (kernelRun0_C c i arg2 harg2 arg3 harg3 arg4 harg4 arg5 harg5 arg6 harg6 arg7 harg7 arg8 harg8 hc0 hc1 x0 x1 xs0 xs1 xs2).2.2.2.2.1 = k0_pay2 (k0_pay7 x0 x1) (k0_pay9 i) (k0_pay10 i) xs2 := by
  unfold readBack
  rw [View.read_writes_eq_canon _ _ _ (View.cover_of_tiledL _ S512x1.size (by sl_kernel_rfl))]
  unfold kernelRun0_C
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- the numerators' buffer takes the load of the positive-pair buffer after its update, -/
theorem pieceC_pos (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    readBack v (kernelRun0_C c i arg2 harg2 arg3 harg3 arg4 harg4 arg5 harg5 arg6 harg6 arg7 harg7 arg8 harg8 hc0 hc1 x0 x1 xs0 xs1 xs2).1 = k0_pay2 (k0_pay7 x0 x1) (k0_pay9 i) (k0_pay10 i) xs2 := by
  unfold readBack
  rw [View.read_writes_eq_canon _ _ _ (View.cover_of_tiledL _ S512x1.size (by sl_kernel_rfl))]
  unfold kernelRun0_C
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- and the denominators' buffer the difference of the loads of the row-sum and self-term buffers after theirs. -/
theorem pieceC_den (v : View sig .tc .vmem S512x1 .f32) (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 x1 : Vec F S512x256 .f32) (xs0 xs1 xs2 : Vec F S512x1 .f32) :
    readBack v (kernelRun0_C c i arg2 harg2 arg3 harg3 arg4 harg4 arg5 harg5 arg6 harg6 arg7 harg7 arg8 harg8 hc0 hc1 x0 x1 xs0 xs1 xs2).2.1 = k0_pay3 (k0_pay8 x0 x1 xs0) (k0_pay1 (k0_pay7 x0 x1) (k0_pay9 i) (k0_pay10 i) xs1) := by
  unfold readBack
  rw [View.read_writes_eq_canon _ _ _ (View.cover_of_tiledL _ S512x1.size (by sl_kernel_rfl))]
  unfold kernelRun0_C
  dsimp only
  sl_unfold_words
  rw [View.canon_unit_zero hz00]
  simp only [View.readAt_eq_ld, harg2.read_unread, harg3.read_unread, harg6.read_unread, harg7.read_unread, harg8.read_unread, View.ld_unit_zero (S := S512x1) hz00, View.ld_unit_zero (S := S512x256) hz00, View.readCov_unit_zero (S := S512x1) _ hz00]

/-- Each case's scratch contents are one accumulator update: from zeros at a row block's first column block, -/
theorem scrA_eq (c : Dev nD) (t : Fin cfg0.N) (h0 : t.val % 16 = 0) (h1 : ¬t.val % 16 = 15) :
    scrA m c t h0 h1 = stepFrom m c t zeros3 := by
  unfold scrA stepFrom
  refine Prod.ext ?_ (Prod.ext ?_ ?_) <;> dsimp only
  · rw [pieceA_0]
  · rw [pieceA_1]
  · rw [pieceA_2]

/-- from the contents before at a middle one, -/
theorem scrB_eq (c : Dev nD) (t : Fin cfg0.N) (h0 : ¬t.val % 16 = 0) (h1 : ¬t.val % 16 = 15) (s : S3 F) :
    scrB m c t h0 h1 s = stepFrom m c t s := by
  unfold scrB stepFrom
  refine Prod.ext ?_ (Prod.ext ?_ ?_) <;> dsimp only
  · rw [pieceB_0]
  · rw [pieceB_1]
  · rw [pieceB_2]

/-- and at the last one. -/
theorem scrC_eq (c : Dev nD) (t : Fin cfg0.N) (h0 : ¬t.val % 16 = 0) (h1 : t.val % 16 = 15) (s : S3 F) :
    scrC m c t h0 h1 s = stepFrom m c t s := by
  unfold scrC stepFrom
  refine Prod.ext ?_ (Prod.ext ?_ ?_) <;> dsimp only
  · rw [pieceC_0]
  · rw [pieceC_1]
  · rw [pieceC_2]

/-- The two recursions agree at every position: by induction on the position, case by case. -/
theorem scrAt_eq_accP_nat (c : Dev nD) : ∀ (n : ℕ) (hn : n < cfg0.N), scrAt m c n hn = accP m c n hn := by
  intro n
  induction n with
  | zero =>
    intro hn
    rw [scrAt_A m c ⟨0, hn⟩ (Nat.zero_mod _) (by show ¬0 % 16 = 15; decide), scrA_eq, accP_reset m c ⟨0, hn⟩ (Nat.zero_mod _)]
  | succ n ih =>
    intro hn
    by_cases h0 : (n + 1) % 16 = 0
    · have h1 : ¬(n + 1) % 16 = 15 := by omega
      rw [scrAt_A m c ⟨n + 1, hn⟩ h0 h1, scrA_eq, accP_reset m c ⟨n + 1, hn⟩ h0]
    · by_cases h1 : (n + 1) % 16 = 15
      · rw [scrAt_C m c ⟨n + 1, hn⟩ h0 h1, scrC_eq, accP_step m c ⟨n + 1, hn⟩ h0]
        show stepFrom m c _ (scrAt m c n _) = stepFrom m c _ (accP m c n _)
        rw [ih]
      · rw [scrAt_B m c ⟨n + 1, hn⟩ h0 h1, scrB_eq, accP_step m c ⟨n + 1, hn⟩ h0]
        show stepFrom m c _ (scrAt m c n _) = stepFrom m c _ (accP m c n _)
        rw [ih]

/-- The scratch buffers after position `t` hold the accumulators in payload form. -/
theorem scrAt_eq_accP (c : Dev nD) (t : Fin cfg0.N) : scrAt m c t.val t.isLt = accP m c t.val t.isLt :=
  scrAt_eq_accP_nat m c t.val t.isLt

/-- At a row block's last column block the numerators' buffer holds the positive-pair accumulator, -/
theorem outAt_pos (c : Dev nD) (t : Fin cfg0.N) (h : t.val % 16 = 15) : (outAt m c t).1 = posBlk m c t := by
  have h0 : ¬t.val % 16 = 0 := by omega
  unfold outAt posBlk
  rw [dif_pos h, accP_step m c t h0]
  dsimp only
  rw [pieceC_pos]
  unfold stepFrom
  dsimp only
  unfold scrBefore
  rw [scrAt_eq_accP_nat m c (t.val - 1)]

/-- and the denominators' buffer the row sum less the self term. -/
theorem outAt_den (c : Dev nD) (t : Fin cfg0.N) (h : t.val % 16 = 15) : (outAt m c t).2 = denBlk m c t := by
  have h0 : ¬t.val % 16 = 0 := by omega
  unfold outAt denBlk
  rw [dif_pos h, accP_step m c t h0]
  dsimp only
  rw [pieceC_den]
  unfold stepFrom
  dsimp only
  unfold scrBefore
  rw [scrAt_eq_accP_nat m c (t.val - 1)]

end Cert.KernelIdeal.Hand

end
-- ==== Proof.Spec.lean ====
/-
  The mathematics of the contrastive loss both programs compute, stated once over the extended reals and over plain
  coordinates (row `r < 8192`, feature `k < 256`), with no program in sight.

  A row's squared norm is `ss X r = ∑ k, X r k ^ 2`. The kernel normalises a row by MULTIPLYING with the reciprocal square
  root of that sum (`nK`), the reference by DIVIDING by its square root (`nR`). The similarity of rows `r` and `c` is the
  inner product of the two normalised rows; it is scaled by the inverse temperature — the kernel multiplies by `2`, the
  reference divides by `1/2` — and exponentiated (`eK`, `eR`). Row `r`'s positive partner is row `r + 4096` modulo `8192`.
  Its numerator is the exponentiated similarity with the partner, its denominator the sum of the exponentiated similarities
  with every row less the one with itself, and the loss is the mean over the rows of `-log (numerator / denominator)`.
-/
import Idealize.ShloMosaic.PureOps.Ideal
import Idealize.ShloMosaic.Lib.ValueIdx

noncomputable section

open scoped BigOperators

namespace Cert.Spec

open Idealize.ShloMosaic Idealize.ShloMosaic.ValueIdx

/-- The input's shape, and the scalar result's. -/
abbrev SX : Shape := ⟨2, ![8192, 256]⟩
abbrev S0 : Shape := ⟨0, ![]⟩

/-- The input as rows of features. -/
abbrev Mat := Fin 8192 → Fin 256 → EReal

/-- An array of the input's shape read by coordinates. -/
def matOf (a : SX.Idx → EReal) : Mat := fun r k => a (ix2 r k)

/-- The three float constants the programs spell: the kernel's factor `2.0`, the reference's divisor `0.5`, and the
    row count `8192.0` both divide the summed loss by. -/
def two : EReal := Ideal.ofBits .f32 0x40000000#32
def half : EReal := Ideal.ofBits .f32 0x3F000000#32
def count : EReal := Ideal.ofBits .f32 0x46000000#32

/-- A row's sum of squares. -/
def ss (X : Mat) (r : Fin 8192) : EReal := ∑ k : Fin 256, X r k * X r k

/-- A normalised entry, the kernel's way: the entry times the reciprocal square root of its row's sum of squares. -/
def nK (X : Mat) (r : Fin 8192) (k : Fin 256) : EReal := X r k * Ideal.rsqrt (ss X r)

/-- A normalised entry, the reference's way: the entry over the square root of its row's sum of squares. -/
def nR (X : Mat) (r : Fin 8192) (k : Fin 256) : EReal := Ideal.div (X r k) (Ideal.sqrt (ss X r))

/-- The exponentiated scaled similarity of rows `r` and `c`, the kernel's way (times `2`), -/
def eK (X : Mat) (r c : Fin 8192) : EReal := Ideal.exp ((∑ k : Fin 256, nK X r k * nK X c k) * two)

/-- and the reference's (over `1/2`). -/
def eR (X : Mat) (r c : Fin 8192) : EReal := Ideal.exp (Ideal.div (∑ k : Fin 256, nR X r k * nR X c k) half)

/-- Row `r`'s positive partner: `r + 4096` modulo `8192`. -/
def partner (r : Fin 8192) : Fin 8192 := ⟨(r.val + 4096) % 8192, Nat.mod_lt _ (by norm_num)⟩

/-- The loss from the rows' numerators `p` and denominators `d`: the mean of `-log (p r / d r)`. -/
def lossOf (p d : Fin 8192 → EReal) : EReal :=
  Ideal.div (∑ r : Fin 8192, -(Ideal.log (Ideal.div (p r) (d r)))) count

/-- Numerators and denominators from a table `e` of exponentiated similarities. -/
def posOf (e : Fin 8192 → Fin 8192 → EReal) (r : Fin 8192) : EReal := e r (partner r)
def denOf (e : Fin 8192 → Fin 8192 → EReal) (r : Fin 8192) : EReal := (∑ c : Fin 8192, e r c) - e r r

/-- The loss as the kernel computes it, and as the reference does. -/
def lossK (X : Mat) : EReal := lossOf (posOf (eK X)) (denOf (eK X))
def lossR (X : Mat) : EReal := lossOf (posOf (eR X)) (denOf (eR X))

end Cert.Spec

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KI.Pay7.lean ====
/-
  The similarity block read at an entry, at the ideal instance, over ABSTRACT blocks, as a plain sum over the extended
  reals.

  For a row block `xr` and a column block `xc` (512 rows of 256 features each), the similarity block's entry `(p, q)` is
  the exponential of twice the inner product of row `p` of `xr` and row `q` of `xc`, each row first multiplied by the
  reciprocal square root of its own sum of squares (a change of float format is the identity, a transposed matrix reads
  its operand with the coordinates exchanged, and a matrix product onto a zero accumulator is the plain sum over the
  contracted axis).
-/
import proofs.«134130_j44985487459095_1_alg».proof.Proof.KI.Kit
import proofs.«134130_j44985487459095_1_alg».proof.Proof.Spec
import proofs.«134130_j44985487459095_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- A row of a block, normalised the kernel's way: each entry times the reciprocal square root of the row's sum of squares. -/
def rowN (x : Vec Ideal S512x256 .f32) (p : Fin 512) (k : Fin 256) : EReal :=
  x (ix2 p k) * Ideal.rsqrt (∑ k' : Fin 256, x (ix2 p k') * x (ix2 p k'))

/-- The lane sum of a block's squares, at row `p`: the sum over the 256 features of the squared entries (the index over
    row `p` with feature `k'` inserted on the summed axis is `(p, k')`). -/
private theorem sumsq_apply (x : FVec Ideal S512x256 .f32) (p : Fin 512) :
    (multiReduction (F := Ideal) .add [1] S512 (mulf x x) 0x00000000#32 reduces_S512x256_S512 (.inl rfl) rfl) (ix1 p)
      = ∑ k' : Fin 256, x (ix2 p k') * x (ix2 p k') := by
  refine (Ideal.multiReduction_add_single (mulf x x) _ reduces_S512x256_S512 (.inl rfl) rfl (ix1 p)).trans ?_
  refine Finset.sum_congr rfl fun k' _ => ?_
  have e : reduces_S512x256_S512.lift (ix1 p) k' = ix2 p k' := by
    funext c; apply Fin.ext
    match c with
    | ⟨0, _⟩ => rfl
    | ⟨1, _⟩ => rfl
  rw [e]; rfl

/-- A block with every row multiplied by the reciprocal square root of its sum of squares, at an entry: the column of
    row sums, kept as a 512 by 1 array and spread back over the 256 features, is read at `(p, k)` as row `p`'s sum. -/
private theorem norm_apply (x : FVec Ideal S512x256 .f32) (p : Fin 512) (k : Fin 256) :
    (mulf x (broadcastTo S512x256 (rsqrt (shapeCast S512x1 (multiReduction (F := Ideal) .add [1] S512 (mulf x x) 0x00000000#32 reduces_S512x256_S512 (.inl rfl) rfl) shapeCasts_S512_S512x1)) broadcasts_S512x1_S512x256)) (ix2 p k)
      = rowN x p k := by
  unfold rowN
  rw [mulf_apply]
  congr 1
  refine (Keepdims.broadcastTo_a1_ab_apply _ broadcasts_S512x1_S512x256 p k).trans ?_
  show Ideal.rsqrt (shapeCast S512x1 _ shapeCasts_S512_S512x1 (ix2 p (0 : Fin 1))) = _
  congr 1
  refine (Keepdims.shapeCast_a_a1_apply _ shapeCasts_S512_S512x1 p 0).trans ?_
  exact sumsq_apply x p

/-! The matrix product's operand indices: at output entry `i` and contraction position `q`, the left operand is read at
    `(i 0, q)` and the right operand at `(q, i 1)`. One lemma per operand axis. -/

private theorem lhs_dot_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

private theorem lhs_dot_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q

private theorem rhs_dot_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q

private theorem rhs_dot_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The matrix product onto a zero accumulator, at entry `(p, q)`: the sum over the 256 contracted positions of the
    left operand's row `p` times the right operand's column `q`. -/
private theorem dot_apply (A : FVec Ideal S512x256 .bf16) (B : FVec Ideal S256x512 .bf16) (p q : Fin 512) :
    (matmul dot_S512x256_S256x512_S512x512_1_0_0_1_n_n none A B (constant (F := Ideal) S512x512 .f32 0x00000000#32)) (ix2 p q)
      = ∑ k : Fin 256, A (ix2 p k) * B (ix2 k q) := by
  simp only [matmul]
  rw [Ideal.matmul_constant_zero_apply,
    ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q)
      ((contrEquiv1 dot_S512x256_S256x512_S512x512_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S512x256_S256x512_S512x512_1_0_0_1_n_n.rhsIdx (ix2 p q)
      ((contrEquiv1 dot_S512x256_S256x512_S512x512_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- The similarity block at an entry. -/
theorem pay7_apply (xr xc : Vec Ideal S512x256 .f32) (p q : Fin 512) :
    (k0_pay7 (F := Ideal) xr xc : S512x512.Idx → EReal) (ix2 p q)
      = Ideal.exp ((∑ k : Fin 256, rowN xr p k * rowN xc q k) * Cert.Spec.two) := by
  unfold k0_pay7
  show Ideal.exp (_ * Cert.Spec.two) = _
  congr 2
  refine (dot_apply _ _ p q).trans ?_
  refine Finset.sum_congr rfl fun k _ => ?_
  congr 1
  · exact norm_apply xr p k
  · exact (transpose_ix2_apply _ transposes_S512x256_p1_0_S256x512 k q).trans (norm_apply xc q k)

end Cert.KernelIdeal.Hand

end
-- ==== Proof.KI.Blocks.lean ====
/-
  The input's blocks and the similarity block by global coordinates, at the ideal instance. Point `t` is row block
  `t / 16`, column block `t % 16`: row `p` of its row block is the input's row `512 · (t / 16) + p`, row `q` of its column
  block the input's row `512 · (t % 16) + q` (a block's coordinate is its index times its extent plus the coordinate inside
  it, and both windows' index maps are the one grid coordinate they read). The similarity block's entry `(p, q)` is then
  the table of exponentiated similarities at those two input rows.
-/
import proofs.«134130_j44985487459095_1_alg».proof.Proof.KI.AccDef
import proofs.«134130_j44985487459095_1_alg».proof.Proof.KI.Pay7
import proofs.«134130_j44985487459095_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- The input as rows of features. -/
abbrev Xof (c : Dev nD) : Cert.Spec.Mat := Cert.Spec.matOf (m ((c : Thread nD τ).loc main_arg0) : Cert.Spec.SX.Idx → EReal)

/-- The global row of row `p` of point `t`'s row block. -/
def grow (t : Fin cfg0.N) (p : Fin 512) : Fin 8192 :=
  ⟨512 * (t.val / 16) + p.val, by have := t.isLt; have h : cfg0.N = 256 := N_0; have := p.isLt; omega⟩
/-- The global column of column `q` of point `t`'s column block. -/
def gcol (t : Fin cfg0.N) (q : Fin 512) : Fin 8192 :=
  ⟨512 * (t.val % 16) + q.val, by have := q.isLt; omega⟩

/-- The two input windows' index maps, decided over the 256 grid points: the row window reads row block `t / 16`, the
    column window row block `t % 16`, both at feature block `0`. -/
private theorem idx_row : ∀ t : Fin cfg0.N, win0_0.index t (0 : Fin 2) = t.val / 16 ∧ win0_0.index t (1 : Fin 2) = 0 :=
  (by decide +kernel : ∀ t : Fin grid0.N, _)
private theorem idx_col : ∀ t : Fin cfg0.N, win0_1.index t (0 : Fin 2) = t.val % 16 ∧ win0_1.index t (1 : Fin 2) = 0 :=
  (by decide +kernel : ∀ t : Fin grid0.N, _)

/-- The row block and the column block read by coordinates. -/
theorem xrow_apply (c : Dev nD) (t : Fin cfg0.N) (p : Fin 512) (k : Fin 256) :
    (xrow m c t : S512x256.Idx → EReal) (ix2 p k) = Xof m c (grow t p) k := by
  obtain ⟨e0, e1⟩ := idx_row t
  unfold xrow iblk
  rw [View.read_apply]
  show V m c main_arg0 _ = m ((c : Thread nD τ).loc main_arg0) (ix2 (grow t p) k)
  unfold V
  congr 1
  funext a
  apply Fin.ext
  match a with
  | ⟨0, _⟩ => show win0_0.index t (0 : Fin 2) * 512 + 1 * p.val = 512 * (t.val / 16) + p.val; rw [e0]; omega
  | ⟨1, _⟩ => show win0_0.index t (1 : Fin 2) * 256 + 1 * k.val = k.val; rw [e1]; omega
theorem xcol_apply (c : Dev nD) (t : Fin cfg0.N) (q : Fin 512) (k : Fin 256) :
    (xcol m c t : S512x256.Idx → EReal) (ix2 q k) = Xof m c (gcol t q) k := by
  obtain ⟨e0, e1⟩ := idx_col t
  unfold xcol iblk
  rw [View.read_apply]
  show V m c main_arg0 _ = m ((c : Thread nD τ).loc main_arg0) (ix2 (gcol t q) k)
  unfold V
  congr 1
  funext a
  apply Fin.ext
  match a with
  | ⟨0, _⟩ => show win0_1.index t (0 : Fin 2) * 512 + 1 * q.val = 512 * (t.val % 16) + q.val; rw [e0]; omega
  | ⟨1, _⟩ => show win0_1.index t (1 : Fin 2) * 256 + 1 * k.val = k.val; rw [e1]; omega

/-- The similarity block is the table of exponentiated similarities at the block's global rows and columns. -/
theorem eblk_apply (c : Dev nD) (t : Fin cfg0.N) (p q : Fin 512) :
    (eblk m c t : S512x512.Idx → EReal) (ix2 p q) = Cert.Spec.eK (Xof m c) (grow t p) (gcol t q) := by
  refine (pay7_apply (xrow m c t) (xcol m c t) p q).trans ?_
  unfold Cert.Spec.eK
  congr 2
  refine Finset.sum_congr rfl fun k _ => ?_
  unfold rowN Cert.Spec.nK Cert.Spec.ss
  rw [xrow_apply m c t p k, xcol_apply m c t q k]
  congr 2
  · congr 1
    exact Finset.sum_congr rfl fun k' _ => by rw [xrow_apply m c t p k']
  · congr 1
    exact Finset.sum_congr rfl fun k' _ => by rw [xcol_apply m c t q k']

end Cert.KernelIdeal.Hand

end
-- ==== Proof.KI.PayAcc.lean ====
/-
  The accumulator payloads read at an index, at the ideal instance, over ABSTRACT blocks: each update adds, at row `p`,
  a sum over the similarity block's 512 columns — of every entry (the row sum); of the entries whose global column
  equals the global row (the self term); of the entries whose global column is the global row's partner, `row + 4096`
  below `4096` and `row - 4096` from there on (the positive-pair term). The reset values are zero, and the stored
  denominator is a difference.
-/
import proofs.«134130_j44985487459095_1_alg».proof.Proof.KI.Kit
import proofs.«134130_j44985487459095_1_alg».proof.Proof.Spec
import proofs.«134130_j44985487459095_1_alg».proof.Proof.LibKeepdims
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The three reset values are zero. -/
theorem pay4_apply (y : S512x1.Idx) : (k0_pay4 (F := Ideal) : S512x1.Idx → EReal) y = 0 := by
  unfold k0_pay4
  rw [shapeCast_self]
  exact Ideal.ofBits_zero_f32
theorem pay5_apply (y : S512x1.Idx) : (k0_pay5 (F := Ideal) : S512x1.Idx → EReal) y = 0 := by
  unfold k0_pay5
  rw [shapeCast_self]
  exact Ideal.ofBits_zero_f32
theorem pay6_apply (y : S512x1.Idx) : (k0_pay6 (F := Ideal) : S512x1.Idx → EReal) y = 0 := by
  unfold k0_pay6
  rw [shapeCast_self]
  exact Ideal.ofBits_zero_f32

/-- Row `p` of a `512 × 512` block with column `k` put back is the entry `(p, k)`. -/
theorem lift_row (p : Fin 512) (k : Fin (S512x512.size 1)) :
    reduces_S512x512_S512.lift (ix1 p) k = ix2 p (⟨k.val, k.isLt⟩ : Fin 512) := by
  funext c; apply Fin.ext
  fin_cases c <;> rfl

/-- A lane sum kept as a column: at row `p`, the sum over the block's 512 columns. -/
theorem laneSum_apply (v : FVec Ideal S512x512 .f32) (p : Fin 512) (z : Fin 1) :
    (shapeCast S512x1 (multiReduction .add [1] S512 v 0x00000000#32 reduces_S512x512_S512 (.inl rfl) rfl) shapeCasts_S512_S512x1 : S512x1.Idx → EReal) (ix2 p z)
      = ∑ q : Fin 512, (v : S512x512.Idx → EReal) (ix2 p q) := by
  rw [Idealize.ShloMosaic.Keepdims.shapeCast_a_a1_apply]
  refine (Ideal.multiReduction_add_single v 0x00000000#32 reduces_S512x512_S512 (.inl rfl) rfl (ix1 p)).trans ?_
  exact Finset.sum_congr rfl fun k _ => congrArg v (lift_row p k)

/-- The row-sum update at row `p`: what was there plus the sum of the similarity block's row. -/
theorem pay8_apply (xr xc : Vec Ideal S512x256 .f32) (s : Vec Ideal S512x1 .f32) (p : Fin 512) (z : Fin 1) :
    (k0_pay8 (F := Ideal) xr xc s : S512x1.Idx → EReal) (ix2 p z)
      = (s : S512x1.Idx → EReal) (ix2 p z) + ∑ q : Fin 512, (k0_pay7 (F := Ideal) xr xc : S512x512.Idx → EReal) (ix2 p q) := by
  unfold k0_pay8
  rw [shapeCast_self, addf_apply, laneSum_apply]

/-! ## The masks, decoded to arithmetic on naturals -/

/-- Two words of small naturals are equal exactly when the naturals are. -/
theorem ofNat32_inj {A B : ℕ} (hA : A < 2 ^ 32) (hB : B < 2 ^ 32) : BitVec.ofNat 32 A = BitVec.ofNat 32 B ↔ A = B := by
  constructor
  · intro h
    have h' := congrArg BitVec.toNat h
    simp only [BitVec.toNat_ofNat] at h'
    omega
  · intro h; rw [h]

/-- A choice on a word equality is the choice on the decoded proposition. -/
theorem select_cmpi_eq {α : Type} (a b : BitVec 32) (x y : α) (P : Prop) [Decidable P] (h : a = b ↔ P) :
    Scalar.select (IntOp.cmpi .eq a b) x y = if P then x else y := by
  by_cases hp : P
  · rw [if_pos hp, StableHlo.Predicate.cmpi_eq_iff.mpr (h.mpr hp), select_one]
  · have hc : ¬ IntOp.cmpi .eq a b = 1#1 := fun hc => hp (h.mp (StableHlo.Predicate.cmpi_eq_iff.mp hc))
    rw [if_neg hp, eq_zero_of_ne_one hc, select_zero]

/-- The global row id at an entry: `512` times the row block plus the row within the block. -/
theorem pay9_apply (i : grid0.Coords) (p q : Fin 512) :
    k0_pay9 i (ix2 p q) = BitVec.ofNat 32 (512 * (i 0).val + p.val) := by
  unfold k0_pay9
  show IntOp.addi (Scalar.muli (BitVec.ofNat 32 (i 0).val) 512#32) (iota .tc S512x512 32 [0] iota_S512x512_d0_w32 (ix2 p q)) = _
  rw [iota_single_apply]
  show BitVec.ofNat 32 (i 0).val * 512#32 + BitVec.ofNat 32 p.val = _
  apply BitVec.eq_of_toNat_eq
  simp only [BitVec.toNat_add, BitVec.toNat_mul, BitVec.toNat_ofNat]
  omega

/-- The global column id at an entry: `512` times the column block plus the column within the block. -/
theorem pay10_apply (i : grid0.Coords) (p q : Fin 512) :
    k0_pay10 i (ix2 p q) = BitVec.ofNat 32 (512 * (i 1).val + q.val) := by
  unfold k0_pay10
  show IntOp.addi (Scalar.muli (BitVec.ofNat 32 (i 1).val) 512#32) (iota .tc S512x512 32 [1] iota_S512x512_d1_w32 (ix2 p q)) = _
  rw [iota_single_apply]
  show BitVec.ofNat 32 (i 1).val * 512#32 + BitVec.ofNat 32 q.val = _
  apply BitVec.eq_of_toNat_eq
  simp only [BitVec.toNat_add, BitVec.toNat_mul, BitVec.toNat_ofNat]
  omega

/-- A global row or column id is below `8192`. -/
theorem gid_lt0 (i : grid0.Coords) (p : Fin 512) : 512 * (i 0).val + p.val < 8192 := by
  have h0 : (i 0).val < 16 := (i 0).isLt
  have := p.isLt; omega
theorem gid_lt1 (i : grid0.Coords) (q : Fin 512) : 512 * (i 1).val + q.val < 8192 := by
  have h1 : (i 1).val < 16 := (i 1).isLt
  have := q.isLt; omega

/-- The partner's word: `R + 4096` below `4096`, `R - 4096` from there on, is `(R + 4096) mod 8192`. -/
theorem partner_word (R : ℕ) (hR : R < 8192) :
    Scalar.select (IntOp.cmpi .slt (BitVec.ofNat 32 R) 4096#32) (IntOp.addi (BitVec.ofNat 32 R) 4096#32) (IntOp.subi (BitVec.ofNat 32 R) 4096#32)
      = BitVec.ofNat 32 ((R + 4096) % 8192) := by
  have hlt : IntOp.cmpi .slt (BitVec.ofNat 32 R) 4096#32 = 1#1 ↔ R < 4096 := by
    rw [StableHlo.Predicate.slt_iff_toNat (by simp only [BitVec.toNat_ofNat]; omega) (by decide)]
    simp only [BitVec.toNat_ofNat]; omega
  by_cases h : R < 4096
  · rw [hlt.mpr h, select_one]
    apply BitVec.eq_of_toNat_eq
    show (BitVec.ofNat 32 R + 4096#32).toNat = _
    simp only [BitVec.toNat_add, BitVec.toNat_ofNat]; omega
  · rw [eq_zero_of_ne_one (fun hc => h (hlt.mp hc)), select_zero]
    apply BitVec.eq_of_toNat_eq
    show (BitVec.ofNat 32 R - 4096#32).toNat = _
    simp only [BitVec.toNat_sub, BitVec.toNat_ofNat]; omega

/-- The self-term update at row `p` of grid point `i` (row block `i 0`, column block `i 1`): the entries on the global diagonal. -/
theorem pay1_apply (e : FVec Ideal S512x512 .f32) (i : grid0.Coords) (s : Vec Ideal S512x1 .f32) (p : Fin 512) (z : Fin 1) :
    (k0_pay1 (F := Ideal) e (k0_pay9 i) (k0_pay10 i) s : S512x1.Idx → EReal) (ix2 p z)
      = (s : S512x1.Idx → EReal) (ix2 p z)
        + ∑ q : Fin 512, if 512 * (i 0).val + p.val = 512 * (i 1).val + q.val then (e : S512x512.Idx → EReal) (ix2 p q) else 0 := by
  unfold k0_pay1
  rw [shapeCast_self, addf_apply, laneSum_apply]
  refine congrArg _ (Finset.sum_congr rfl fun q _ => ?_)
  show Scalar.select (IntOp.cmpi .eq (k0_pay9 i (ix2 p q)) (k0_pay10 i (ix2 p q))) (e (ix2 p q)) (Ideal.ofBits .f32 0x00000000#32) = _
  rw [pay9_apply, pay10_apply, Ideal.ofBits_zero_f32]
  exact select_cmpi_eq _ _ _ _ _
    (ofNat32_inj (Nat.lt_trans (gid_lt0 i p) (by norm_num)) (Nat.lt_trans (gid_lt1 i q) (by norm_num)))

/-- The positive-pair update at row `p` of grid point `i`: the entries whose global column is the global row's partner. -/
theorem pay2_apply (e : FVec Ideal S512x512 .f32) (i : grid0.Coords) (s : Vec Ideal S512x1 .f32) (p : Fin 512) (z : Fin 1) :
    (k0_pay2 (F := Ideal) e (k0_pay9 i) (k0_pay10 i) s : S512x1.Idx → EReal) (ix2 p z)
      = (s : S512x1.Idx → EReal) (ix2 p z)
        + ∑ q : Fin 512, if 512 * (i 1).val + q.val = (512 * (i 0).val + p.val + 4096) % 8192 then (e : S512x512.Idx → EReal) (ix2 p q) else 0 := by
  unfold k0_pay2
  rw [shapeCast_self, addf_apply, laneSum_apply]
  refine congrArg _ (Finset.sum_congr rfl fun q _ => ?_)
  show Scalar.select (IntOp.cmpi .eq (k0_pay10 i (ix2 p q))
      (Scalar.select (IntOp.cmpi .slt (k0_pay9 i (ix2 p q)) 4096#32) (IntOp.addi (k0_pay9 i (ix2 p q)) 4096#32) (IntOp.subi (k0_pay9 i (ix2 p q)) 4096#32)))
    (e (ix2 p q)) (Ideal.ofBits .f32 0x00000000#32) = _
  rw [pay9_apply, pay10_apply, Ideal.ofBits_zero_f32, partner_word _ (gid_lt0 i p)]
  exact select_cmpi_eq _ _ _ _ _
    (ofNat32_inj (Nat.lt_trans (gid_lt1 i q) (by norm_num)) (Nat.lt_trans (Nat.mod_lt _ (by norm_num)) (by norm_num)))

/-- The stored denominator: the row sum less the self term. -/
theorem pay3_apply (a b : Vec Ideal S512x1 .f32) (y : S512x1.Idx) :
    (k0_pay3 (F := Ideal) a b : S512x1.Idx → EReal) y = (a : S512x1.Idx → EReal) y - (b : S512x1.Idx → EReal) y := by
  rfl

end Cert.KernelIdeal.Hand

end
-- ==== Proof.KI.Acc.lean ====
/-
  The accumulators in closed form, at the ideal instance. Point `t` is row block `t / 16`, column block `t % 16`; row `p` of
  the row block is global row `512 · (t / 16) + p`, column `q` of the column block global column `512 · (t % 16) + q`. After
  point `t` the row-sum accumulator holds, at row `p`, the sum of the exponentiated similarities of that global row with
  every global column below `512 · (t % 16 + 1)` — the column blocks seen so far in this row block —; the self-term
  accumulator the row's similarity with itself if its own column has been seen, else zero; the positive-pair
  accumulator the similarity with the row's partner if the partner's column has been seen, else zero. Sums of extended
  reals may be regrouped freely (addition is commutative and associative there), so no finiteness is used.
-/
import proofs.«134130_j44985487459095_1_alg».proof.Proof.KI.Blocks
import proofs.«134130_j44985487459095_1_alg».proof.Proof.KI.PayAcc
import proofs.«134130_j44985487459095_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-! ## Sums over the 8192 global columns, one block of 512 at a time -/

/-- Taking in column block `j` — the columns `g q'` at `512 · j + q'` — extends the sum over the columns below `512 · j`
    to the sum over the columns below `512 · (j + 1)`. -/
theorem sum_extend (f : Fin 8192 → EReal) (j : ℕ) (hj : j < 16) (g : Fin 512 → Fin 8192)
    (hg : ∀ q, (g q).val = 512 * j + q.val) :
    (∑ q : Fin 8192, if q.val < 512 * (j + 1) then f q else 0)
      = (∑ q : Fin 8192, if q.val < 512 * j then f q else 0) + ∑ q' : Fin 512, f (g q') := by
  have hinj : Function.Injective g := fun a b h => Fin.ext (by
    have h' := congrArg Fin.val h; rw [hg, hg] at h'; omega)
  have himg : (Finset.univ.image g) = Finset.univ.filter (fun q : Fin 8192 => 512 * j ≤ q.val ∧ q.val < 512 * (j + 1)) := by
    ext q
    simp only [Finset.mem_image, Finset.mem_univ, true_and, Finset.mem_filter]
    constructor
    · rintro ⟨a, rfl⟩; rw [hg]; have := a.isLt; omega
    · intro h
      refine ⟨⟨q.val - 512 * j, by omega⟩, Fin.ext ?_⟩
      rw [hg]; show 512 * j + (q.val - 512 * j) = q.val; omega
  have hblk : ∑ q' : Fin 512, f (g q') = ∑ q : Fin 8192, if 512 * j ≤ q.val ∧ q.val < 512 * (j + 1) then f q else 0 := by
    rw [← Finset.sum_filter, ← himg, Finset.sum_image (fun a _ b _ h => hinj h)]
  rw [hblk, ← Finset.sum_add_distrib]
  refine Finset.sum_congr rfl fun q _ => ?_
  by_cases h1 : q.val < 512 * j
  · rw [if_pos h1, if_pos (by omega), if_neg (by omega), add_zero]
  · by_cases h2 : q.val < 512 * (j + 1)
    · rw [if_neg h1, if_pos h2, if_pos ⟨by omega, h2⟩, zero_add]
    · rw [if_neg h1, if_neg h2, if_neg (by omega), add_zero]

/-- Among column block `j`'s 512 columns at most one is the global column `r`: the masked sum is `f r` if `r` lies in the
    block and zero otherwise. -/
theorem sum_pick (f : Fin 8192 → EReal) (j : ℕ) (g : Fin 512 → Fin 8192) (hg : ∀ q, (g q).val = 512 * j + q.val) (r : Fin 8192) :
    (∑ q' : Fin 512, if r.val = 512 * j + q'.val then f (g q') else 0)
      = if 512 * j ≤ r.val ∧ r.val < 512 * (j + 1) then f r else 0 := by
  by_cases h : 512 * j ≤ r.val ∧ r.val < 512 * (j + 1)
  · rw [if_pos h]
    have hq : r.val - 512 * j < 512 := by omega
    rw [Finset.sum_eq_single (⟨r.val - 512 * j, hq⟩ : Fin 512)]
    · rw [if_pos (by show r.val = 512 * j + (r.val - 512 * j); omega)]
      exact congrArg f (Fin.ext (by rw [hg]; show 512 * j + (r.val - 512 * j) = r.val; omega))
    · intro b _ hb
      refine if_neg fun hc => hb (Fin.ext ?_)
      show b.val = r.val - 512 * j; omega
    · intro h'; exact absurd (Finset.mem_univ _) h'
  · rw [if_neg h]
    refine Finset.sum_eq_zero fun q _ => if_neg fun hc => h ?_
    have := q.isLt; omega

/-- A term counted once the columns below `512 · j` are in, or else when block `j` comes in, is counted once the columns
    below `512 · (j + 1)` are in. -/
theorem ite_extend (a : EReal) (r j : ℕ) :
    (if r < 512 * j then a else 0) + (if 512 * j ≤ r ∧ r < 512 * (j + 1) then a else 0) = if r < 512 * (j + 1) then a else 0 := by
  by_cases h1 : r < 512 * j
  · rw [if_pos h1, if_neg (by omega), if_pos (by omega), add_zero]
  · by_cases h2 : r < 512 * (j + 1)
    · rw [if_neg h1, if_pos ⟨by omega, h2⟩, if_pos h2, zero_add]
    · rw [if_neg h1, if_neg (by omega), if_neg h2, add_zero]

/-! ## One point's update, by global coordinates -/

/-- Point `t`'s grid coordinates: row block `t / 16`, column block `t % 16`. -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The row sum after point `t`: what was there plus the row's similarities with the block's 512 global columns. -/
theorem step_row (c : Dev nD) (t : Fin cfg0.N) (s : Vec Ideal S512x1 .f32 × Vec Ideal S512x1 .f32 × Vec Ideal S512x1 .f32)
    (p : Fin 512) (z : Fin 1) :
    ((stepFrom m c t s).1 : S512x1.Idx → EReal) (ix2 p z)
      = (s.1 : S512x1.Idx → EReal) (ix2 p z) + ∑ q' : Fin 512, Cert.Spec.eK (Xof m c) (grow t p) (gcol t q') := by
  show (k0_pay8 (F := Ideal) (xrow m c t) (xcol m c t) s.1 : S512x1.Idx → EReal) (ix2 p z) = _
  rw [pay8_apply]
  exact congrArg _ (Finset.sum_congr rfl fun q _ => eblk_apply m c t p q)

/-- The self term after point `t`: what was there plus the row's similarity with itself if its own column is in the block. -/
theorem step_self (c : Dev nD) (t : Fin cfg0.N) (s : Vec Ideal S512x1 .f32 × Vec Ideal S512x1 .f32 × Vec Ideal S512x1 .f32)
    (p : Fin 512) (z : Fin 1) :
    ((stepFrom m c t s).2.1 : S512x1.Idx → EReal) (ix2 p z)
      = (s.2.1 : S512x1.Idx → EReal) (ix2 p z)
        + if 512 * (t.val % 16) ≤ (grow t p).val ∧ (grow t p).val < 512 * (t.val % 16 + 1)
          then Cert.Spec.eK (Xof m c) (grow t p) (grow t p) else 0 := by
  show (k0_pay1 (F := Ideal) (eblk m c t) (k0_pay9 (grid0.coords t)) (k0_pay10 (grid0.coords t)) s.2.1 : S512x1.Idx → EReal) (ix2 p z) = _
  rw [pay1_apply, (coords_val t).1, (coords_val t).2]
  refine congrArg _ (Eq.trans (Finset.sum_congr rfl fun q _ => ?_) (sum_pick (Cert.Spec.eK (Xof m c) (grow t p)) (t.val % 16) (gcol t) (fun _ => rfl) (grow t p)))
  rw [eblk_apply]
  rfl

/-- The positive-pair term after point `t`: what was there plus the row's similarity with its partner if the partner's column is in the block. -/
theorem step_pos (c : Dev nD) (t : Fin cfg0.N) (s : Vec Ideal S512x1 .f32 × Vec Ideal S512x1 .f32 × Vec Ideal S512x1 .f32)
    (p : Fin 512) (z : Fin 1) :
    ((stepFrom m c t s).2.2 : S512x1.Idx → EReal) (ix2 p z)
      = (s.2.2 : S512x1.Idx → EReal) (ix2 p z)
        + if 512 * (t.val % 16) ≤ (Cert.Spec.partner (grow t p)).val ∧ (Cert.Spec.partner (grow t p)).val < 512 * (t.val % 16 + 1)
          then Cert.Spec.eK (Xof m c) (grow t p) (Cert.Spec.partner (grow t p)) else 0 := by
  show (k0_pay2 (F := Ideal) (eblk m c t) (k0_pay9 (grid0.coords t)) (k0_pay10 (grid0.coords t)) s.2.2 : S512x1.Idx → EReal) (ix2 p z) = _
  rw [pay2_apply, (coords_val t).1, (coords_val t).2]
  refine congrArg _ (Eq.trans (Finset.sum_congr rfl fun q _ => ?_) (sum_pick (Cert.Spec.eK (Xof m c) (grow t p)) (t.val % 16) (gcol t) (fun _ => rfl) (Cert.Spec.partner (grow t p))))
  rw [eblk_apply]
  exact if_congr eq_comm rfl rfl

/-! ## The accumulators in closed form -/

/-- The point before `n` in the same row block has the same global rows. -/
theorem grow_pred (n : ℕ) (hn : n < cfg0.N) (hn' : n - 1 < cfg0.N) (h0 : ¬n % 16 = 0) (p : Fin 512) :
    grow ⟨n - 1, hn'⟩ p = grow ⟨n, hn⟩ p :=
  Fin.ext (by show 512 * ((n - 1) / 16) + p.val = 512 * (n / 16) + p.val; omega)

/-- The row sum after position `n`, by induction along the row block: from zero at its first column block, each point takes
    in one more block of 512 columns. -/
theorem acc_row_nat (c : Dev nD) (p : Fin 512) (z : Fin 1) (n : ℕ) : ∀ hn : n < cfg0.N,
    ((accP m c n hn).1 : S512x1.Idx → EReal) (ix2 p z)
      = ∑ q : Fin 8192, if q.val < 512 * (n % 16 + 1) then Cert.Spec.eK (Xof m c) (grow ⟨n, hn⟩ p) q else 0 := by
  induction n using Nat.strong_induction_on with
  | _ n ih =>
    intro hn
    refine Eq.trans ?_ (sum_extend (Cert.Spec.eK (Xof m c) (grow ⟨n, hn⟩ p)) (n % 16) (Nat.mod_lt _ (by norm_num)) (gcol ⟨n, hn⟩) (fun _ => rfl)).symm
    by_cases h0 : n % 16 = 0
    · have hr : accP m c n hn = stepFrom m c ⟨n, hn⟩ zeros3 := accP_reset m c ⟨n, hn⟩ h0
      rw [hr, step_row]
      congr 1
      rw [Finset.sum_eq_zero fun q _ => if_neg (by omega)]
      exact pay4_apply (ix2 p z)
    · have hn' : n - 1 < cfg0.N := Nat.lt_of_le_of_lt (Nat.sub_le _ _) hn
      have hs : accP m c n hn = stepFrom m c ⟨n, hn⟩ (accP m c (n - 1) hn') := accP_step m c ⟨n, hn⟩ h0
      rw [hs, step_row]
      congr 1
      rw [ih (n - 1) (by omega) hn', show (n - 1) % 16 + 1 = n % 16 by omega, grow_pred n hn hn' h0]

/-- The self term after position `n`, likewise: the row's own column is met in exactly one column block. -/
theorem acc_self_nat (c : Dev nD) (p : Fin 512) (z : Fin 1) (n : ℕ) : ∀ hn : n < cfg0.N,
    ((accP m c n hn).2.1 : S512x1.Idx → EReal) (ix2 p z)
      = if (grow ⟨n, hn⟩ p).val < 512 * (n % 16 + 1) then Cert.Spec.eK (Xof m c) (grow ⟨n, hn⟩ p) (grow ⟨n, hn⟩ p) else 0 := by
  induction n using Nat.strong_induction_on with
  | _ n ih =>
    intro hn
    refine Eq.trans ?_ (ite_extend _ _ _)
    by_cases h0 : n % 16 = 0
    · have hr : accP m c n hn = stepFrom m c ⟨n, hn⟩ zeros3 := accP_reset m c ⟨n, hn⟩ h0
      rw [hr, step_self]
      congr 1
      rw [if_neg (by omega)]
      exact pay5_apply (ix2 p z)
    · have hn' : n - 1 < cfg0.N := Nat.lt_of_le_of_lt (Nat.sub_le _ _) hn
      have hs : accP m c n hn = stepFrom m c ⟨n, hn⟩ (accP m c (n - 1) hn') := accP_step m c ⟨n, hn⟩ h0
      rw [hs, step_self]
      congr 1
      rw [ih (n - 1) (by omega) hn', show (n - 1) % 16 + 1 = n % 16 by omega, grow_pred n hn hn' h0]

/-- The positive-pair term after position `n`, likewise: the partner's column is met in exactly one column block. -/
theorem acc_pos_nat (c : Dev nD) (p : Fin 512) (z : Fin 1) (n : ℕ) : ∀ hn : n < cfg0.N,
    ((accP m c n hn).2.2 : S512x1.Idx → EReal) (ix2 p z)
      = if (Cert.Spec.partner (grow ⟨n, hn⟩ p)).val < 512 * (n % 16 + 1)
        then Cert.Spec.eK (Xof m c) (grow ⟨n, hn⟩ p) (Cert.Spec.partner (grow ⟨n, hn⟩ p)) else 0 := by
  induction n using Nat.strong_induction_on with
  | _ n ih =>
    intro hn
    refine Eq.trans ?_ (ite_extend _ _ _)
    by_cases h0 : n % 16 = 0
    · have hr : accP m c n hn = stepFrom m c ⟨n, hn⟩ zeros3 := accP_reset m c ⟨n, hn⟩ h0
      rw [hr, step_pos]
      congr 1
      rw [if_neg (by omega)]
      exact pay6_apply (ix2 p z)
    · have hn' : n - 1 < cfg0.N := Nat.lt_of_le_of_lt (Nat.sub_le _ _) hn
      have hs : accP m c n hn = stepFrom m c ⟨n, hn⟩ (accP m c (n - 1) hn') := accP_step m c ⟨n, hn⟩ h0
      rw [hs, step_pos]
      congr 1
      rw [ih (n - 1) (by omega) hn', show (n - 1) % 16 + 1 = n % 16 by omega, grow_pred n hn hn' h0]

theorem acc_row (c : Dev nD) (t : Fin cfg0.N) (p : Fin 512) (z : Fin 1) :
    ((accP m c t.val t.isLt).1 : S512x1.Idx → EReal) (ix2 p z)
      = ∑ q : Fin 8192, if q.val < 512 * (t.val % 16 + 1) then Cert.Spec.eK (Xof m c) (grow t p) q else 0 := by
  exact acc_row_nat m c p z t.val t.isLt

theorem acc_self (c : Dev nD) (t : Fin cfg0.N) (p : Fin 512) (z : Fin 1) :
    ((accP m c t.val t.isLt).2.1 : S512x1.Idx → EReal) (ix2 p z)
      = if (grow t p).val < 512 * (t.val % 16 + 1) then Cert.Spec.eK (Xof m c) (grow t p) (grow t p) else 0 := by
  exact acc_self_nat m c p z t.val t.isLt

theorem acc_pos (c : Dev nD) (t : Fin cfg0.N) (p : Fin 512) (z : Fin 1) :
    ((accP m c t.val t.isLt).2.2 : S512x1.Idx → EReal) (ix2 p z)
      = if (Cert.Spec.partner (grow t p)).val < 512 * (t.val % 16 + 1) then Cert.Spec.eK (Xof m c) (grow t p) (Cert.Spec.partner (grow t p)) else 0 := by
  exact acc_pos_nat m c p z t.val t.isLt

/-- At a row block's last column block every column has been seen: the stored blocks are the numerators and the
    denominators of the block's rows. -/
theorem posBlk_apply (c : Dev nD) (t : Fin cfg0.N) (h : t.val % 16 = 15) (p : Fin 512) (z : Fin 1) :
    (posBlk m c t : S512x1.Idx → EReal) (ix2 p z) = Cert.Spec.posOf (Cert.Spec.eK (Xof m c)) (grow t p) := by
  show ((accP m c t.val t.isLt).2.2 : S512x1.Idx → EReal) (ix2 p z) = _
  rw [acc_pos, if_pos (by have := (Cert.Spec.partner (grow t p)).isLt; omega)]
  rfl
theorem denBlk_apply (c : Dev nD) (t : Fin cfg0.N) (h : t.val % 16 = 15) (p : Fin 512) (z : Fin 1) :
    (denBlk m c t : S512x1.Idx → EReal) (ix2 p z) = Cert.Spec.denOf (Cert.Spec.eK (Xof m c)) (grow t p) := by
  show (k0_pay3 (F := Ideal) (accP m c t.val t.isLt).1 (accP m c t.val t.isLt).2.1 : S512x1.Idx → EReal) (ix2 p z) = _
  rw [pay3_apply, acc_row, acc_self, if_pos (by have := (grow t p).isLt; omega)]
  refine congrArg (· - _) (Finset.sum_congr rfl fun q _ => if_pos ?_)
  have := q.isLt; omega

end Cert.KernelIdeal.Hand

end
-- ==== Proof.KI.Arr.lean ====
/-
  The two result arrays after the region, at the ideal instance: row `r` of the numerators' array is row `r`'s
  exponentiated similarity with its partner, row `r` of the denominators' array the sum of its exponentiated similarities
  with every row less the one with itself. Row block `i`'s rows are written back once, at the row block's last column block
  (point `16 · i + 15`), and the sixteen written blocks cover the array.

  Each array is stated as ONE function of its index (row `r`, the single column, ↦ the row's numerator or denominator).
  A block's element sits in the array, on each axis, at the block's index times the block's extent plus its coordinate
  inside the block; both result windows' block index is (row block, 0), so row `p` of the block written at point `t` is the
  array's row `512 · (t / 16) + p`, and what point `t` writes back is its block of that one function. Row `r` of the array
  lies in the block written at point `16 · (r / 512) + 15`, so the written blocks cover the array and it ends holding the
  function everywhere.
-/
import proofs.«134130_j44985487459095_1_alg».proof.Proof.KI.After
import proofs.«134130_j44985487459095_1_alg».proof.Proof.KI.Pieces
import proofs.«134130_j44985487459095_1_alg».proof.Proof.KI.Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-! ## The arrays as functions of the index -/

/-- The row of an index of a result array. -/
abbrev rowOf (i : S8192x1.Idx) : Fin 8192 := ⟨(i 0).val, (i 0).isLt⟩

/-- The numerators' array: row `r` holds row `r`'s exponentiated similarity with its partner; -/
def posG (c : Dev nD) : S8192x1.Idx → EReal := fun i => Cert.Spec.posOf (Cert.Spec.eK (Xof m c)) (rowOf i)
/-- the denominators': the sum of row `r`'s exponentiated similarities less the one with itself. -/
def denG (c : Dev nD) : S8192x1.Idx → EReal := fun i => Cert.Spec.denOf (Cert.Spec.eK (Xof m c)) (rowOf i)

/-! ## Where a block sits -/

/-- Both result windows' block index at point `t` is (row block `t / 16`, 0), decided over the grid. -/
theorem index_pos : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem index_den : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- Row `p` of the block written at point `t` is the array's row `512 · (t / 16) + p`. -/
theorem row_emb_pos (t : Fin cfg0.N) (p : Fin 512) (z : Fin 1) :
    rowOf (((cfg0.win 2).blk t).view.emb (ix2 p z)) = grow t p := by
  apply Fin.ext
  show win0_2.index t (0 : Fin 2) * 512 + 1 * p.val = 512 * (t.val / 16) + p.val
  rw [(index_pos t).1]; omega
theorem row_emb_den (t : Fin cfg0.N) (p : Fin 512) (z : Fin 1) :
    rowOf (((cfg0.win 3).blk t).view.emb (ix2 p z)) = grow t p := by
  apply Fin.ext
  show win0_3.index t (0 : Fin 2) * 512 + 1 * p.val = 512 * (t.val / 16) + p.val
  rw [(index_den t).1]; omega

/-! ## What a point writes back -/

/-- At a row block's last column block the numerators' window writes back its block of `posG`, -/
theorem pos_flushed (c : Dev nD) (t : Fin cfg0.N) (h : t.val % 16 = 15) :
    (dats m 0 c).flushed 2 t = ((cfg0.win 2).blk t).view.read (Elt Ideal) (posG m c) := by
  show (cfg0.win 2).cut (grid0.coords t) ((dats m 0 c).after 2 t) = _
  rw [after0_2, outAt_pos m c t h]
  refine funext fun (y : S512x1.Idx) => ?_
  obtain ⟨p, z, rfl⟩ : ∃ (p : Fin 512) (z : Fin 1), y = ix2 p z := ⟨y 0, y 1, eq_ix2 y⟩
  show (posBlk m c t : S512x1.Idx → EReal) (ix2 p z) = posG m c (((cfg0.win 2).blk t).view.emb (ix2 p z))
  rw [posBlk_apply m c t h p z]
  unfold posG
  rw [row_emb_pos t p z]
/-- and the denominators' window its block of `denG`. -/
theorem den_flushed (c : Dev nD) (t : Fin cfg0.N) (h : t.val % 16 = 15) :
    (dats m 0 c).flushed 3 t = ((cfg0.win 3).blk t).view.read (Elt Ideal) (denG m c) := by
  show (cfg0.win 3).cut (grid0.coords t) ((dats m 0 c).after 3 t) = _
  rw [after0_3, outAt_den m c t h]
  refine funext fun (y : S512x1.Idx) => ?_
  obtain ⟨p, z, rfl⟩ : ∃ (p : Fin 512) (z : Fin 1), y = ix2 p z := ⟨y 0, y 1, eq_ix2 y⟩
  show (denBlk m c t : S512x1.Idx → EReal) (ix2 p z) = denG m c (((cfg0.win 3).blk t).view.emb (ix2 p z))
  rw [denBlk_apply m c t h p z]
  unfold denG
  rw [row_emb_den t p z]

/-! ## The written blocks cover the arrays -/

/-- An index of the array is in point `t`'s block iff each coordinate is in the block's range on its axis. -/
theorem mem_blk_pos (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_0).slice (win0_2.rect t)).set ↔ _
  rw [View.set_slice_whole, Rect.mem_set_unit]
  exact Iff.rfl
theorem mem_blk_den (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_1).slice (win0_3.rect t)).set ↔ _
  rw [View.set_slice_whole, Rect.mem_set_unit]
  exact Iff.rfl

/-- The last point of row `r`'s row block. -/
def lastOf (i : S8192x1.Idx) : Fin cfg0.N :=
  ⟨16 * ((i 0).val / 512) + 15, by have h : cfg0.N = 256 := N_0; have hi : (i 0).val < 8192 := (i 0).isLt; omega⟩

/-- Row `r` lies in the block written at point `16 · (r / 512) + 15`. -/
theorem cover_pos (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hv : (lastOf i).val = 16 * ((i 0).val / 512) + 15 := rfl
  refine ⟨lastOf i, (flush0_2 (lastOf i)).mpr (by rw [hv]; omega), ?_⟩
  rw [mem_blk_pos]
  obtain ⟨e0, e1⟩ := index_pos (lastOf i)
  rw [hv] at e0
  intro a
  match a with
  | ⟨0, _⟩ => show win0_2.index (lastOf i) (0 : Fin 2) * 512 ≤ (i 0).val ∧ (i 0).val < win0_2.index (lastOf i) (0 : Fin 2) * 512 + 512; omega
  | ⟨1, _⟩ => show win0_2.index (lastOf i) (1 : Fin 2) * 1 ≤ (i 1).val ∧ (i 1).val < win0_2.index (lastOf i) (1 : Fin 2) * 1 + 1; omega
theorem cover_den (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hv : (lastOf i).val = 16 * ((i 0).val / 512) + 15 := rfl
  refine ⟨lastOf i, (flush0_3 (lastOf i)).mpr (by rw [hv]; omega), ?_⟩
  rw [mem_blk_den]
  obtain ⟨e0, e1⟩ := index_den (lastOf i)
  rw [hv] at e0
  intro a
  match a with
  | ⟨0, _⟩ => show win0_3.index (lastOf i) (0 : Fin 2) * 512 ≤ (i 0).val ∧ (i 0).val < win0_3.index (lastOf i) (0 : Fin 2) * 512 + 512; omega
  | ⟨1, _⟩ => show win0_3.index (lastOf i) (1 : Fin 2) * 1 ≤ (i 1).val ∧ (i 1).val < win0_3.index (lastOf i) (1 : Fin 2) * 1 + 1; omega

/-! ## The arrays after the last write-back -/

theorem posArr_eq (c : Dev nD) : posArr m c = posG m c :=
  (dats m 0 c).arrAt_eq_of_cover 2 (posG m c) (fun t hf => pos_flushed m c t ((flush0_2 t).mp hf)) cover_pos
theorem denArr_eq (c : Dev nD) : denArr m c = denG m c :=
  (dats m 0 c).arrAt_eq_of_cover 3 (denG m c) (fun t hf => den_flushed m c t ((flush0_3 t).mp hf)) cover_den

theorem posArr_apply (c : Dev nD) (r : Fin 8192) (z : Fin 1) :
    (posArr m c : S8192x1.Idx → EReal) (ix2 r z) = Cert.Spec.posOf (Cert.Spec.eK (Xof m c)) r := by
  rw [posArr_eq m c]; rfl

theorem denArr_apply (c : Dev nD) (r : Fin 8192) (z : Fin 1) :
    (denArr m c : S8192x1.Idx → EReal) (ix2 r z) = Cert.Spec.denOf (Cert.Spec.eK (Xof m c)) r := by
  rw [denArr_eq m c]; rfl

end Cert.KernelIdeal.Hand

end
-- ==== Proof.KI.Tail.lean ====
/-
  The host operations after the region, at the ideal instance: from result arrays whose rows are `P r` and `D r`, the
  program's result is the mean over the rows of `-log (P r / D r)` — two reshapes of a column to a vector, the quotient,
  its logarithm, the negation, the sum over the rows onto zero, the division by the row count.
-/
import proofs.«134130_j44985487459095_1_alg».proof.Proof.KI.After
import proofs.«134130_j44985487459095_1_alg».proof.Proof.Spec
import Idealize.ShloMosaic.Lib.StableHlo.Run
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- A rank-1 index set is its one coordinate's range, -/
private def idxEquiv1 {n : Nat} : (⟨1, ![n]⟩ : Shape).Idx ≃ Fin n where
  toFun i := i 0
  invFun r := ix1 r
  left_inv i := (eq_ix1 i).symm
  right_inv _ := rfl

/-- so a sum over it is the sum over the coordinate. -/
private theorem sum_idx1 {M : Type*} [AddCommMonoid M] {n : Nat} (f : (⟨1, ![n]⟩ : Shape).Idx → M) :
    ∑ i, f i = ∑ r : Fin n, f (ix1 r) :=
  (Equiv.sum_comp (idxEquiv1 (n := n)).symm f).symm

/-- The result is the sum over the rows of `-log (P r / D r)`, started from zero, over the row count. A column `[8192, 1]`
    reshaped to a vector reads, at row `r`, the column at `(r, 0)`: the two row-major positions are both `r`. -/
theorem tail_value (c : Dev nD) (P D : Fin 8192 → EReal)
    (hP : ∀ (r : Fin 8192) (z : Fin 1), (posArr m c : S8192x1.Idx → EReal) (ix2 r z) = P r)
    (hD : ∀ (r : Fin 8192) (z : Fin 1), (denArr m c : S8192x1.Idx → EReal) (ix2 r z) = D r) :
    (VT m c (Proc.devRef .tc main_v7) : S_.Idx → EReal) = fun _ => Cert.Spec.lossOf P D := by
  unfold VT
  show StableHlo.after hostOps1 _ (Proc.devRef .tc main_v7) = _
  after_results
  rw [V1_pos, V1_den]
  funext j
  -- the reshaped columns at row r
  have hp : ∀ r : Fin 8192, shapeCast S8192 (posArr m c : S8192x1.Idx → EReal) shapeCasts_S8192x1_S8192 (ix1 r) = P r :=
    fun r => (shapeCast_apply _ _ (ix1 r) (ix2 r (0 : Fin 1)) (by
      rw [Shape.rowMajor_val_two, Shape.rowMajor_val_one]
      show r.val * 1 + 0 = r.val
      omega)).trans (hP r 0)
  have hd : ∀ r : Fin 8192, shapeCast S8192 (denArr m c : S8192x1.Idx → EReal) shapeCasts_S8192x1_S8192 (ix1 r) = D r :=
    fun r => (shapeCast_apply _ _ (ix1 r) (ix2 r (0 : Fin 1)) (by
      rw [Shape.rowMajor_val_two, Shape.rowMajor_val_one]
      show r.val * 1 + 0 = r.val
      omega)).trans (hD r 0)
  -- the quotient of the total sum by the row count, every operation exact
  show Ideal.div (Ideal.hostReduceAdd reducesTo_S8192_S_d0
      (fun i : S8192.Idx => -(Ideal.log (Ideal.div
        (shapeCast S8192 (posArr m c : S8192x1.Idx → EReal) shapeCasts_S8192x1_S8192 i)
        (shapeCast S8192 (denArr m c : S8192x1.Idx → EReal) shapeCasts_S8192x1_S8192 i))))
      (Ideal.ofBits .f32 0x00000000#32) j) (Ideal.ofBits .f32 0x46000000#32) = Cert.Spec.lossOf P D
  -- a sum into the scalar shape runs over every row; it starts from the zero word's value, 0
  rw [Ideal.hostReduceAdd_total _ (fun b => b.elim0), Ideal.ofBits_zero_f32, zero_add, sum_idx1]
  unfold Cert.Spec.lossOf Cert.Spec.count
  congr 1
  refine Finset.sum_congr rfl fun r _ => ?_
  show -(Ideal.log (Ideal.div _ _)) = _
  rw [hp r, hd r]

end Cert.KernelIdeal.Hand

end
-- ==== Proof.KI.Value.lean ====
/-
  The kernel program's result at the ideal instance: the loss, the kernel's way, of the input read as rows of features.
  The region leaves the numerators' and the denominators' arrays, and the host operations after it take the mean of
  `-log (numerator / denominator)`.
-/
import proofs.«134130_j44985487459095_1_alg».proof.Proof.KI.Arr
import proofs.«134130_j44985487459095_1_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

theorem kernel_value (c : Dev nD) :
    (VT m c (Proc.devRef .tc main_v7) : S_.Idx → EReal) = fun _ => Cert.Spec.lossK (Xof m c) :=
  tail_value m c _ _ (posArr_apply m c) (denArr_apply m c)

end Cert.KernelIdeal.Hand

end
-- ==== Proof.R.Term.lean ====
/-
  The reference's result as one pure term of its argument, at any float instance: the composition, in program order, of
  the functions its operations apply, the outlined functions' bodies in place of their calls.

  It has three stages. `expSims x` is the table of exponentiated scaled similarities: each row of `x` divided by the
  square root of its sum of squares, the table of inner products of the normalised rows (the normalised matrix times its
  transpose), each entry divided by the temperature `1/2` and exponentiated. `posIdx` and `selfIdx` are the two tables of
  index pairs the program reads that table at, one pair per row `r`: `(r, (r + 4096) mod 8192)`, the row's positive
  partner, and `(r, r)`, the row itself — each component a signed 32-bit integer, the remainder taken the truncating
  way and then moved to the divisor's sign, every index moved up by 8192 where it is negative (nowhere, on these values);
  neither depends on `x`. `refVal x` reads the table at the two index tables (the numerators and the self terms), sums
  each of its rows and subtracts the self term (the denominators), and returns the mean over the rows of the negated
  logarithm of numerator over denominator: the sum divided by `8192`.

  Each `let` is one operation and is named after the value it computes in the program (`n_`: inside the norm function,
  `r_`: inside the remainder function).
-/
import proofs.«134130_j44985487459095_1_alg».proof.ReferenceIdeal

noncomputable section

namespace Cert.ReferenceIdeal.RefValue

open Idealize.ShloMosaic
open Cert.ReferenceIdeal Facts₀ Facts

variable {F : FTy → Type} [FloatOps F]
variable [Cert.ReferenceIdeal.Facts]

/-- The table of exponentiated scaled similarities: entry `(r, c)` is `exp (⟨x̂ r, x̂ c⟩ / (1/2))`, where `x̂ r` is row `r`
    over the square root of its sum of squares. -/
def expSims (x : FVec F S8192x256 .f32) : FVec F S8192x8192 .f32 :=
  -- the rows' norms: the squares, summed along each row from zero, as a column, its square root
  let n_v0 : FVec F S8192x256 .f32 := mulf x x
  let n_cst : FVec F S_ .f32 := constant S_ .f32 0x00000000#32
  let n_v1 : FVec F S8192 .f32 := Host.reduceAdd n_v0 n_cst reducesTo_S8192x256_S8192_d1 h_S_
  let n_v2 : FVec F S8192x1 .f32 := broadcastInDim S8192x1 ![0] bcast_S8192_S8192x1_0 n_v1
  let v0 : FVec F S8192x1 .f32 := Host.sqrt n_v2
  -- every entry over its row's norm
  let v1 : FVec F S8192x256 .f32 := broadcastInDim S8192x256 ![0, 1] bcast_S8192x1_S8192x256_0_1 v0
  let v2 : FVec F S8192x256 .f32 := Host.divf x v1
  -- the inner products of the normalised rows: the normalised matrix times its transpose
  let v3 : FVec F S256x8192 .f32 := transpose S256x8192 [1, 0] v2 transposes_S8192x256_S256x8192_1_0
  let v4 : FVec F S8192x8192 .f32 := Host.dotGeneral dot_S8192x256_S256x8192_S8192x8192_1_0_0_1_n_n none v2 v3
  -- over the temperature 1/2, exponentiated
  let cst : FVec F S_ .f32 := constant S_ .f32 0x3F000000#32
  let v5 : FVec F S8192x8192 .f32 := broadcastInDim S8192x8192 ![] bcast_S_S8192x8192 cst
  let v6 : FVec F S8192x8192 .f32 := Host.divf v4 v5
  Host.exp v6

/-- The index pairs of the positive partners: row `r` of the table is `(r, (r + 4096) mod 8192)`. -/
def posIdx : IVec S8192x2 32 :=
  -- the row numbers, and the row numbers plus 4096
  let v8 : IVec S8192 32 := iotaInDim S8192 32 0
  let c : IVec S_ 32 := constantI S_ 32 4096#32
  let v9 : IVec S8192 32 := broadcastInDim S8192 ![] bcast_S_S8192 c
  let v10 : IVec S8192 32 := addi v8 v9
  let c_0 : IVec S_ 32 := constantI S_ 32 8192#32
  -- the remainder by 8192: the divisor, replaced by 1 if it is 0
  let r_v0 : IVec S_ 32 := id c_0
  let r_c : IVec S_ 32 := constantI S_ 32 0#32
  let r_v1 : IVec S_ 1 := cmpi .eq r_v0 r_c
  let r_c_0 : IVec S_ 32 := constantI S_ 32 1#32
  let r_v2 : IVec S_ 32 := select r_v1 r_c_0 r_v0
  -- the truncating remainder
  let r_v3 : IVec S8192 32 := broadcastInDim S8192 ![] bcast_S_S8192 r_v2
  let r_v4 : IVec S8192 32 := Host.remsi v10 r_v3
  -- where it is not zero and its sign is not the divisor's, the divisor is added
  let r_c_1 : IVec S_ 32 := constantI S_ 32 0#32
  let r_v5 : IVec S8192 32 := broadcastInDim S8192 ![] bcast_S_S8192 r_c_1
  let r_v6 : IVec S8192 1 := cmpi .ne r_v4 r_v5
  let r_c_2 : IVec S_ 32 := constantI S_ 32 0#32
  let r_v7 : IVec S8192 32 := broadcastInDim S8192 ![] bcast_S_S8192 r_c_2
  let r_v8 : IVec S8192 1 := cmpi .slt r_v4 r_v7
  let r_c_3 : IVec S_ 32 := constantI S_ 32 0#32
  let r_v9 : IVec S_ 1 := cmpi .slt r_v2 r_c_3
  let r_v10 : IVec S8192 1 := broadcastInDim S8192 ![] bcast_S_S8192 r_v9
  let r_v11 : IVec S8192 1 := cmpi .ne r_v8 r_v10
  let r_v12 : IVec S8192 1 := andi r_v11 r_v6
  let r_v13 : IVec S8192 32 := broadcastInDim S8192 ![] bcast_S_S8192 r_v2
  let r_v14 : IVec S8192 32 := addi r_v4 r_v13
  let v11 : IVec S8192 32 := select r_v12 r_v14 r_v4
  -- a negative row number is moved up by 8192
  let c_1 : IVec S_ 32 := constantI S_ 32 0#32
  let v12 : IVec S8192 32 := broadcastInDim S8192 ![] bcast_S_S8192 c_1
  let v13 : IVec S8192 1 := cmpi .slt v8 v12
  let c_2 : IVec S_ 32 := constantI S_ 32 8192#32
  let v14 : IVec S8192 32 := broadcastInDim S8192 ![] bcast_S_S8192 c_2
  let v15 : IVec S8192 32 := addi v8 v14
  let v16 : IVec S8192 32 := select v13 v15 v8
  -- and so is a negative partner
  let c_3 : IVec S_ 32 := constantI S_ 32 0#32
  let v17 : IVec S8192 32 := broadcastInDim S8192 ![] bcast_S_S8192 c_3
  let v18 : IVec S8192 1 := cmpi .slt v11 v17
  let c_4 : IVec S_ 32 := constantI S_ 32 8192#32
  let v19 : IVec S8192 32 := broadcastInDim S8192 ![] bcast_S_S8192 c_4
  let v20 : IVec S8192 32 := addi v11 v19
  let v21 : IVec S8192 32 := select v18 v20 v11
  -- the two columns side by side
  let v22 : IVec S8192x1 32 := broadcastInDim S8192x1 ![0] bcast_S8192_S8192x1_0 v16
  let v23 : IVec S8192x1 32 := broadcastInDim S8192x1 ![0] bcast_S8192_S8192x1_0 v21
  concatenate S8192x2 1 [⟨S8192x1, v22⟩, ⟨S8192x1, v23⟩] concatenates_S8192x1_S8192x1_S8192x2_d1

/-- The index pairs of the diagonal: row `r` of the table is `(r, r)`. -/
def selfIdx : IVec S8192x2 32 :=
  let v8 : IVec S8192 32 := iotaInDim S8192 32 0
  -- the row numbers, a negative one moved up by 8192
  let c_5 : IVec S_ 32 := constantI S_ 32 0#32
  let v26 : IVec S8192 32 := broadcastInDim S8192 ![] bcast_S_S8192 c_5
  let v27 : IVec S8192 1 := cmpi .slt v8 v26
  let c_6 : IVec S_ 32 := constantI S_ 32 8192#32
  let v28 : IVec S8192 32 := broadcastInDim S8192 ![] bcast_S_S8192 c_6
  let v29 : IVec S8192 32 := addi v8 v28
  let v30 : IVec S8192 32 := select v27 v29 v8
  -- the same again for the column
  let c_7 : IVec S_ 32 := constantI S_ 32 0#32
  let v31 : IVec S8192 32 := broadcastInDim S8192 ![] bcast_S_S8192 c_7
  let v32 : IVec S8192 1 := cmpi .slt v8 v31
  let c_8 : IVec S_ 32 := constantI S_ 32 8192#32
  let v33 : IVec S8192 32 := broadcastInDim S8192 ![] bcast_S_S8192 c_8
  let v34 : IVec S8192 32 := addi v8 v33
  let v35 : IVec S8192 32 := select v32 v34 v8
  -- the two columns side by side
  let v36 : IVec S8192x1 32 := broadcastInDim S8192x1 ![0] bcast_S8192_S8192x1_0 v30
  let v37 : IVec S8192x1 32 := broadcastInDim S8192x1 ![0] bcast_S8192_S8192x1_0 v35
  concatenate S8192x2 1 [⟨S8192x1, v36⟩, ⟨S8192x1, v37⟩] concatenates_S8192x1_S8192x1_S8192x2_d1

/-- The reference's result: the mean over the rows `r` of `-log (e r (partner r) / ((∑ c, e r c) - e r r))`, for `e` the
    table `expSims x`. -/
def refVal (x : FVec F S8192x256 .f32) : FVec F S_ .f32 :=
  let v7 : FVec F S8192x8192 .f32 := expSims x
  let v24 : IVec S8192x2 32 := posIdx
  -- the numerators: the table at the positive partners
  let v25 : FVec F S8192 .f32 := Host.gather gather_S8192x8192_S8192x2_S8192_n_01_n_n_01_1_11 v7 v24
  let v38 : IVec S8192x2 32 := selfIdx
  -- the self terms: the table on its diagonal
  let v39 : FVec F S8192 .f32 := Host.gather gather_S8192x8192_S8192x2_S8192_n_01_n_n_01_1_11 v7 v38
  -- the denominators: each row's sum, from zero, less the self term
  let cst_9 : FVec F S_ .f32 := constant S_ .f32 0x00000000#32
  let v40 : FVec F S8192 .f32 := Host.reduceAdd v7 cst_9 reducesTo_S8192x8192_S8192_d1 h_S_
  let v41 : FVec F S8192 .f32 := subf v40 v39
  -- minus the logarithm of numerator over denominator
  let v42 : FVec F S8192 .f32 := Host.divf v25 v41
  let v43 : FVec F S8192 .f32 := Host.log v42
  let v44 : FVec F S8192 .f32 := Host.negf v43
  -- summed over the rows from zero, over the row count 8192
  let cst_10 : FVec F S_ .f32 := constant S_ .f32 0x00000000#32
  let v45 : FVec F S_ .f32 := Host.reduceAdd v44 cst_10 reducesTo_S8192_S_d0 h_S_
  let cst_11 : FVec F S_ .f32 := constant S_ .f32 0x46000000#32
  Host.divf v45 cst_11

end Cert.ReferenceIdeal.RefValue

end
-- ==== Proof.R.Run.lean ====
/-
  The reference's run: its @main is a straight line of host operations, the three outlined functions' bodies standing in
  place of their calls (the norm's five operations over the first call's buffers, the remainder's twenty-one — its one
  call of the selection function among them — over the second's), eighty-five in all. Every weakly fair execution ends
  with each buffer at the fold of the operations' results over the launch contents; read at the result buffer that fold
  is the composed term `refVal` of the argument, and at the argument's buffer, which no operation writes, it is the
  argument unchanged.
-/
import proofs.«134130_j44985487459095_1_alg».proof.Proof.R.Term
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Facts₀ Facts

variable {F : FTy → Type} [FloatOps F]
variable [Cert.ReferenceIdeal.Facts]

/-- @main's eighty-five operations, in order, the calls unfolded: the norm (the squares, the zero, the row sums, their
    column, its square root), the division by it, the transpose and the product, the division by the temperature and
    the exponential; the row numbers, the partner `(r + 4096) mod 8192` (the remainder: the divisor guarded against
    zero, the truncating remainder, its move to the divisor's sign), the negative-index guards, the two columns
    side by side and the first read of the table; the same for the diagonal; then the row sums, the subtraction, the
    quotient, its logarithm negated, the sum over the rows and the division by the row count. -/
abbrev ops : List (HloOp τ sig (Elt F)) :=
  [ StableHlo.TRef.binary (TRef.of main_arg0 : TRef sig ⟨S8192x256, .f32⟩) (TRef.of main_arg0 : TRef sig ⟨S8192x256, .f32⟩) main_call0.v0 mulf,
    StableHlo.TRef.nullary main_call0.cst (constant S_ .f32 0x00000000#32),
    StableHlo.TRef.binary main_call0.v0 main_call0.cst main_call0.v1 (fun x v => Host.reduceAdd x v reducesTo_S8192x256_S8192_d1 h_S_),
    StableHlo.TRef.unary main_call0.v1 main_call0.v2 (broadcastInDim S8192x1 ![0] bcast_S8192_S8192x1_0),
    StableHlo.TRef.unary main_call0.v2 main_call0.v3 Host.sqrt,
    StableHlo.unary main_v0 main_v1 (broadcastInDim S8192x256 ![0, 1] bcast_S8192x1_S8192x256_0_1 : (⟨S8192x1, .f32⟩ : BufTy).Contents (Elt F) → (⟨S8192x256, .f32⟩ : BufTy).Contents (Elt F)),
    StableHlo.binary main_arg0 main_v1 main_v2 (Host.divf : (⟨S8192x256, .f32⟩ : BufTy).Contents (Elt F) → (⟨S8192x256, .f32⟩ : BufTy).Contents (Elt F) → (⟨S8192x256, .f32⟩ : BufTy).Contents (Elt F)),
    StableHlo.unary main_v2 main_v3 ((transpose S256x8192 [1, 0] · transposes_S8192x256_S256x8192_1_0) : (⟨S8192x256, .f32⟩ : BufTy).Contents (Elt F) → (⟨S256x8192, .f32⟩ : BufTy).Contents (Elt F)),
    StableHlo.binary main_v2 main_v3 main_v4 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst (constant S_ .f32 0x3F000000#32),
    StableHlo.unary main_cst main_v5 (broadcastInDim S8192x8192 ![] bcast_S_S8192x8192 : (⟨S_, .f32⟩ : BufTy).Contents (Elt F) → (⟨S8192x8192, .f32⟩ : BufTy).Contents (Elt F)),
    StableHlo.binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    StableHlo.unary main_v6 main_v7 (Host.exp : (⟨S8192x8192, .f32⟩ : BufTy).Contents (Elt F) → (⟨S8192x8192, .f32⟩ : BufTy).Contents (Elt F)),
    StableHlo.nullary main_v8 (iotaInDim S8192 32 0),
    StableHlo.nullary main_c (constantI S_ 32 4096#32),
    StableHlo.unary main_c main_v9 (broadcastInDim S8192 ![] bcast_S_S8192 : (⟨S_, .i32⟩ : BufTy).Contents (Elt F) → (⟨S8192, .i32⟩ : BufTy).Contents (Elt F)),
    StableHlo.binary main_v8 main_v9 main_v10 (addi : (⟨S8192, .i32⟩ : BufTy).Contents (Elt F) → (⟨S8192, .i32⟩ : BufTy).Contents (Elt F) → (⟨S8192, .i32⟩ : BufTy).Contents (Elt F)),
    StableHlo.nullary main_c_0 (constantI S_ 32 8192#32),
    StableHlo.TRef.unary (TRef.of main_c_0 : TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S8192 ![] bcast_S_S8192),
    StableHlo.TRef.binary (TRef.of main_v10 : TRef sig ⟨S8192, .i32⟩) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select,
    StableHlo.nullary main_c_1 (constantI S_ 32 0#32),
    StableHlo.unary main_c_1 main_v12 (broadcastInDim S8192 ![] bcast_S_S8192 : (⟨S_, .i32⟩ : BufTy).Contents (Elt F) → (⟨S8192, .i32⟩ : BufTy).Contents (Elt F)),
    StableHlo.binary main_v8 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 8192#32),
    StableHlo.unary main_c_2 main_v14 (broadcastInDim S8192 ![] bcast_S_S8192 : (⟨S_, .i32⟩ : BufTy).Contents (Elt F) → (⟨S8192, .i32⟩ : BufTy).Contents (Elt F)),
    StableHlo.binary main_v8 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v8 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_3 (constantI S_ 32 0#32),
    StableHlo.unary main_c_3 main_v17 (broadcastInDim S8192 ![] bcast_S_S8192 : (⟨S_, .i32⟩ : BufTy).Contents (Elt F) → (⟨S8192, .i32⟩ : BufTy).Contents (Elt F)),
    StableHlo.binary main_v11 main_v17 main_v18 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v19 (broadcastInDim S8192 ![] bcast_S_S8192 : (⟨S_, .i32⟩ : BufTy).Contents (Elt F) → (⟨S8192, .i32⟩ : BufTy).Contents (Elt F)),
    StableHlo.binary main_v11 main_v19 main_v20 (addi : (⟨S8192, .i32⟩ : BufTy).Contents (Elt F) → (⟨S8192, .i32⟩ : BufTy).Contents (Elt F) → (⟨S8192, .i32⟩ : BufTy).Contents (Elt F)),
    StableHlo.ternary main_v18 main_v20 main_v11 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v22 (broadcastInDim S8192x1 ![0] bcast_S8192_S8192x1_0 : (⟨S8192, .i32⟩ : BufTy).Contents (Elt F) → (⟨S8192x1, .i32⟩ : BufTy).Contents (Elt F)),
    StableHlo.unary main_v21 main_v23 (broadcastInDim S8192x1 ![0] bcast_S8192_S8192x1_0 : (⟨S8192, .i32⟩ : BufTy).Contents (Elt F) → (⟨S8192x1, .i32⟩ : BufTy).Contents (Elt F)),
    StableHlo.binary main_v22 main_v23 main_v24 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v7 main_v24 main_v25 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_c_5 (constantI S_ 32 0#32),
    StableHlo.unary main_c_5 main_v26 (broadcastInDim S8192 ![] bcast_S_S8192 : (⟨S_, .i32⟩ : BufTy).Contents (Elt F) → (⟨S8192, .i32⟩ : BufTy).Contents (Elt F)),
    StableHlo.binary main_v8 main_v26 main_v27 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v28 (broadcastInDim S8192 ![] bcast_S_S8192 : (⟨S_, .i32⟩ : BufTy).Contents (Elt F) → (⟨S8192, .i32⟩ : BufTy).Contents (Elt F)),
    StableHlo.binary main_v8 main_v28 main_v29 (addi : (⟨S8192, .i32⟩ : BufTy).Contents (Elt F) → (⟨S8192, .i32⟩ : BufTy).Contents (Elt F) → (⟨S8192, .i32⟩ : BufTy).Contents (Elt F)),
    StableHlo.ternary main_v27 main_v29 main_v8 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_7 (constantI S_ 32 0#32),
    StableHlo.unary main_c_7 main_v31 (broadcastInDim S8192 ![] bcast_S_S8192 : (⟨S_, .i32⟩ : BufTy).Contents (Elt F) → (⟨S8192, .i32⟩ : BufTy).Contents (Elt F)),
    StableHlo.binary main_v8 main_v31 main_v32 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v33 (broadcastInDim S8192 ![] bcast_S_S8192 : (⟨S_, .i32⟩ : BufTy).Contents (Elt F) → (⟨S8192, .i32⟩ : BufTy).Contents (Elt F)),
    StableHlo.binary main_v8 main_v33 main_v34 (addi : (⟨S8192, .i32⟩ : BufTy).Contents (Elt F) → (⟨S8192, .i32⟩ : BufTy).Contents (Elt F) → (⟨S8192, .i32⟩ : BufTy).Contents (Elt F)),
    StableHlo.ternary main_v32 main_v34 main_v8 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v30 main_v36 (broadcastInDim S8192x1 ![0] bcast_S8192_S8192x1_0 : (⟨S8192, .i32⟩ : BufTy).Contents (Elt F) → (⟨S8192x1, .i32⟩ : BufTy).Contents (Elt F)),
    StableHlo.unary main_v35 main_v37 (broadcastInDim S8192x1 ![0] bcast_S8192_S8192x1_0 : (⟨S8192, .i32⟩ : BufTy).Contents (Elt F) → (⟨S8192x1, .i32⟩ : BufTy).Contents (Elt F)),
    StableHlo.binary main_v36 main_v37 main_v38 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v7 main_v38 main_v39 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_cst_9 (constant S_ .f32 0x00000000#32),
    StableHlo.binary main_v7 main_cst_9 main_v40 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v40 main_v39 main_v41 (subf : (⟨S8192, .f32⟩ : BufTy).Contents (Elt F) → (⟨S8192, .f32⟩ : BufTy).Contents (Elt F) → (⟨S8192, .f32⟩ : BufTy).Contents (Elt F)),
    StableHlo.binary main_v25 main_v41 main_v42 (Host.divf : (⟨S8192, .f32⟩ : BufTy).Contents (Elt F) → (⟨S8192, .f32⟩ : BufTy).Contents (Elt F) → (⟨S8192, .f32⟩ : BufTy).Contents (Elt F)),
    StableHlo.unary main_v42 main_v43 (Host.log : (⟨S8192, .f32⟩ : BufTy).Contents (Elt F) → (⟨S8192, .f32⟩ : BufTy).Contents (Elt F)),
    StableHlo.unary main_v43 main_v44 (Host.negf : (⟨S8192, .f32⟩ : BufTy).Contents (Elt F) → (⟨S8192, .f32⟩ : BufTy).Contents (Elt F)),
    StableHlo.nullary main_cst_10 (constant S_ .f32 0x00000000#32),
    StableHlo.binary main_v44 main_cst_10 main_v45 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_11 (constant S_ .f32 0x46000000#32),
    StableHlo.binary main_v45 main_cst_11 main_v46 (Host.divf : (⟨S_, .f32⟩ : BufTy).Contents (Elt F) → (⟨S_, .f32⟩ : BufTy).Contents (Elt F) → (⟨S_, .f32⟩ : BufTy).Contents (Elt F)) ]

-- eighty-five binds re-associated: the rewrite under the chain recurses once per statement
set_option maxRecDepth 8192 in
set_option maxHeartbeats 4000000 in
/-- @main is that straight line: the two windows, the functions' definitions unfolded at their calls and the records at
    their fields; both sides are one chain of steps once sequencing is re-associated. -/
theorem main_eq (c : Dev nD) : main (F := F) c = seq ops := by
  simp only [main, main_part0, main_part1, fn_norm.body, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    unary_bufs_sub .., nullary_bufs_sub .., nullary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., binary_bufs_sub .., binary_bufs_sub ..,
    binary_bufs_sub .., unary_bufs_sub .., unary_bufs_sub .., nullary_bufs_sub .., binary_bufs_sub .., nullary_bufs_sub ..,
    binary_bufs_sub ..⟩

attribute [local irreducible] Host.reduceAdd Host.gather concatenate transpose broadcastInDim iotaInDim in
set_option maxRecDepth 16384 in
set_option maxHeartbeats 4000000 in
/-- The fold at the result buffer is `refVal` of the argument's contents, by computation: the fold unrolled, each
    operation's result decides whether the buffer read is the one it writes, and the typed references' casts are the
    identity at these literal references. The reductions, the reads at an index table, the concatenations and the
    re-indexings are kept folded meanwhile: the equation never looks inside them. -/
theorem out_eq (V : Valuation τ sig (Elt F)) :
    after ops V (main_v46 : DevRef τ sig) = refVal (V (main_arg0 : DevRef τ sig)) := by
  simp only [after_cons, after_nil]
  rfl

set_option maxRecDepth 16384 in
/-- No operation writes the argument's buffer. -/
theorem arg0_eq (V : Valuation τ sig (Elt F)) :
    after ops V (main_arg0 : DevRef τ sig) = V (main_arg0 : DevRef τ sig) := by
  simp only [after_cons, after_nil]
  rfl

/-- On every device, for any float values, from any memory with zero counters: every weakly fair execution of @main
    terminates with the result buffer at `refVal` of the argument's launch contents, and the argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46) = refVal (m ((c.tc : Thread nD τ).loc main_arg0))
      ∧ r.2.mem ((c.tc : Thread nD τ).loc main_arg0) = m ((c.tc : Thread nD τ).loc main_arg0)) :=
  (θ_run defs _ _).mono (fun _ h c => ⟨(h c main_v46).trans (out_eq _), (h c main_arg0).trans (arg0_eq _)⟩)
    (run_seq scopedRefs_eq scopedSems_eq defs main (fun _ => ops) main_eq (fun _ => ops_sub) m ρ)

end Cert.ReferenceIdeal.RefValue

end
-- ==== Proof.R.ReadExp.lean ====
/-
  The reference's table of exponentiated similarities read at an entry, at the ideal instance: entry `(r, c)` is the
  exponential of the inner product of rows `r` and `c`, each entry first divided by the square root of its row's sum of
  squares, over the temperature `1/2`. A host sum along an axis is the initial value plus the sum over the axis, a host
  matrix product onto nothing is the sum over the contracted axis, a transpose swaps the coordinates, and a broadcast
  repeats a column along the features.

  The stages, each over an arbitrary operand: a row's sum from zero; a vector as a column and a column repeated along the
  features; the transpose; the product of a matrix with a transposed one as the inner product of two rows. Then the
  program's own values: the norm column, the normalised matrix, the table.
-/
import proofs.«134130_j44985487459095_1_alg».proof.Proof.R.Term
import proofs.«134130_j44985487459095_1_alg».proof.Proof.Spec
import proofs.«134130_j44985487459095_1_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.ValueIdx
open Cert.ReferenceIdeal Facts₀ Facts

variable [Cert.ReferenceIdeal.Facts]

namespace Sims

/-! ## Layout: a vector as a column, a column along the features, a transpose -/

section Layout
variable {α : Type}

/-- A vector of per-row values kept as a one-column matrix reads, at `(r, u)`, the vector at `r`. -/
theorem column_apply (v : S8192.Idx → α) (r : Fin 8192) (u : Fin 1) :
    broadcastInDim S8192x1 ![0] bcast_S8192_S8192x1_0 v (ix2 r u) = v (ix1 r) :=
  broadcastInDim_apply _ _ v (ix2 r u) (ix1 r) fun a => by
    match a with
    | ⟨0, _⟩ => rfl

/-- A one-column matrix repeated along the features reads, at `(r, k)`, the column at row `r`. -/
theorem alongFeatures_apply (v : S8192x1.Idx → α) (r : Fin 8192) (k : Fin 256) :
    broadcastInDim S8192x256 ![0, 1] bcast_S8192x1_S8192x256_0_1 v (ix2 r k) = v (ix2 r (0 : Fin 1)) :=
  broadcastInDim_apply _ _ v (ix2 r k) (ix2 r (0 : Fin 1)) fun a => by
    match a with
    | ⟨0, _⟩ => rfl
    | ⟨1, _⟩ => rfl

/-- The transposed matrix reads, at `(k, c)`, the matrix at `(c, k)`. -/
theorem transposed_apply (v : S8192x256.Idx → α) (k : Fin 256) (c : Fin 8192) :
    transpose S256x8192 [1, 0] v transposes_S8192x256_S256x8192_1_0 (ix2 k c) = v (ix2 c k) :=
  transpose_apply _ v _ (ix2 k c) (ix2 c k) fun b => by
    match b with
    | ⟨0, _⟩ => rfl
    | ⟨1, _⟩ => rfl

end Layout

/-! ## A row's sum from zero -/

/-- The shape fact that names the index with a feature coordinate inserted. -/
theorem reduces_features : S8192x256.Reduces [1] S8192 := by decide

/-- The host's sum along the features, from the zero word, is at row `r` the sum over the features of the row's entries:
    `0 + ∑ k`. -/
theorem rowSum_apply (y : FVec Ideal S8192x256 .f32) (r : Fin 8192) :
    Host.reduceAdd (F := Ideal) y (constant (F := Ideal) S_ .f32 0x00000000#32) reducesTo_S8192x256_S8192_d1 h_S_ (ix1 r)
      = ∑ k : Fin 256, y (ix2 r k) := by
  rw [hostReduceAdd_apply, Ideal.hostReduceAdd_single reducesTo_S8192x256_S8192_d1 reduces_features, constant_apply,
    Ideal.ofBits_zero_f32, zero_add]
  refine Finset.sum_congr rfl fun k _ => congrArg y (funext fun a => Fin.ext ?_)
  match a with
  | ⟨0, _⟩ => rfl
  | ⟨1, _⟩ => rfl

/-! ## The product of a matrix with a transposed one

The host's matrix product contracts the left operand's second axis with the right operand's first. Its two operand
indices at output `(r, c)` and contraction coordinate `k` are `(r, k)` and `(k, c)`: one fact per operand axis, then
the contraction's index set re-indexed by its one coordinate. -/

theorem lhs_table_0 (i : S8192x8192.Idx) (q : dot_S8192x256_S256x8192_S8192x8192_1_0_0_1_n_n.contr.Idx) :
    (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch from List.not_mem_nil),
    dif_pos (show (0 : Fin S8192x256.rank) ∈ dot_S8192x256_S256x8192_S8192x8192_1_0_0_1_n_n.lhsNonContracting from List.mem_singleton.mpr rfl)]
  rfl

theorem lhs_table_1 (i : S8192x8192.Idx) (q : dot_S8192x256_S256x8192_S8192x8192_1_0_0_1_n_n.contr.Idx) :
    (dot_S8192x256_S256x8192_S8192x8192_1_0_0_1_n_n.lhsIdx i q 1).val = (q ⟨0, Nat.one_pos⟩).val :=
  dot_S8192x256_S256x8192_S8192x8192_1_0_0_1_n_n.lhsIdx_val_of_single rfl i q

theorem rhs_table_0 (i : S8192x8192.Idx) (q : dot_S8192x256_S256x8192_S8192x8192_1_0_0_1_n_n.contr.Idx) :
    (dot_S8192x256_S256x8192_S8192x8192_1_0_0_1_n_n.rhsIdx i q 0).val = (q ⟨0, Nat.one_pos⟩).val :=
  dot_S8192x256_S256x8192_S8192x8192_1_0_0_1_n_n.rhsIdx_val_of_single rfl i q

theorem rhs_table_1 (i : S8192x8192.Idx) (q : dot_S8192x256_S256x8192_S8192x8192_1_0_0_1_n_n.contr.Idx) :
    (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch from List.not_mem_nil),
    dif_pos (show (1 : Fin S256x8192.rank) ∈ dot_S8192x256_S256x8192_S8192x8192_1_0_0_1_n_n.rhsNonContracting from List.mem_singleton.mpr rfl)]
  rfl

/-- The host's product of `A : [8192, 256]` and `B : [256, 8192]` onto nothing is, at `(r, c)`, the sum over the
    features of `A (r, k) * B (k, c)`. -/
theorem product_apply (A : FVec Ideal S8192x256 .f32) (B : FVec Ideal S256x8192 .f32) (r c : Fin 8192) :
    Host.dotGeneral (F := Ideal) dot_S8192x256_S256x8192_S8192x8192_1_0_0_1_n_n none A B (ix2 r c)
      = ∑ k : Fin 256, A (ix2 r k) * B (ix2 k c) := by
  simp only [Host.dotGeneral]
  rw [Ideal.dotGeneral_apply, ← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have el : dot_S8192x256_S256x8192_S8192x8192_1_0_0_1_n_n.lhsIdx (ix2 r c) ((contrEquiv1 dot_S8192x256_S256x8192_S8192x8192_1_0_0_1_n_n 256 rfl rfl).symm k) = ix2 r k :=
    funext fun a => Fin.ext (by
      match a with
      | ⟨0, _⟩ => exact lhs_table_0 _ _
      | ⟨1, _⟩ => exact (lhs_table_1 _ _).trans hk)
  have er : dot_S8192x256_S256x8192_S8192x8192_1_0_0_1_n_n.rhsIdx (ix2 r c) ((contrEquiv1 dot_S8192x256_S256x8192_S8192x8192_1_0_0_1_n_n 256 rfl rfl).symm k) = ix2 k c :=
    funext fun a => Fin.ext (by
      match a with
      | ⟨0, _⟩ => exact (rhs_table_0 _ _).trans hk
      | ⟨1, _⟩ => exact rhs_table_1 _ _)
  rw [el, er]

/-! ## The program's values -/

/-- The norm column: at `(r, u)` the square root of row `r`'s sum of squares. -/
theorem norm_apply (x : FVec Ideal S8192x256 .f32) (r : Fin 8192) (u : Fin 1) :
    Host.sqrt (F := Ideal) (broadcastInDim S8192x1 ![0] bcast_S8192_S8192x1_0
        (Host.reduceAdd (F := Ideal) (mulf x x) (constant (F := Ideal) S_ .f32 0x00000000#32)
          reducesTo_S8192x256_S8192_d1 h_S_)) (ix2 r u)
      = Ideal.sqrt (Cert.Spec.ss (Cert.Spec.matOf x) r) := by
  simp only [Host.sqrt, Ideal.hostUnary_sqrt_def]
  rw [column_apply, rowSum_apply]
  rfl

/-- A matrix over a column repeated along the features: at `(r, k)` the entry over the column's row `r`. -/
theorem overColumn_apply (x : FVec Ideal S8192x256 .f32) (N : FVec Ideal S8192x1 .f32) (r : Fin 8192) (k : Fin 256) :
    Host.divf (F := Ideal) x (broadcastInDim S8192x256 ![0, 1] bcast_S8192x1_S8192x256_0_1 N) (ix2 r k)
      = Ideal.div (x (ix2 r k)) (N (ix2 r (0 : Fin 1))) := by
  rw [hostDivf_apply, alongFeatures_apply]

/-- The table from a matrix `V` of normalised rows: at `(r, c)` the exponential of the inner product of rows `r` and `c`
    over the temperature. -/
theorem table_apply (V : FVec Ideal S8192x256 .f32) (r c : Fin 8192) :
    Host.exp (F := Ideal) (Host.divf (F := Ideal)
        (Host.dotGeneral (F := Ideal) dot_S8192x256_S256x8192_S8192x8192_1_0_0_1_n_n none V
          (transpose S256x8192 [1, 0] V transposes_S8192x256_S256x8192_1_0))
        (broadcastInDim S8192x8192 ![] bcast_S_S8192x8192 (constant (F := Ideal) S_ .f32 0x3F000000#32))) (ix2 r c)
      = Ideal.exp (Ideal.div (∑ k : Fin 256, V (ix2 r k) * V (ix2 c k)) Cert.Spec.half) := by
  simp only [Host.exp, Ideal.hostUnary_exp_def]
  rw [hostDivf_apply, product_apply, broadcastInDim_scalar_apply, constant_apply]
  refine congrArg (fun s => Ideal.exp (Ideal.div s Cert.Spec.half)) (Finset.sum_congr rfl fun k _ => ?_)
  rw [transposed_apply]

end Sims

/-- Entry `(r, c)` of the reference's table is `exp (⟨x̂ r, x̂ c⟩ / (1/2))`, for `x̂ r` row `r` over the square root of its sum
    of squares. -/
theorem expSims_apply (x : FVec Ideal S8192x256 .f32) (r c : Fin 8192) :
    (expSims (F := Ideal) x : S8192x8192.Idx → EReal) (ix2 r c) = Cert.Spec.eR (Cert.Spec.matOf x) r c := by
  simp only [expSims]
  rw [Sims.table_apply]
  unfold Cert.Spec.eR
  refine congrArg (fun s => Ideal.exp (Ideal.div s Cert.Spec.half)) (Finset.sum_congr rfl fun k _ => ?_)
  rw [Sims.overColumn_apply, Sims.overColumn_apply, Sims.norm_apply, Sims.norm_apply]
  rfl

end Cert.ReferenceIdeal.RefValue

end
-- ==== Proof.R.ReadIdx.lean ====
/-
  The two tables of index pairs the reference gathers at, read at a row: row `r` of the first is `(r, (r + 4096) mod 8192)`
  and row `r` of the second `(r, r)`, as 32-bit words. Every number involved is below `2^14`, so the word arithmetic does not
  wrap: the truncating remainder of `r + 4096` by `8192` is non-negative and is the floor remainder, and no index is
  negative, so none of the sign corrections fires.

  The tables are first rewritten over three named vector functions — `wrapNeg v` (an entry below zero moved up by `8192`),
  `floorRem v` (the floor remainder by `8192`: the truncating remainder, moved to the divisor's sign) and `asCol v` (a vector
  as a one-column table) — and each of these is read at a row whose entry is a word below `2^31`.
-/
import proofs.«134130_j44985487459095_1_alg».proof.Proof.R.Term
import proofs.«134130_j44985487459095_1_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.RefValue

open Idealize.ShloMosaic Idealize.ShloMosaic.ValueIdx
open Cert.ReferenceIdeal Facts₀ Facts

/-! ## Words below `2^31`: non-negative as signed integers -/

/-- A number below `2^31` is the value of its 32-bit word. -/
theorem toNat_small (n : ℕ) (h : n < 2 ^ 31) : (BitVec.ofNat 32 n).toNat = n := by
  rw [BitVec.toNat_ofNat]; exact Nat.mod_eq_of_lt (by omega)

/-- Its sign bit is clear. -/
theorem msb_small (n : ℕ) (h : n < 2 ^ 31) : (BitVec.ofNat 32 n).msb = false :=
  BitVec.msb_eq_false_iff_two_mul_lt.mpr (by rw [toNat_small n h]; omega)

/-- It is not below zero in the signed order. -/
theorem slt_zero_small (n : ℕ) (h : n < 2 ^ 31) : IntOp.cmpi .slt (BitVec.ofNat 32 n) 0#32 = 0#1 := by
  apply eq_zero_of_ne_one
  intro hc
  have := (StableHlo.Predicate.slt_iff_toNat (a := BitVec.ofNat 32 n) (b := 0#32) (by rw [toNat_small n h]; exact h)
    (by decide)).mp hc
  simp at this

/-- So "add `8192` where negative" leaves it alone. -/
theorem fix_small (n : ℕ) (h : n < 2 ^ 31) :
    Scalar.select (IntOp.cmpi .slt (BitVec.ofNat 32 n) 0#32) (IntOp.addi (BitVec.ofNat 32 n) 8192#32) (BitVec.ofNat 32 n)
      = BitVec.ofNat 32 n := by
  rw [slt_zero_small n h, select_zero]

/-- Its truncating remainder by `8192` is the remainder of the numbers: both operands are non-negative, so the signed
    remainder is the unsigned one. -/
theorem remsi_small (n : ℕ) (h : n < 2 ^ 31) :
    IntOp.remsi .host (BitVec.ofNat 32 n) 8192#32 = BitVec.ofNat 32 (n % 8192) := by
  have hc : ¬ IntOp.SDivCorner (BitVec.ofNat 32 n) 8192#32 := by
    intro hc; rcases hc with hc | ⟨_, hc⟩ <;> exact absurd hc (by decide)
  unfold IntOp.remsi
  rw [if_neg hc, BitVec.srem_eq, msb_small n h, show (8192#32 : BitVec 32).msb = false from by decide]
  apply BitVec.eq_of_toNat_eq
  have h2 : n % 8192 < 2 ^ 31 := by omega
  simp only [BitVec.umod_eq, BitVec.toNat_umod, toNat_small n h, toNat_small _ h2]
  rfl

/-- The divisor the remainder is taken by: `8192`, replaced by `1` if it were `0`. -/
def divisor : BitVec 32 := Scalar.select (IntOp.cmpi .eq 8192#32 0#32) 1#32 8192#32

theorem divisor_eq : divisor = 8192#32 := by decide

/-- The floor remainder of a word by `8192`: the truncating remainder, plus the divisor where it is not zero and its sign is
    not the divisor's. -/
def floorRemW (x : BitVec 32) : BitVec 32 :=
  Scalar.select
    (IntOp.andi (IntOp.cmpi .ne (IntOp.cmpi .slt (IntOp.remsi .host x divisor) 0#32) (IntOp.cmpi .slt divisor 0#32))
      (IntOp.cmpi .ne (IntOp.remsi .host x divisor) 0#32))
    (IntOp.addi (IntOp.remsi .host x divisor) divisor) (IntOp.remsi .host x divisor)

/-- On a non-negative word the truncating remainder is non-negative, as the divisor is: no correction, and the floor
    remainder is the remainder of the numbers. -/
theorem floorRemW_small (n : ℕ) (h : n < 2 ^ 31) : floorRemW (BitVec.ofNat 32 n) = BitVec.ofNat 32 (n % 8192) := by
  unfold floorRemW
  rw [divisor_eq, remsi_small n h, slt_zero_small (n % 8192) (by omega),
    show IntOp.cmpi .slt 8192#32 0#32 = 0#1 from by decide, show IntOp.cmpi .ne 0#1 0#1 = 0#1 from by decide,
    show ∀ b : BitVec 1, IntOp.andi 0#1 b = 0#1 from by decide, select_zero]

/-! ## The tables over named vector functions -/

variable [Cert.ReferenceIdeal.Facts]

/-- The row numbers `0, 1, …, 8191`. -/
def rowNos : IVec S8192 32 := iotaInDim S8192 32 0

/-- A word at every row. -/
def splat (b : BitVec 32) : IVec S8192 32 := broadcastInDim S8192 ![] bcast_S_S8192 (constantI S_ 32 b)

/-- Every negative entry moved up by `8192`. -/
def wrapNeg (v : IVec S8192 32) : IVec S8192 32 := select (cmpi .slt v (splat 0#32)) (addi v (splat 8192#32)) v

/-- Every entry's floor remainder by `8192`. -/
def floorRem (v : IVec S8192 32) : IVec S8192 32 :=
  let c_0 : IVec S_ 32 := constantI S_ 32 8192#32
  let r_v0 : IVec S_ 32 := id c_0
  let r_c : IVec S_ 32 := constantI S_ 32 0#32
  let r_v1 : IVec S_ 1 := cmpi .eq r_v0 r_c
  let r_c_0 : IVec S_ 32 := constantI S_ 32 1#32
  let r_v2 : IVec S_ 32 := select r_v1 r_c_0 r_v0
  let r_v3 : IVec S8192 32 := broadcastInDim S8192 ![] bcast_S_S8192 r_v2
  let r_v4 : IVec S8192 32 := Host.remsi v r_v3
  let r_v6 : IVec S8192 1 := cmpi .ne r_v4 (splat 0#32)
  let r_v8 : IVec S8192 1 := cmpi .slt r_v4 (splat 0#32)
  let r_c_3 : IVec S_ 32 := constantI S_ 32 0#32
  let r_v9 : IVec S_ 1 := cmpi .slt r_v2 r_c_3
  let r_v10 : IVec S8192 1 := broadcastInDim S8192 ![] bcast_S_S8192 r_v9
  let r_v11 : IVec S8192 1 := cmpi .ne r_v8 r_v10
  let r_v12 : IVec S8192 1 := andi r_v11 r_v6
  let r_v13 : IVec S8192 32 := broadcastInDim S8192 ![] bcast_S_S8192 r_v2
  let r_v14 : IVec S8192 32 := addi r_v4 r_v13
  select r_v12 r_v14 r_v4

/-- A vector as a table of one column. -/
def asCol (v : IVec S8192 32) : IVec S8192x1 32 := broadcastInDim S8192x1 ![0] bcast_S8192_S8192x1_0 v

/-- Two one-column tables side by side. -/
def sideBySide (a b : IVec S8192x1 32) : IVec S8192x2 32 :=
  concatenate S8192x2 1 [⟨S8192x1, a⟩, ⟨S8192x1, b⟩] concatenates_S8192x1_S8192x1_S8192x2_d1

/-- The table of positive partners: the row numbers beside the floor remainders of the row numbers plus `4096`, a negative
    entry of either moved up by `8192`. -/
theorem posIdx_eq :
    posIdx = sideBySide (asCol (wrapNeg rowNos)) (asCol (wrapNeg (floorRem (addi rowNos (splat 4096#32))))) := rfl

/-- The table of the diagonal: the row numbers beside themselves, a negative one moved up by `8192`. -/
theorem selfIdx_eq : selfIdx = sideBySide (asCol (wrapNeg rowNos)) (asCol (wrapNeg rowNos)) := rfl

/-! ## Each function at a row -/

theorem rowNos_at (r : Fin 8192) : rowNos (ix1 r) = BitVec.ofNat 32 r.val := rfl

theorem splat_at (b : BitVec 32) (r : Fin 8192) : splat b (ix1 r) = b := rfl

/-- A sum of two small numbers does not wrap. -/
theorem addi_at (v : IVec S8192 32) (b : BitVec 32) (r : Fin 8192) (n k : ℕ) (hv : v (ix1 r) = BitVec.ofNat 32 n)
    (hb : b = BitVec.ofNat 32 k) : addi v (splat b) (ix1 r) = BitVec.ofNat 32 (n + k) := by
  show IntOp.addi (v (ix1 r)) b = _
  rw [hv, hb]; exact (BitVec.ofNat_add n k).symm

theorem wrapNeg_at (v : IVec S8192 32) (r : Fin 8192) (n : ℕ) (hn : n < 2 ^ 31) (hv : v (ix1 r) = BitVec.ofNat 32 n) :
    wrapNeg v (ix1 r) = BitVec.ofNat 32 n := by
  show Scalar.select (IntOp.cmpi .slt (v (ix1 r)) 0#32) (IntOp.addi (v (ix1 r)) 8192#32) (v (ix1 r)) = _
  rw [hv]; exact fix_small n hn

theorem floorRem_at (v : IVec S8192 32) (r : Fin 8192) (n : ℕ) (hn : n < 2 ^ 31) (hv : v (ix1 r) = BitVec.ofNat 32 n) :
    floorRem v (ix1 r) = BitVec.ofNat 32 (n % 8192) := by
  show floorRemW (v (ix1 r)) = _
  rw [hv]; exact floorRemW_small n hn

/-- A one-column table at `(r, 0)` is the vector at `r`. -/
theorem asCol_at (v : IVec S8192 32) (r : Fin 8192) : asCol v (ix2 r (0 : Fin 1)) = v (ix1 r) := by
  unfold asCol
  exact broadcastInDim_apply _ bcast_S8192_S8192x1_0 v (ix2 r (0 : Fin 1)) (ix1 r) (by intro a; match a with | ⟨0, _⟩ => rfl)

/-- The first column of two side by side is the first table. -/
theorem sideBySide_col0 (a b : IVec S8192x1 32) (r : Fin 8192) :
    sideBySide a b (ix2 r (0 : Fin 2)) = a (ix2 r (0 : Fin 1)) :=
  concatenate_pair_apply_left (t := S8192x2) (s₁ := S8192x1) (s₂ := S8192x1) (1 : Fin 2) a b
    concatenates_S8192x1_S8192x1_S8192x2_d1 (ix2 r (0 : Fin 2)) rfl (ix2 r (0 : Fin 1))
    (by intro b; match b with | ⟨0, _⟩ => rfl | ⟨1, _⟩ => rfl)

/-- The second column is the second table. -/
theorem sideBySide_col1 (a b : IVec S8192x1 32) (r : Fin 8192) :
    sideBySide a b (ix2 r (1 : Fin 2)) = b (ix2 r (0 : Fin 1)) :=
  concatenate_pair_apply_right (t := S8192x2) (s₁ := S8192x1) (s₂ := S8192x1) (1 : Fin 2) a b
    concatenates_S8192x1_S8192x1_S8192x2_d1 (ix2 r (1 : Fin 2)) rfl rfl (ix2 r (0 : Fin 1))
    (by intro b hb; match b, hb with | ⟨0, _⟩, _ => rfl | ⟨1, _⟩, hb => exact absurd rfl hb) rfl

/-- The corrected row number at `r` is `r`. -/
theorem rowCol_at (r : Fin 8192) : asCol (wrapNeg rowNos) (ix2 r (0 : Fin 1)) = BitVec.ofNat 32 r.val := by
  rw [asCol_at]; exact wrapNeg_at rowNos r r.val (by have := r.isLt; omega) (rowNos_at r)

/-- The corrected partner at `r` is `(r + 4096) mod 8192`. -/
theorem partnerCol_at (r : Fin 8192) :
    asCol (wrapNeg (floorRem (addi rowNos (splat 4096#32)))) (ix2 r (0 : Fin 1))
      = BitVec.ofNat 32 ((r.val + 4096) % 8192) := by
  have hr := r.isLt
  rw [asCol_at]
  refine wrapNeg_at _ r ((r.val + 4096) % 8192) (by omega) ?_
  refine floorRem_at _ r (r.val + 4096) (by omega) ?_
  exact addi_at rowNos 4096#32 r r.val 4096 (rowNos_at r) rfl

/-! ## The two tables at a row -/

theorem posIdx_row (r : Fin 8192) : posIdx (ix2 r (0 : Fin 2)) = BitVec.ofNat 32 r.val := by
  rw [posIdx_eq, sideBySide_col0]; exact rowCol_at r
theorem posIdx_col (r : Fin 8192) : posIdx (ix2 r (1 : Fin 2)) = BitVec.ofNat 32 (Cert.Spec.partner r).val := by
  rw [posIdx_eq, sideBySide_col1]; exact partnerCol_at r
theorem selfIdx_row (r : Fin 8192) : selfIdx (ix2 r (0 : Fin 2)) = BitVec.ofNat 32 r.val := by
  rw [selfIdx_eq, sideBySide_col0]; exact rowCol_at r
theorem selfIdx_col (r : Fin 8192) : selfIdx (ix2 r (1 : Fin 2)) = BitVec.ofNat 32 r.val := by
  rw [selfIdx_eq, sideBySide_col1]; exact rowCol_at r

end Cert.ReferenceIdeal.RefValue

end
-- ==== Proof.R.ReadVal.lean ====
/-
  The reference's result from its table of exponentiated similarities, at the ideal instance. Given a table `e` that the
  program's table is at every entry, and index tables whose row `r` is `(r, partner r)` and `(r, r)`: the two gathers read
  `e r (partner r)` and `e r r` (both indices are in range, so no clamping moves them), each row's host sum from zero is the
  sum over the columns, and the closing operations are the mean of `-log (numerator / denominator)`.
-/
import proofs.«134130_j44985487459095_1_alg».proof.Proof.R.Term
import proofs.«134130_j44985487459095_1_alg».proof.Proof.Spec
import Idealize.ShloMosaic.Lib.ValueIdx
import Idealize.ShloMosaic.Lib.ValueIdxRank1
import Idealize.ShloMosaic.Lib.IdealHost
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal Facts₀ Facts

variable [Cert.ReferenceIdeal.Facts]

local notation "G₂" => gather_S8192x8192_S8192x2_S8192_n_01_n_n_01_1_11

/-- A word holding a row number reads, as a signed integer, that number. -/
theorem toInt_toNat_ofNat (n : Nat) (h : n < 8192) : (BitVec.ofNat 32 n).toInt.toNat = n := by
  unfold BitVec.toInt
  rw [BitVec.toNat_ofNat, Nat.mod_eq_of_lt (by omega), if_pos (by omega)]
  exact Int.toNat_natCast n

/-- The operand index the gather reads at row `r`, on operand axis `c`: component `c` of row `r`'s index pair, when
    that component is a row number (in range, so that clamping leaves it). -/
theorem operandIdx_val (idx : IVec S8192x2 32) (r : Fin 8192) (c : Fin 2) (n : Fin 8192)
    (hc : idx (ix2 r c) = BitVec.ofNat 32 n.val) : (GatherDims.operandIdx G₂ (ix1 r) idx c).val = n.val := by
  have hall : ∀ c : Fin 2, c ∈ ([0, 1] : List (Fin 2)) := by decide
  have hmem : c ∈ GatherDims.startIndexMap G₂ := hall c
  have hcol : c ∈ GatherDims.collapsedSliceDims G₂ := hmem
  show GatherDims.start G₂ (ix1 r) idx c + GatherDims.batchCoord G₂ (ix1 r) c + GatherDims.offCoord G₂ (ix1 r) c = _
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hsi : GatherDims.siIdx G₂ (ix1 r) ⟨List.idxOf c (GatherDims.startIndexMap G₂), List.idxOf_lt_length_iff.2 hmem⟩ = ix2 r c := by
    funext d; refine Fin.ext ?_
    revert hmem
    match c, d with
    | ⟨0, _⟩, ⟨0, _⟩ => intro _; rfl
    | ⟨0, _⟩, ⟨1, _⟩ => intro _; rfl
    | ⟨1, _⟩, ⟨0, _⟩ => intro _; rfl
    | ⟨1, _⟩, ⟨1, _⟩ => intro _; rfl
  rw [hsi, hc, toInt_toNat_ofNat _ n.isLt]
  have hn := n.isLt
  have hsz : S8192x8192.size c - GatherDims.sliceSizes G₂ c = 8191 := by
    match c with
    | ⟨0, _⟩ => rfl
    | ⟨1, _⟩ => rfl
  rw [hsz]
  exact Nat.min_eq_left (by omega)

/-- The gather of a square table at a table of index pairs, read at row `r`: the table at the pair, when both of its
    components are row numbers. -/
theorem gather_pair_apply {α : Type} (T : S8192x8192.Idx → α) (idx : IVec S8192x2 32) (r a b : Fin 8192)
    (h0 : idx (ix2 r (0 : Fin 2)) = BitVec.ofNat 32 a.val) (h1 : idx (ix2 r (1 : Fin 2)) = BitVec.ofNat 32 b.val) :
    Host.gather G₂ T idx (ix1 r) = T (ix2 a b) := by
  unfold Host.gather
  rw [eq_ix2 (GatherDims.operandIdx G₂ (ix1 r) idx)]
  have e0 : GatherDims.operandIdx G₂ (ix1 r) idx 0 = a := Fin.ext (operandIdx_val idx r 0 a h0)
  have e1 : GatherDims.operandIdx G₂ (ix1 r) idx 1 = b := Fin.ext (operandIdx_val idx r 1 b h1)
  rw [e0, e1]
  rfl

/-- Each row's host sum from the zero constant is the sum of the table over the columns. -/
theorem rowSum_apply (T : FVec Ideal S8192x8192 .f32) (r : Fin 8192) :
    Host.reduceAdd T (constant (F := Ideal) S_ .f32 0x00000000#32) reducesTo_S8192x8192_S8192_d1 h_S_ (ix1 r)
      = ∑ c : Fin 8192, T (ix2 r c) := by
  have h : S8192x8192.Reduces [1] S8192 := by decide
  rw [hostReduceAdd_apply, Ideal.hostReduceAdd_single reducesTo_S8192x8192_S8192_d1 h]
  show Ideal.ofBits .f32 0x00000000#32 + ∑ c : Fin 8192, T (h.lift (ix1 r) c) = _
  rw [Ideal.ofBits_zero_f32, zero_add]
  refine Finset.sum_congr rfl (fun c _ => congrArg T ?_)
  funext d; refine Fin.ext ?_
  match d with
  | ⟨0, _⟩ => rfl
  | ⟨1, _⟩ => rfl

/-- The host sum over the rows from the zero constant, the scalar result, is the sum over the row numbers. -/
theorem total_apply (v : FVec Ideal S8192 .f32) (j : S_.Idx) :
    Host.reduceAdd v (constant (F := Ideal) S_ .f32 0x00000000#32) reducesTo_S8192_S_d0 h_S_ j
      = ∑ r : Fin 8192, v (ix1 r) := by
  rw [hostReduceAdd_apply, Ideal.hostReduceAdd_total reducesTo_S8192_S_d0 (fun b => b.elim0)]
  show Ideal.ofBits .f32 0x00000000#32 + ∑ i : S8192.Idx, v i = _
  rw [Ideal.ofBits_zero_f32, zero_add]
  exact (Equiv.sum_comp (idxEquiv1 (n := 8192)).symm v).symm

/-- The reference's result is the loss of the numerators and denominators read off the table `e`: the mean over the rows of
    `-log (e r (partner r) / ((∑ c, e r c) - e r r))`. -/
theorem refVal_of (x : FVec Ideal S8192x256 .f32) (e : Fin 8192 → Fin 8192 → EReal)
    (he : ∀ r c : Fin 8192, (expSims (F := Ideal) x : S8192x8192.Idx → EReal) (ix2 r c) = e r c)
    (hp0 : ∀ r : Fin 8192, posIdx (ix2 r (0 : Fin 2)) = BitVec.ofNat 32 r.val)
    (hp1 : ∀ r : Fin 8192, posIdx (ix2 r (1 : Fin 2)) = BitVec.ofNat 32 (Cert.Spec.partner r).val)
    (hs0 : ∀ r : Fin 8192, selfIdx (ix2 r (0 : Fin 2)) = BitVec.ofNat 32 r.val)
    (hs1 : ∀ r : Fin 8192, selfIdx (ix2 r (1 : Fin 2)) = BitVec.ofNat 32 r.val) :
    (refVal (F := Ideal) x : S_.Idx → EReal) = fun _ => Cert.Spec.lossOf (Cert.Spec.posOf e) (Cert.Spec.denOf e) := by
  funext j
  unfold refVal
  dsimp only
  generalize expSims (F := Ideal) x = T at he ⊢
  generalize posIdx = P at hp0 hp1 ⊢
  generalize selfIdx = S at hs0 hs1 ⊢
  rw [hostDivf_apply, total_apply]
  unfold Cert.Spec.lossOf
  congr 1
  refine Finset.sum_congr rfl (fun r _ => ?_)
  show -(Ideal.log (Ideal.div (Host.gather G₂ T P (ix1 r))
      (Host.reduceAdd T (constant (F := Ideal) S_ .f32 0x00000000#32) reducesTo_S8192x8192_S8192_d1 h_S_ (ix1 r)
        - Host.gather G₂ T S (ix1 r)))) = _
  rw [gather_pair_apply T P r r (Cert.Spec.partner r) (hp0 r) (hp1 r),
    gather_pair_apply T S r r r (hs0 r) (hs1 r), rowSum_apply, he, he]
  unfold Cert.Spec.posOf Cert.Spec.denOf
  simp only [he]

end Cert.ReferenceIdeal.RefValue

end
-- ==== Proof.R.Value.lean ====
/-
  The reference's result term at the ideal instance: the loss, the reference's way, of the input read as rows of features.
-/
import proofs.«134130_j44985487459095_1_alg».proof.Proof.R.ReadExp
import proofs.«134130_j44985487459095_1_alg».proof.Proof.R.ReadIdx
import proofs.«134130_j44985487459095_1_alg».proof.Proof.R.ReadVal

noncomputable section

open scoped BigOperators

namespace Cert.ReferenceIdeal.RefValue

open Idealize.ShloMosaic Idealize.ShloMosaic.ValueIdx
open Cert.ReferenceIdeal Facts₀ Facts

variable [Cert.ReferenceIdeal.Facts]

theorem refVal_eq (x : FVec Ideal S8192x256 .f32) :
    (refVal (F := Ideal) x : S_.Idx → EReal) = fun _ => Cert.Spec.lossR (Cert.Spec.matOf x) :=
  refVal_of x _ (expSims_apply x) posIdx_row posIdx_col selfIdx_row selfIdx_col

end Cert.ReferenceIdeal.RefValue

end
-- ==== Proof.Bridge.lean ====
/-
  The two ways of computing the loss agree on the admitted inputs.

  On an input whose entries are all real and whose rows all have a positive sum of squares, a row's sum of squares is a
  positive real `s`; its reciprocal square root is the real `(√s)⁻¹` and its square root the nonzero real `√s`, so
  multiplying an entry by the first and dividing it by the second give one extended real. The constant `2.0` denotes `2` and
  `0.5` denotes `1/2`, and dividing any extended real by the nonzero real `1/2` is multiplying it by `2`. So the two tables of
  exponentiated similarities are one table, and everything downstream is the same function of it.
-/
import proofs.«134130_j44985487459095_1_alg».proof.Proof.Spec

noncomputable section

open scoped BigOperators

namespace Cert.Spec

open Idealize.ShloMosaic

/-- The constant `2.0` denotes the real `2`. -/
theorem two_eq : two = ((2 : ℝ) : EReal) := by
  simp [two, Ideal.ofBits, Ideal.ieee, -EReal.coe_mul]; norm_num

/-- The constant `0.5` denotes the real `1/2`. -/
theorem half_eq : half = ((1 / 2 : ℝ) : EReal) := by
  simp [half, Ideal.ofBits, Ideal.ieee, -EReal.coe_mul]; norm_num

/-- A finite sum of reals, read in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A row of real entries has a real sum of squares. -/
theorem ss_real (X : Mat) (hfin : ∀ r k, ∃ x : ℝ, X r k = (x : EReal)) (r : Fin 8192) :
    ∃ s : ℝ, ss X r = (s : EReal) := by
  choose x hx using hfin
  refine ⟨∑ k, x r k * x r k, ?_⟩
  unfold ss
  rw [← coe_sum]
  refine Finset.sum_congr rfl (fun k _ => ?_)
  rw [hx r k, EReal.coe_mul]

/-- Dividing an entry by the square root of its row's positive real sum of squares is multiplying it by the reciprocal
    square root. -/
theorem nR_eq_nK (X : Mat) (hfin : ∀ r k, ∃ x : ℝ, X r k = (x : EReal)) (hpos : ∀ r, 0 < ss X r) :
    nR X = nK X := by
  funext r k
  obtain ⟨s, hs⟩ := ss_real X hfin r
  have hsp : 0 < s := by
    have h := hpos r
    rw [hs] at h
    exact EReal.coe_pos.mp h
  have hne : Real.sqrt s ≠ 0 := (Real.sqrt_pos.mpr hsp).ne'
  unfold nR nK
  rw [hs, Ideal.sqrt_coe, Ideal.rsqrt_coe, if_neg (not_lt.mpr hsp.le), if_neg (not_lt.mpr hsp.le),
    if_neg hsp.ne', Ideal.div_coe hne, one_div]

/-- Multiplying by `2` is dividing by `1/2`. -/
theorem mul_two_eq_div_half (t : EReal) : t * two = Ideal.div t half := by
  have h : (1 / (1 / 2) : ℝ) = 2 := by norm_num
  rw [two_eq, half_eq, Ideal.div_coe (by norm_num), h]

/-- The two tables of exponentiated similarities are one table. -/
theorem eK_eq_eR (X : Mat) (hfin : ∀ r k, ∃ x : ℝ, X r k = (x : EReal)) (hpos : ∀ r, 0 < ss X r) :
    eK X = eR X := by
  funext r c
  unfold eK eR
  rw [nR_eq_nK X hfin hpos, mul_two_eq_div_half]

/-- On finite inputs with no zero row, the kernel's loss is the reference's. -/
theorem loss_eq (X : Mat) (hfin : ∀ r k, ∃ x : ℝ, X r k = (x : EReal)) (hpos : ∀ r, 0 < ss X r) :
    lossK X = lossR X := by
  unfold lossK lossR
  rw [eK_eq_eR X hfin hpos]

end Cert.Spec

end
-- ==== Proof.PreDecode.lean ====
/-
  What the precondition says of the input, entry by entry and row by row: every entry is a real number (its absolute
  value is below `+∞`), and every row's sum of squares is positive.

  The precondition is the conjunction of two "for all" statements, each an `and`-reduction of a table of truth values down
  to a single one. The conjunction is 1 exactly when both reductions are 1, and an `and`-reduction to a single value is 1
  only when every entry of the table is 1. An entry of the first table compares `max x (-x)` with the float whose bits
  are those of `+∞`; over the extended reals `max x (-x) < ⊤` rules out both `x = ⊤` and `x = ⊥`, so `x` is a real
  number. An entry of the second table compares `0` with `0 + ∑ k, x r k * x r k`, the row's sum of squares.
-/
import proofs.«134130_j44985487459095_1_alg».proof.Proof.Spec
import proofs.«134130_j44985487459095_1_alg».proof.Pre_finite_inputs
import Idealize.ShloMosaic.Lib.ReduceAll
import Idealize.ShloMosaic.Lib.ValueIdx
import Idealize.ShloMosaic.PureOps.Ideal.Laws

noncomputable section

open scoped BigOperators

namespace Cert.PreDecode

open Idealize.ShloMosaic Idealize.ShloMosaic.ValueIdx

variable [Cert.Pre_finite_inputs.Facts]

/-- A truth value that is the bit 1 is a true proposition. -/
theorem of_ofBool_decide {p : Prop} [Decidable p] (h : BitVec.ofBool (decide p) = 1#1) : p := by
  by_contra hp
  simp [hp] at h

/-- An extended real whose absolute value `max x (-x)` is below `⊤` is neither infinity: it is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- The f32 pattern with all exponent bits set, sign and significand clear, denotes `+∞`. -/
theorem ofBits_inf_f32 : Ideal.ofBits .f32 0x7F800000#32 = ⊤ := by simp [Ideal.ofBits, Ideal.ieee]

/-- From the printed precondition at the ideal instance: the input's entries are real and no row is zero. -/
theorem of_pre (a : FVec Ideal Cert.Pre_finite_inputs.S8192x256 .f32)
    (h : Cert.Pre_finite_inputs.fn (F := Ideal) a = fun _ => 1#1) :
    (∀ r k, ∃ x : ℝ, Cert.Spec.matOf a r k = (x : EReal)) ∧ (∀ r, 0 < Cert.Spec.ss (Cert.Spec.matOf a) r) := by
  -- the scalar shape has a single index, so a reduction into it gathers every entry of its operand
  haveI : Subsingleton Cert.Pre_finite_inputs.S_.Idx := ⟨fun i j => funext fun d => d.elim0⟩
  have h0 := congrFun h ValueIdx.ix0
  dsimp only [Cert.Pre_finite_inputs.fn] at h0
  -- the conjunction is 1: both "for all" reductions are 1, hence every entry of each table is 1
  obtain ⟨hA, hB⟩ := IntOp.andi_eq_one.1 h0
  have hfin := Host.reduce_andi_all _ _ _ _ _ hA
  have hrow := Host.reduce_andi_all _ _ _ _ _ hB
  constructor
  · -- entry (r, k): |x| < +∞, so x is real
    intro r k
    have e : BitVec.ofBool (decide (max (a (ix2 r k)) (-(a (ix2 r k))) < Ideal.ofBits .f32 0x7F800000#32)) = 1#1 :=
      hfin (ix2 r k)
    have e2 := of_ofBool_decide e
    rw [ofBits_inf_f32] at e2
    exact real_of_abs_lt_top _ e2
  · -- row r: 0 < 0 + ∑ k, x r k * x r k, the sum running over the second axis's coordinates
    intro r
    have hR : Cert.Pre_finite_inputs.S8192x256.Reduces [1] Cert.Pre_finite_inputs.S8192 := by decide
    have e : BitVec.ofBool (decide ((Ideal.ofBits .f32 0x00000000#32 : EReal)
        < Ideal.hostReduceAdd Cert.Pre_finite_inputs.Facts.reducesTo_S8192x256_S8192_d1 (mulf a a)
            (Ideal.ofBits .f32 0x00000000#32) (ix1 r))) = 1#1 := hrow (ix1 r)
    have e2 := of_ofBool_decide e
    rw [Ideal.hostReduceAdd_single _ hR, Ideal.ofBits_zero_f32, zero_add] at e2
    -- the row index r with the coordinate k put back on the summed axis is the entry (r, k)
    have hl : ∀ k : Fin 256, hR.lift (ix1 r) k = ix2 r k := fun k => by
      funext c
      match c with
      | ⟨0, _⟩ => exact Fin.ext rfl
      | ⟨1, _⟩ => exact Fin.ext rfl
    have hs : (∑ k : Fin 256, a (ix2 r k) * a (ix2 r k)) = ∑ k : Fin 256, mulf a a (hR.lift (ix1 r) k) :=
      Finset.sum_congr rfl fun k _ => by rw [hl k]; rfl
    show 0 < ∑ k : Fin 256, a (ix2 r k) * a (ix2 r k)
    rw [hs]
    exact e2

end Cert.PreDecode

end
-- ==== Proof.lean ====
/-
  The certificate: the contrastive-loss kernel against its reference.

  Both programs compute, for an input of 8192 rows of 256 features, the mean over the rows of
  `-log (e r (r + 4096 mod 8192) / ((∑ c, e r c) - e r r))`, where `e r c` is the exponential of the inner product of the
  normalised rows `r` and `c` over the temperature `1/2`. The kernel normalises a row by multiplying with the reciprocal
  square root of its sum of squares, multiplies the inner products by `2`, and builds each row's three sums tile by tile
  over a 16 × 16 grid; the reference divides by the square root, divides by `1/2`, and reads the full table. On the
  admitted inputs — every entry finite, no row zero — a row's sum of squares is a positive real, so the two normalisations
  and the two scalings are the same extended reals and the two results are equal. The three programs run to the end and
  leave the input as it was; the idealized kernel is the kernel's own text read at the ideal instance (nothing was rewritten).
-/
import proofs.«134130_j44985487459095_1_alg».proof.Defs
import proofs.«134130_j44985487459095_1_alg».proof.Proof.Gen.Kernel
import proofs.«134130_j44985487459095_1_alg».proof.Proof.Gen.KernelIdeal
import proofs.«134130_j44985487459095_1_alg».proof.Proof.Gen.ReferenceIdeal
import proofs.«134130_j44985487459095_1_alg».proof.Proof.Gen.Pre_finite_inputs
import proofs.«134130_j44985487459095_1_alg».proof.Proof.K.Launch
import proofs.«134130_j44985487459095_1_alg».proof.Proof.KI.Launch
import proofs.«134130_j44985487459095_1_alg».proof.Proof.KI.Value
import proofs.«134130_j44985487459095_1_alg».proof.Proof.R.Run
import proofs.«134130_j44985487459095_1_alg».proof.Proof.R.Value
import proofs.«134130_j44985487459095_1_alg».proof.Proof.Bridge
import proofs.«134130_j44985487459095_1_alg».proof.Proof.PreDecode

noncomputable section

namespace Cert.Proof

open Idealize.ShloMosaic Idealize.SL.Sem

/-- The word-level kernel runs and leaves its argument unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- And the reference: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- The two idealized programs end with equal results: the kernel's is the loss computed its way, the reference's the
    loss computed its way, and on a finite input with no zero row the two ways agree. -/
theorem algebraic : Cert.algebraic_KernelIdeal_ReferenceIdeal := by
  intro m ρ m' ρ' hpre hagree
  refine ⟨fun c => (fun _ => Cert.Spec.lossK (Cert.KernelIdeal.Hand.Xof m c)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨?_, (h c).2⟩)
      (Cert.ReferenceIdeal.RefValue.run (F := Ideal) m' ρ')
    obtain ⟨hfin, hpos⟩ := Cert.PreDecode.of_pre _ (hpre c)
    rw [(h c).1, Cert.ReferenceIdeal.RefValue.refVal_eq, hagree c]
    funext _
    exact (Cert.Spec.loss_eq _ hfin hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
